-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x4 : Shape := ⟨2, ![100000, 4]⟩
abbrev S2x1600000 : Shape := ⟨2, ![2, 1600000]⟩
abbrev S1600000 : Shape := ⟨1, ![1600000]⟩
abbrev S100000 : Shape := ⟨1, ![100000]⟩
abbrev S4x64 : Shape := ⟨2, ![4, 64]⟩
abbrev S64 : Shape := ⟨1, ![64]⟩
abbrev S2x64x64 : Shape := ⟨3, ![2, 64, 64]⟩
abbrev S2x64 : Shape := ⟨2, ![2, 64]⟩
abbrev S64x128 : Shape := ⟨2, ![64, 128]⟩
abbrev S128 : Shape := ⟨1, ![128]⟩
abbrev S128x3 : Shape := ⟨2, ![128, 3]⟩
abbrev S3 : Shape := ⟨1, ![3]⟩
abbrev S_ : Shape := ⟨0, ![]⟩

class Facts : Prop where
  bcast_S_S100000x4 : S_.BroadcastsInDim S100000x4 (![] : Fin 0 → Fin S100000x4.rank)
  reducesTo_S100000x4_S_d0_1 : S100000x4.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S4x64 : S_.BroadcastsInDim S4x64 (![] : Fin 0 → Fin S4x64.rank)
  reducesTo_S4x64_S_d0_1 : S4x64.ReducesTo [0, 1] S_
  bcast_S_S64 : S_.BroadcastsInDim S64 (![] : Fin 0 → Fin S64.rank)
  reducesTo_S64_S_d0 : S64.ReducesTo [0] S_
  bcast_S_S2x64x64 : S_.BroadcastsInDim S2x64x64 (![] : Fin 0 → Fin S2x64x64.rank)
  reducesTo_S2x64x64_S_d0_1_2 : S2x64x64.ReducesTo [0, 1, 2] S_
  bcast_S_S2x64 : S_.BroadcastsInDim S2x64 (![] : Fin 0 → Fin S2x64.rank)
  reducesTo_S2x64_S_d0_1 : S2x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x3 : S_.BroadcastsInDim S128x3 (![] : Fin 0 → Fin S128x3.rank)
  reducesTo_S128x3_S_d0_1 : S128x3.ReducesTo [0, 1] S_
  bcast_S_S3 : S_.BroadcastsInDim S3 (![] : Fin 0 → Fin S3.rank)
  reducesTo_S3_S_d0 : S3.ReducesTo [0] S_
  bcast_S_S2x1600000 : S_.BroadcastsInDim S2x1600000 (![] : Fin 0 → Fin S2x1600000.rank)
  reducesTo_S2x1600000_S_d0_1 : S2x1600000.ReducesTo [0, 1] S_

variable [Facts]

def fn_part4 {F : FTy → Type} [FloatOps F] (main_v63 : IVec S_ 1) (main_v65 : IVec S2x1600000 1) (main_v67 : IVec S2x1600000 1) : IVec S_ 1 :=
  let main_v68 : IVec S2x1600000 1 := andi main_v65 main_v67
  let main_c_26 : IVec S_ 1 := constantI S_ 1 1#1
  let main_v69 : IVec S_ 1 := (fun x v => Host.reduce IntOp.andi x v reducesTo_S2x1600000_S_d0_1 h_S_) main_v68 main_c_26
  let main_v70 : IVec S_ 1 := andi main_v63 main_v69
  main_v70

def fn_part3 {F : FTy → Type} [FloatOps F] (main_arg1 : IVec S2x1600000 32) (main_arg13 : FVec F S128x3 .f32) (main_arg14 : FVec F S3 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x3 .f32 := Host.absf main_arg13
  let main_cst_20 : FVec F S_ .f32 := constant S_ .f32 0x7F800000#32
  let main_v55 : FVec F S128x3 .f32 := broadcastInDim S128x3 ![] bcast_S_S128x3 main_cst_20
  let main_v56 : IVec S128x3 1 := cmpf .olt main_v54 main_v55
  let main_c_21 : IVec S_ 1 := constantI S_ 1 1#1
  let main_v57 : IVec S_ 1 := (fun x v => Host.reduce IntOp.andi x v reducesTo_S128x3_S_d0_1 h_S_) main_v56 main_c_21
  let main_v58 : IVec S_ 1 := andi main_v53 main_v57
  let main_v59 : FVec F S3 .f32 := Host.absf main_arg14
  let main_cst_22 : FVec F S_ .f32 := constant S_ .f32 0x7F800000#32
  let main_v60 : FVec F S3 .f32 := broadcastInDim S3 ![] bcast_S_S3 main_cst_22
  let main_v61 : IVec S3 1 := cmpf .olt main_v59 main_v60
  let main_c_23 : IVec S_ 1 := constantI S_ 1 1#1
  let main_v62 : IVec S_ 1 := (fun x v => Host.reduce IntOp.andi x v reducesTo_S3_S_d0 h_S_) main_v61 main_c_23
  let main_v63 : IVec S_ 1 := andi main_v58 main_v62
  let main_c_24 : IVec S_ 32 := constantI S_ 32 0#32
  let main_v64 : IVec S2x1600000 32 := broadcastInDim S2x1600000 ![] bcast_S_S2x1600000 main_c_24
  let main_v65 : IVec S2x1600000 1 := cmpi .sge main_arg1 main_v64
  let main_c_25 : IVec S_ 32 := constantI S_ 32 100000#32
  let main_v66 : IVec S2x1600000 32 := broadcastInDim S2x1600000 ![] bcast_S_S2x1600000 main_c_25
  let main_v67 : IVec S2x1600000 1 := cmpi .slt main_arg1 main_v66
  fn_part4 (F := F) main_v63 main_v65 main_v67

def fn_part2 {F : FTy → Type} [FloatOps F] (main_arg1 : IVec S2x1600000 32) (main_arg9 : FVec F S2x64x64 .f32) (main_arg10 : FVec F S2x64 .f32) (main_arg11 : FVec F S64x128 .f32) (main_arg12 : FVec F S128 .f32) (main_arg13 : FVec F S128x3 .f32) (main_arg14 : FVec F S3 .f32) (main_v33 : IVec S_ 1) : IVec S_ 1 :=
  let main_v34 : FVec F S2x64x64 .f32 := Host.absf main_arg9
  let main_cst_12 : FVec F S_ .f32 := constant S_ .f32 0x7F800000#32
  let main_v35 : FVec F S2x64x64 .f32 := broadcastInDim S2x64x64 ![] bcast_S_S2x64x64 main_cst_12
  let main_v36 : IVec S2x64x64 1 := cmpf .olt main_v34 main_v35
  let main_c_13 : IVec S_ 1 := constantI S_ 1 1#1
  let main_v37 : IVec S_ 1 := (fun x v => Host.reduce IntOp.andi x v reducesTo_S2x64x64_S_d0_1_2 h_S_) main_v36 main_c_13
  let main_v38 : IVec S_ 1 := andi main_v33 main_v37
  let main_v39 : FVec F S2x64 .f32 := Host.absf main_arg10
  let main_cst_14 : FVec F S_ .f32 := constant S_ .f32 0x7F800000#32
  let main_v40 : FVec F S2x64 .f32 := broadcastInDim S2x64 ![] bcast_S_S2x64 main_cst_14
  let main_v41 : IVec S2x64 1 := cmpf .olt main_v39 main_v40
  let main_c_15 : IVec S_ 1 := constantI S_ 1 1#1
  let main_v42 : IVec S_ 1 := (fun x v => Host.reduce IntOp.andi x v reducesTo_S2x64_S_d0_1 h_S_) main_v41 main_c_15
  let main_v43 : IVec S_ 1 := andi main_v38 main_v42
  let main_v44 : FVec F S64x128 .f32 := Host.absf main_arg11
  let main_cst_16 : FVec F S_ .f32 := constant S_ .f32 0x7F800000#32
  let main_v45 : FVec F S64x128 .f32 := broadcastInDim S64x128 ![] bcast_S_S64x128 main_cst_16
  let main_v46 : IVec S64x128 1 := cmpf .olt main_v44 main_v45
  let main_c_17 : IVec S_ 1 := constantI S_ 1 1#1
  let main_v47 : IVec S_ 1 := (fun x v => Host.reduce IntOp.andi x v reducesTo_S64x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg1 main_arg13 main_arg14 main_v48 main_v49 main_v50

def fn_part1 {F : FTy → Type} [FloatOps F] (main_arg1 : IVec S2x1600000 32) (main_arg6 : FVec F S2x64x64 .f32) (main_arg7 : FVec F S2x64 .f32) (main_arg8 : FVec F S2x64x64 .f32) (main_arg9 : FVec F S2x64x64 .f32) (main_arg10 : FVec F S2x64 .f32) (main_arg11 : FVec F S64x128 .f32) (main_arg12 : FVec F S128 .f32) (main_arg13 : FVec F S128x3 .f32) (main_arg14 : FVec F S3 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S2x64x64 .f32 := Host.absf main_arg6
  let main_cst_6 : FVec F S_ .f32 := constant S_ .f32 0x7F800000#32
  let main_v20 : FVec F S2x64x64 .f32 := broadcastInDim S2x64x64 ![] bcast_S_S2x64x64 main_cst_6
  let main_v21 : IVec S2x64x64 1 := cmpf .olt main_v19 main_v20
  let main_c_7 : IVec S_ 1 := constantI S_ 1 1#1
  let main_v22 : IVec S_ 1 := (fun x v => Host.reduce IntOp.andi x v reducesTo_S2x64x64_S_d0_1_2 h_S_) main_v21 main_c_7
  let main_v23 : IVec S_ 1 := andi main_v18 main_v22
  let main_v24 : FVec F S2x64 .f32 := Host.absf main_arg7
  let main_cst_8 : FVec F S_ .f32 := constant S_ .f32 0x7F800000#32
  let main_v25 : FVec F S2x64 .f32 := broadcastInDim S2x64 ![] bcast_S_S2x64 main_cst_8
  let main_v26 : IVec S2x64 1 := cmpf .olt main_v24 main_v25
  let main_c_9 : IVec S_ 1 := constantI S_ 1 1#1
  let main_v27 : IVec S_ 1 := (fun x v => Host.reduce IntOp.andi x v reducesTo_S2x64_S_d0_1 h_S_) main_v26 main_c_9
  let main_v28 : IVec S_ 1 := andi main_v23 main_v27
  let main_v29 : FVec F S2x64x64 .f32 := Host.absf main_arg8
  let main_cst_10 : FVec F S_ .f32 := constant S_ .f32 0x7F800000#32
  let main_v30 : FVec F S2x64x64 .f32 := broadcastInDim S2x64x64 ![] bcast_S_S2x64x64 main_cst_10
  let main_v31 : IVec S2x64x64 1 := cmpf .olt main_v29 main_v30
  let main_c_11 : IVec S_ 1 := constantI S_ 1 1#1
  let main_v32 : IVec S_ 1 := (fun x v => Host.reduce IntOp.andi x v reducesTo_S2x64x64_S_d0_1_2 h_S_) main_v31 main_c_11
  let main_v33 : IVec S_ 1 := andi main_v28 main_v32
  fn_part2 (F := F) main_arg1 main_arg9 main_arg10 main_arg11 main_arg12 main_arg13 main_arg14 main_v33

def fn {F : FTy → Type} [FloatOps F] (main_arg0 : FVec F S100000x4 .f32) (main_arg1 : IVec S2x1600000 32) (main_arg2 : FVec F S1600000 .f32) (main_arg3 : IVec S100000 32) (main_arg4 : FVec F S4x64 .f32) (main_arg5 : FVec F S64 .f32) (main_arg6 : FVec F S2x64x64 .f32) (main_arg7 : FVec F S2x64 .f32) (main_arg8 : FVec F S2x64x64 .f32) (main_arg9 : FVec F S2x64x64 .f32) (main_arg10 : FVec F S2x64 .f32) (main_arg11 : FVec F S64x128 .f32) (main_arg12 : FVec F S128 .f32) (main_arg13 : FVec F S128x3 .f32) (main_arg14 : FVec F S3 .f32) : IVec S_ 1 :=
  let main_v0 : FVec F S100000x4 .f32 := Host.absf main_arg0
  let main_cst : FVec F S_ .f32 := constant S_ .f32 0x7F800000#32
  let main_v1 : FVec F S100000x4 .f32 := broadcastInDim S100000x4 ![] bcast_S_S100000x4 main_cst
  let main_v2 : IVec S100000x4 1 := cmpf .olt main_v0 main_v1
  let main_c : IVec S_ 1 := constantI S_ 1 1#1
  let main_v3 : IVec S_ 1 := (fun x v => Host.reduce IntOp.andi x v reducesTo_S100000x4_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S4x64 .f32 := Host.absf main_arg4
  let main_cst_2 : FVec F S_ .f32 := constant S_ .f32 0x7F800000#32
  let main_v10 : FVec F S4x64 .f32 := broadcastInDim S4x64 ![] bcast_S_S4x64 main_cst_2
  let main_v11 : IVec S4x64 1 := cmpf .olt main_v9 main_v10
  let main_c_3 : IVec S_ 1 := constantI S_ 1 1#1
  let main_v12 : IVec S_ 1 := (fun x v => Host.reduce IntOp.andi x v reducesTo_S4x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg6 main_arg7 main_arg8 main_arg9 main_arg10 main_arg11 main_arg12 main_arg13 main_arg14 main_v13 main_v16
-- ==== Kernel.lean ====
abbrev S100000x4 : Shape := ⟨2, ![100000, 4]⟩
abbrev S2x1600000 : Shape := ⟨2, ![2, 1600000]⟩
abbrev S1600000 : Shape := ⟨1, ![1600000]⟩
abbrev S100000 : Shape := ⟨1, ![100000]⟩
abbrev S4x64 : Shape := ⟨2, ![4, 64]⟩
abbrev S64 : Shape := ⟨1, ![64]⟩
abbrev S2x64x64 : Shape := ⟨3, ![2, 64, 64]⟩
abbrev S2x64 : Shape := ⟨2, ![2, 64]⟩
abbrev S64x128 : Shape := ⟨2, ![64, 128]⟩
abbrev S128 : Shape := ⟨1, ![128]⟩
abbrev S128x3 : Shape := ⟨2, ![128, 3]⟩
abbrev S3 : Shape := ⟨1, ![3]⟩
abbrev S1x1600000 : Shape := ⟨2, ![1, 1600000]⟩
abbrev S1x64 : Shape := ⟨2, ![1, 64]⟩
abbrev S100000x64 : Shape := ⟨2, ![100000, 64]⟩
abbrev S5000x4 : Shape := ⟨2, ![5000, 4]⟩
abbrev S5000x64 : Shape := ⟨2, ![5000, 64]⟩
abbrev S1x64x64 : Shape := ⟨3, ![1, 64, 64]⟩
abbrev S64x64 : Shape := ⟨2, ![64, 64]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x64 : Shape := ⟨2, ![1600000, 64]⟩
abbrev S8000x64 : Shape := ⟨2, ![8000, 64]⟩
abbrev S8000x1 : Shape := ⟨2, ![8000, 1]⟩
abbrev S1000x64 : Shape := ⟨2, ![1000, 64]⟩
abbrev S100000x1 : Shape := ⟨2, ![100000, 1]⟩
abbrev S1000 : Shape := ⟨1, ![1000]⟩
abbrev S1000x1 : Shape := ⟨2, ![1000, 1]⟩
abbrev S1x128 : Shape := ⟨2, ![1, 128]⟩
abbrev S1x3 : Shape := ⟨2, ![1, 3]⟩
abbrev S1000x3 : Shape := ⟨2, ![1000, 3]⟩
abbrev S1000x128 : Shape := ⟨2, ![1000, 128]⟩

abbrev nBuf : Space → Nat
  | .hbm => 176
  | .vmem => 66
  | .smem => 0
  | _ => 0

abbrev hbmTy0_0 (i : Nat) : BufTy := match i % 128 with
  | 0 => ⟨S100000x4, .f32⟩
  | 1 => ⟨S2x1600000, .i32⟩
  | 2 => ⟨S1600000, .f32⟩
  | 3 => ⟨S100000, .i32⟩
  | 4 => ⟨S4x64, .f32⟩
  | 5 => ⟨S64, .f32⟩
  | 6 => ⟨S2x64x64, .f32⟩
  | 7 => ⟨S2x64, .f32⟩
  | 8 => ⟨S2x64x64, .f32⟩
  | 9 => ⟨S2x64x64, .f32⟩
  | 10 => ⟨S2x64, .f32⟩
  | 11 => ⟨S64x128, .f32⟩
  | 12 => ⟨S128, .f32⟩
  | 13 => ⟨S128x3, .f32⟩
  | 14 => ⟨S3, .f32⟩
  | 15 => ⟨S1x1600000, .i32⟩
  | 16 => ⟨S1600000, .i32⟩
  | 17 => ⟨S1x1600000, .i32⟩
  | 18 => ⟨S1600000, .i32⟩
  | 19 => ⟨S1x64, .f32⟩
  | 20 => ⟨S100000x64, .f32⟩
  | 21 => ⟨S1x64x64, .f32⟩
  | 22 => ⟨S64x64, .f32⟩
  | 23 => ⟨S1x64, .f32⟩
  | 24 => ⟨S64, .f32⟩
  | 25 => ⟨S1x64x64, .f32⟩
  | 26 => ⟨S64x64, .f32⟩
  | 27 => ⟨S1x64x64, .f32⟩
  | 28 => ⟨S64x64, .f32⟩
  | 29 => ⟨S1x64, .f32⟩
  | 30 => ⟨S64, .f32⟩
  | 31 => ⟨S1x64, .f32⟩
  | 32 => ⟨S1x64, .f32⟩
  | 33 => ⟨S100000x64, .f32⟩
  | 34 => ⟨S100000x64, .f32⟩
  | 35 => ⟨S100000x64, .f32⟩
  | 36 => ⟨S_, .i32⟩
  | 37 => ⟨S1600000, .i32⟩
  | 38 => ⟨S1600000, .i1⟩
  | 39 => ⟨S_, .i32⟩
  | 40 => ⟨S1600000, .i32⟩
  | 41 => ⟨S1600000, .i32⟩
  | 42 => ⟨S1600000, .i32⟩
  | 43 => ⟨S1600000x1, .i32⟩
  | 44 => ⟨S1, .i32⟩
  | 45 => ⟨S_, .i32⟩
  | 46 => ⟨S1600000x1, .i32⟩
  | 47 => ⟨S1600000x1, .i1⟩
  | 48 => ⟨S1x1, .i32⟩
  | 49 => ⟨S1600000x1, .i32⟩
  | 50 => ⟨S1600000x1, .i1⟩
  | 51 => ⟨S1600000x1, .i1⟩
  | 52 => ⟨S_, .i1⟩
  | 53 => ⟨S1600000, .i1⟩
  | 54 => ⟨S1600000x64, .f32⟩
  | 55 => ⟨S1600000x64, .i1⟩
  | 56 => ⟨S_, .f32⟩
  | 57 => ⟨S1600000x64, .f32⟩
  | 58 => ⟨S1600000x64, .f32⟩
  | 59 => ⟨S_, .i32⟩
  | 60 => ⟨S1600000, .i32⟩
  | 61 => ⟨S1600000, .i1⟩
  | 62 => ⟨S_, .i32⟩
  | 63 => ⟨S1600000, .i32⟩
  | 64 => ⟨S1600000, .i32⟩
  | 65 => ⟨S1600000, .i32⟩
  | 66 => ⟨S1600000x1, .i32⟩
  | 67 => ⟨S1, .i32⟩
  | 68 => ⟨S_, .i32⟩
  | 69 => ⟨S1600000x1, .i32⟩
  | 70 => ⟨S1600000x1, .i1⟩
  | 71 => ⟨S1x1, .i32⟩
  | 72 => ⟨S1600000x1, .i32⟩
  | 73 => ⟨S1600000x1, .i1⟩
  | 74 => ⟨S1600000x1, .i1⟩
  | 75 => ⟨S_, .i1⟩
  | 76 => ⟨S1600000, .i1⟩
  | 77 => ⟨S1600000x64, .f32⟩
  | 78 => ⟨S1600000x64, .i1⟩
  | 79 => ⟨S_, .f32⟩
  | 80 => ⟨S1600000x64, .f32⟩
  | 81 => ⟨S1600000x64, .f32⟩
  | 82 => ⟨S1600000x1, .f32⟩
  | 83 => ⟨S1600000x64, .f32⟩
  | 84 => ⟨S_, .f32⟩
  | 85 => ⟨S100000x64, .f32⟩
  | 86 => ⟨S1600000x1, .i32⟩
  | 87 => ⟨S100000x64, .f32⟩
  | 88 => ⟨S100000x64, .f32⟩
  | 89 => ⟨S1x64x64, .f32⟩
  | 90 => ⟨S64x64, .f32⟩
  | 91 => ⟨S1x64, .f32⟩
  | 92 => ⟨S64, .f32⟩
  | 93 => ⟨S1x64x64, .f32⟩
  | 94 => ⟨S64x64, .f32⟩
  | 95 => ⟨S1x64x64, .f32⟩
  | 96 => ⟨S64x64, .f32⟩
  | 97 => ⟨S1x64, .f32⟩
  | 98 => ⟨S64, .f32⟩
  | 99 => ⟨S1x64, .f32⟩
  | 100 => ⟨S1x64, .f32⟩
  | 101 => ⟨S100000x64, .f32⟩
  | 102 => ⟨S100000x64, .f32⟩
  | 103 => ⟨S100000x64, .f32⟩
  | 104 => ⟨S_, .i32⟩
  | 105 => ⟨S1600000, .i32⟩
  | 106 => ⟨S1600000, .i1⟩
  | 107 => ⟨S_, .i32⟩
  | 108 => ⟨S1600000, .i32⟩
  | 109 => ⟨S1600000, .i32⟩
  | 110 => ⟨S1600000, .i32⟩
  | 111 => ⟨S1600000x1, .i32⟩
  | 112 => ⟨S1, .i32⟩
  | 113 => ⟨S_, .i32⟩
  | 114 => ⟨S1600000x1, .i32⟩
  | 115 => ⟨S1600000x1, .i1⟩
  | 116 => ⟨S1x1, .i32⟩
  | 117 => ⟨S1600000x1, .i32⟩
  | 118 => ⟨S1600000x1, .i1⟩
  | 119 => ⟨S1600000x1, .i1⟩
  | 120 => ⟨S_, .i1⟩
  | 121 => ⟨S1600000, .i1⟩
  | 122 => ⟨S1600000x64, .f32⟩
  | 123 => ⟨S1600000x64, .i1⟩
  | 124 => ⟨S_, .f32⟩
  | 125 => ⟨S1600000x64, .f32⟩
  | 126 => ⟨S1600000x64, .f32⟩
  | 127 => ⟨S_, .i32⟩
  | _ => ⟨S100000x4, .f32⟩

abbrev hbmTy0_1 (i : Nat) : BufTy := match i % 128 with
  | 0 => ⟨S1600000, .i32⟩
  | 1 => ⟨S1600000, .i1⟩
  | 2 => ⟨S_, .i32⟩
  | 3 => ⟨S1600000, .i32⟩
  | 4 => ⟨S1600000, .i32⟩
  | 5 => ⟨S1600000, .i32⟩
  | 6 => ⟨S1600000x1, .i32⟩
  | 7 => ⟨S1, .i32⟩
  | 8 => ⟨S_, .i32⟩
  | 9 => ⟨S1600000x1, .i32⟩
  | 10 => ⟨S1600000x1, .i1⟩
  | 11 => ⟨S1x1, .i32⟩
  | 12 => ⟨S1600000x1, .i32⟩
  | 13 => ⟨S1600000x1, .i1⟩
  | 14 => ⟨S1600000x1, .i1⟩
  | 15 => ⟨S_, .i1⟩
  | 16 => ⟨S1600000, .i1⟩
  | 17 => ⟨S1600000x64, .f32⟩
  | 18 => ⟨S1600000x64, .i1⟩
  | 19 => ⟨S_, .f32⟩
  | 20 => ⟨S1600000x64, .f32⟩
  | 21 => ⟨S1600000x64, .f32⟩
  | 22 => ⟨S1600000x1, .f32⟩
  | 23 => ⟨S1600000x64, .f32⟩
  | 24 => ⟨S_, .f32⟩
  | 25 => ⟨S100000x64, .f32⟩
  | 26 => ⟨S1600000x1, .i32⟩
  | 27 => ⟨S100000x64, .f32⟩
  | 28 => ⟨S100000x64, .f32⟩
  | 29 => ⟨S_, .f32⟩
  | 30 => ⟨S1000x64, .f32⟩
  | 31 => ⟨S100000x1, .i32⟩
  | 32 => ⟨S1000x64, .f32⟩
  | 33 => ⟨S_, .f32⟩
  | 34 => ⟨S100000, .f32⟩
  | 35 => ⟨S_, .f32⟩
  | 36 => ⟨S1000, .f32⟩
  | 37 => ⟨S100000x1, .i32⟩
  | 38 => ⟨S1000, .f32⟩
  | 39 => ⟨S_, .f32⟩
  | 40 => ⟨S1000, .f32⟩
  | 41 => ⟨S1000, .f32⟩
  | 42 => ⟨S1000x1, .f32⟩
  | 43 => ⟨S1000x64, .f32⟩
  | 44 => ⟨S1000x64, .f32⟩
  | 45 => ⟨S1x128, .f32⟩
  | 46 => ⟨S1x3, .f32⟩
  | 47 => ⟨S1000x3, .f32⟩
  | _ => ⟨S100000x4, .f32⟩

abbrev hbmTy (i : Nat) : BufTy := match i / 128 with
  | 0 => hbmTy0_0 i
  | 1 => hbmTy0_1 i
  | _ => ⟨S100000x4, .f32⟩

abbrev bufTy : (tb : Table) → Fin (tcTables nBuf tb) → BufTy
  | .hbm, ⟨i, _⟩ => hbmTy i
  | .local _ .vmem, ⟨0, _⟩ => ⟨S5000x4, .f32⟩
  | .local _ .vmem, ⟨1, _⟩ => ⟨S5000x4, .f32⟩
  | .local _ .vmem, ⟨2, _⟩ => ⟨S4x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S64x64, .f32⟩
  | .local _ .vmem, ⟨9, _⟩ => ⟨S1x64, .f32⟩
  | .local _ .vmem, ⟨10, _⟩ => ⟨S64x64, .f32⟩
  | .local _ .vmem, ⟨11, _⟩ => ⟨S64x64, .f32⟩
  | .local _ .vmem, ⟨12, _⟩ => ⟨S1x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S8000x64, .f32⟩
  | .local _ .vmem, ⟨20, _⟩ => ⟨S8000x64, .f32⟩
  | .local _ .vmem, ⟨21, _⟩ => ⟨S8000x64, .f32⟩
  | .local _ .vmem, ⟨22, _⟩ => ⟨S8000x64, .f32⟩
  | .local _ .vmem, ⟨23, _⟩ => ⟨S8000x1, .f32⟩
  | .local _ .vmem, ⟨24, _⟩ => ⟨S8000x1, .f32⟩
  | .local _ .vmem, ⟨25, _⟩ => ⟨S8000x64, .f32⟩
  | .local _ .vmem, ⟨26, _⟩ => ⟨S8000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S64x64, .f32⟩
  | .local _ .vmem, ⟨36, _⟩ => ⟨S1x64, .f32⟩
  | .local _ .vmem, ⟨37, _⟩ => ⟨S64x64, .f32⟩
  | .local _ .vmem, ⟨38, _⟩ => ⟨S64x64, .f32⟩
  | .local _ .vmem, ⟨39, _⟩ => ⟨S1x64, .f32⟩
  | .local _ .vmem, ⟨40, _⟩ => ⟨S5000x64, .f32⟩
  | .local _ .vmem, ⟨41, _⟩ => ⟨S5000x64, .f32⟩
  | .local _ .vmem, ⟨42, _⟩ => ⟨S5000x64, .f32⟩
  | .local _ .vmem, ⟨43, _⟩ => ⟨S5000x64, .f32⟩
  | .local _ .vmem, ⟨44, _⟩ => ⟨S5000x64, .f32⟩
  | .local _ .vmem, ⟨45, _⟩ => ⟨S5000x64, .f32⟩
  | .local _ .vmem, ⟨46, _⟩ => ⟨S8000x64, .f32⟩
  | .local _ .vmem, ⟨47, _⟩ => ⟨S8000x64, .f32⟩
  | .local _ .vmem, ⟨48, _⟩ => ⟨S8000x64, .f32⟩
  | .local _ .vmem, ⟨49, _⟩ => ⟨S8000x64, .f32⟩
  | .local _ .vmem, ⟨50, _⟩ => ⟨S8000x1, .f32⟩
  | .local _ .vmem, ⟨51, _⟩ => ⟨S8000x1, .f32⟩
  | .local _ .vmem, ⟨52, _⟩ => ⟨S8000x64, .f32⟩
  | .local _ .vmem, ⟨53, _⟩ => ⟨S8000x64, .f32⟩
  | .local _ .vmem, ⟨54, _⟩ => ⟨S5000x64, .f32⟩
  | .local _ .vmem, ⟨55, _⟩ => ⟨S5000x64, .f32⟩
  | .local _ .vmem, ⟨56, _⟩ => ⟨S5000x64, .f32⟩
  | .local _ .vmem, ⟨57, _⟩ => ⟨S5000x64, .f32⟩
  | .local _ .vmem, ⟨58, _⟩ => ⟨S5000x64, .f32⟩
  | .local _ .vmem, ⟨59, _⟩ => ⟨S5000x64, .f32⟩
  | .local _ .vmem, ⟨60, _⟩ => ⟨S1000x64, .f32⟩
  | .local _ .vmem, ⟨61, _⟩ => ⟨S64x128, .f32⟩
  | .local _ .vmem, ⟨62, _⟩ => ⟨S1x128, .f32⟩
  | .local _ .vmem, ⟨63, _⟩ => ⟨S128x3, .f32⟩
  | .local _ .vmem, ⟨64, _⟩ => ⟨S1x3, .f32⟩
  | .local _ .vmem, ⟨65, _⟩ => ⟨S1000x3, .f32⟩
  | _, _ => ⟨S100000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18_0 : Ref sig .tc := ⟨.hbm, 33, rfl⟩
abbrev main_v18_1 : Ref sig .tc := ⟨.hbm, 34, rfl⟩
abbrev main_v18_2 : Ref sig .tc := ⟨.hbm, 35, rfl⟩
abbrev main_call0_c : Ref sig .tc := ⟨.hbm, 36, rfl⟩
abbrev main_call0_v0 : Ref sig .tc := ⟨.hbm, 37, rfl⟩
abbrev main_call0_v1 : Ref sig .tc := ⟨.hbm, 38, rfl⟩
abbrev main_call0_c_0 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_call0_v5 : Ref sig .tc := ⟨.hbm, 43, rfl⟩
abbrev main_call0_c_1 : Ref sig .tc := ⟨.hbm, 44, rfl⟩
abbrev main_call0_c_2 : Ref sig .tc := ⟨.hbm, 45, rfl⟩
abbrev main_call0_v6 : Ref sig .tc := ⟨.hbm, 46, rfl⟩
abbrev main_call0_v7 : Ref sig .tc := ⟨.hbm, 47, rfl⟩
abbrev main_call0_v8 : Ref sig .tc := ⟨.hbm, 48, rfl⟩
abbrev main_call0_v9 : Ref sig .tc := ⟨.hbm, 49, rfl⟩
abbrev main_call0_v10 : Ref sig .tc := ⟨.hbm, 50, rfl⟩
abbrev main_call0_v11 : Ref sig .tc := ⟨.hbm, 51, rfl⟩
abbrev main_call0_c_3 : Ref sig .tc := ⟨.hbm, 52, rfl⟩
abbrev main_call0_v12 : Ref sig .tc := ⟨.hbm, 53, rfl⟩
abbrev main_call0_v13 : Ref sig .tc := ⟨.hbm, 54, rfl⟩
abbrev main_call0_v14 : Ref sig .tc := ⟨.hbm, 55, rfl⟩
abbrev main_call0_cst : Ref sig .tc := ⟨.hbm, 56, rfl⟩
abbrev main_call0_v15 : Ref sig .tc := ⟨.hbm, 57, rfl⟩
abbrev main_v19 : Ref sig .tc := ⟨.hbm, 58, rfl⟩
abbrev main_call1_c : Ref sig .tc := ⟨.hbm, 59, rfl⟩
abbrev main_call1_v0 : Ref sig .tc := ⟨.hbm, 60, rfl⟩
abbrev main_call1_v1 : Ref sig .tc := ⟨.hbm, 61, rfl⟩
abbrev main_call1_c_0 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_call1_v5 : Ref sig .tc := ⟨.hbm, 66, rfl⟩
abbrev main_call1_c_1 : Ref sig .tc := ⟨.hbm, 67, rfl⟩
abbrev main_call1_c_2 : Ref sig .tc := ⟨.hbm, 68, rfl⟩
abbrev main_call1_v6 : Ref sig .tc := ⟨.hbm, 69, rfl⟩
abbrev main_call1_v7 : Ref sig .tc := ⟨.hbm, 70, rfl⟩
abbrev main_call1_v8 : Ref sig .tc := ⟨.hbm, 71, rfl⟩
abbrev main_call1_v9 : Ref sig .tc := ⟨.hbm, 72, rfl⟩
abbrev main_call1_v10 : Ref sig .tc := ⟨.hbm, 73, rfl⟩
abbrev main_call1_v11 : Ref sig .tc := ⟨.hbm, 74, rfl⟩
abbrev main_call1_c_3 : Ref sig .tc := ⟨.hbm, 75, rfl⟩
abbrev main_call1_v12 : Ref sig .tc := ⟨.hbm, 76, rfl⟩
abbrev main_call1_v13 : Ref sig .tc := ⟨.hbm, 77, rfl⟩
abbrev main_call1_v14 : Ref sig .tc := ⟨.hbm, 78, rfl⟩
abbrev main_call1_cst : Ref sig .tc := ⟨.hbm, 79, rfl⟩
abbrev main_call1_v15 : Ref sig .tc := ⟨.hbm, 80, rfl⟩
abbrev main_v20 : Ref sig .tc := ⟨.hbm, 81, rfl⟩
abbrev main_v21 : Ref sig .tc := ⟨.hbm, 82, rfl⟩
abbrev main_v22 : Ref sig .tc := ⟨.hbm, 83, rfl⟩
abbrev main_cst : Ref sig .tc := ⟨.hbm, 84, rfl⟩
abbrev main_v23 : Ref sig .tc := ⟨.hbm, 85, rfl⟩
abbrev main_v24 : Ref sig .tc := ⟨.hbm, 86, rfl⟩
abbrev main_v25 : Ref sig .tc := ⟨.hbm, 87, rfl⟩
abbrev main_v26 : Ref sig .tc := ⟨.hbm, 88, rfl⟩
abbrev main_v27 : Ref sig .tc := ⟨.hbm, 89, rfl⟩
abbrev main_v28 : Ref sig .tc := ⟨.hbm, 90, rfl⟩
abbrev main_v29 : Ref sig .tc := ⟨.hbm, 91, rfl⟩
abbrev main_v30 : Ref sig .tc := ⟨.hbm, 92, rfl⟩
abbrev main_v31 : Ref sig .tc := ⟨.hbm, 93, rfl⟩
abbrev main_v32 : Ref sig .tc := ⟨.hbm, 94, rfl⟩
abbrev main_v33 : Ref sig .tc := ⟨.hbm, 95, rfl⟩
abbrev main_v34 : Ref sig .tc := ⟨.hbm, 96, rfl⟩
abbrev main_v35 : Ref sig .tc := ⟨.hbm, 97, rfl⟩
abbrev main_v36 : Ref sig .tc := ⟨.hbm, 98, rfl⟩
abbrev main_v37 : Ref sig .tc := ⟨.hbm, 99, rfl⟩
abbrev main_v38 : Ref sig .tc := ⟨.hbm, 100, rfl⟩
abbrev main_v39_0 : Ref sig .tc := ⟨.hbm, 101, rfl⟩
abbrev main_v39_1 : Ref sig .tc := ⟨.hbm, 102, rfl⟩
abbrev main_v39_2 : Ref sig .tc := ⟨.hbm, 103, rfl⟩
abbrev main_call2_c : Ref sig .tc := ⟨.hbm, 104, rfl⟩
abbrev main_call2_v0 : Ref sig .tc := ⟨.hbm, 105, rfl⟩
abbrev main_call2_v1 : Ref sig .tc := ⟨.hbm, 106, rfl⟩
abbrev main_call2_c_0 : Ref sig .tc := ⟨.hbm, 107, rfl⟩
abbrev main_call2_v2 : Ref sig .tc := ⟨.hbm, 108, rfl⟩
abbrev main_call2_v3 : Ref sig .tc := ⟨.hbm, 109, rfl⟩
abbrev main_call2_v4 : Ref sig .tc := ⟨.hbm, 110, rfl⟩
abbrev main_call2_v5 : Ref sig .tc := ⟨.hbm, 111, rfl⟩
abbrev main_call2_c_1 : Ref sig .tc := ⟨.hbm, 112, rfl⟩
abbrev main_call2_c_2 : Ref sig .tc := ⟨.hbm, 113, rfl⟩
abbrev main_call2_v6 : Ref sig .tc := ⟨.hbm, 114, rfl⟩
abbrev main_call2_v7 : Ref sig .tc := ⟨.hbm, 115, rfl⟩
abbrev main_call2_v8 : Ref sig .tc := ⟨.hbm, 116, rfl⟩
abbrev main_call2_v9 : Ref sig .tc := ⟨.hbm, 117, rfl⟩
abbrev main_call2_v10 : Ref sig .tc := ⟨.hbm, 118, rfl⟩
abbrev main_call2_v11 : Ref sig .tc := ⟨.hbm, 119, rfl⟩
abbrev main_call2_c_3 : Ref sig .tc := ⟨.hbm, 120, rfl⟩
abbrev main_call2_v12 : Ref sig .tc := ⟨.hbm, 121, rfl⟩
abbrev main_call2_v13 : Ref sig .tc := ⟨.hbm, 122, rfl⟩
abbrev main_call2_v14 : Ref sig .tc := ⟨.hbm, 123, rfl⟩
abbrev main_call2_cst : Ref sig .tc := ⟨.hbm, 124, rfl⟩
abbrev main_call2_v15 : Ref sig .tc := ⟨.hbm, 125, rfl⟩
abbrev main_v40 : Ref sig .tc := ⟨.hbm, 126, rfl⟩
abbrev main_call3_c : Ref sig .tc := ⟨.hbm, 127, rfl⟩
abbrev main_call3_v0 : Ref sig .tc := ⟨.hbm, 128, rfl⟩
abbrev main_call3_v1 : Ref sig .tc := ⟨.hbm, 129, rfl⟩
abbrev main_call3_c_0 : Ref sig .tc := ⟨.hbm, 130, rfl⟩
abbrev main_call3_v2 : Ref sig .tc := ⟨.hbm, 131, rfl⟩
abbrev main_call3_v3 : Ref sig .tc := ⟨.hbm, 132, rfl⟩
abbrev main_call3_v4 : Ref sig .tc := ⟨.hbm, 133, rfl⟩
abbrev main_call3_v5 : Ref sig .tc := ⟨.hbm, 134, rfl⟩
abbrev main_call3_c_1 : Ref sig .tc := ⟨.hbm, 135, rfl⟩
abbrev main_call3_c_2 : Ref sig .tc := ⟨.hbm, 136, rfl⟩
abbrev main_call3_v6 : Ref sig .tc := ⟨.hbm, 137, rfl⟩
abbrev main_call3_v7 : Ref sig .tc := ⟨.hbm, 138, rfl⟩
abbrev main_call3_v8 : Ref sig .tc := ⟨.hbm, 139, rfl⟩
abbrev main_call3_v9 : Ref sig .tc := ⟨.hbm, 140, rfl⟩
abbrev main_call3_v10 : Ref sig .tc := ⟨.hbm, 141, rfl⟩
abbrev main_call3_v11 : Ref sig .tc := ⟨.hbm, 142, rfl⟩
abbrev main_call3_c_3 : Ref sig .tc := ⟨.hbm, 143, rfl⟩
abbrev main_call3_v12 : Ref sig .tc := ⟨.hbm, 144, rfl⟩
abbrev main_call3_v13 : Ref sig .tc := ⟨.hbm, 145, rfl⟩
abbrev main_call3_v14 : Ref sig .tc := ⟨.hbm, 146, rfl⟩
abbrev main_call3_cst : Ref sig .tc := ⟨.hbm, 147, rfl⟩
abbrev main_call3_v15 : Ref sig .tc := ⟨.hbm, 148, rfl⟩
abbrev main_v41 : Ref sig .tc := ⟨.hbm, 149, rfl⟩
abbrev main_v42 : Ref sig .tc := ⟨.hbm, 150, rfl⟩
abbrev main_v43 : Ref sig .tc := ⟨.hbm, 151, rfl⟩
abbrev main_cst_0 : Ref sig .tc := ⟨.hbm, 152, rfl⟩
abbrev main_v44 : Ref sig .tc := ⟨.hbm, 153, rfl⟩
abbrev main_v45 : Ref sig .tc := ⟨.hbm, 154, rfl⟩
abbrev main_v46 : Ref sig .tc := ⟨.hbm, 155, rfl⟩
abbrev main_v47 : Ref sig .tc := ⟨.hbm, 156, rfl⟩
abbrev main_cst_1 : Ref sig .tc := ⟨.hbm, 157, rfl⟩
abbrev main_v48 : Ref sig .tc := ⟨.hbm, 158, rfl⟩
abbrev main_v49 : Ref sig .tc := ⟨.hbm, 159, rfl⟩
abbrev main_v50 : Ref sig .tc := ⟨.hbm, 160, rfl⟩
abbrev main_cst_2 : Ref sig .tc := ⟨.hbm, 161, rfl⟩
abbrev main_v51 : Ref sig .tc := ⟨.hbm, 162, rfl⟩
abbrev main_cst_3 : Ref sig .tc := ⟨.hbm, 163, rfl⟩
abbrev main_v52 : Ref sig .tc := ⟨.hbm, 164, rfl⟩
abbrev main_v53 : Ref sig .tc := ⟨.hbm, 165, rfl⟩
abbrev main_v54 : Ref sig .tc := ⟨.hbm, 166, rfl⟩
abbrev main_cst_4 : Ref sig .tc := ⟨.hbm, 167, rfl⟩
abbrev main_v55 : Ref sig .tc := ⟨.hbm, 168, rfl⟩
abbrev main_v56 : Ref sig .tc := ⟨.hbm, 169, rfl⟩
abbrev main_v57 : Ref sig .tc := ⟨.hbm, 170, rfl⟩
abbrev main_v58 : Ref sig .tc := ⟨.hbm, 171, rfl⟩
abbrev main_v59 : Ref sig .tc := ⟨.hbm, 172, rfl⟩
abbrev main_v60 : Ref sig .tc := ⟨.hbm, 173, rfl⟩
abbrev main_v61 : Ref sig .tc := ⟨.hbm, 174, rfl⟩
abbrev main_v62 : Ref sig .tc := ⟨.hbm, 175, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg6_1 : Ref sig .tc := ⟨.vmem, 14, rfl⟩
abbrev cc1_stg7_0 : Ref sig .tc := ⟨.vmem, 15, rfl⟩
abbrev cc1_stg7_1 : Ref sig .tc := ⟨.vmem, 16, rfl⟩
abbrev cc1_stg8_0 : Ref sig .tc := ⟨.vmem, 17, rfl⟩
abbrev cc1_stg8_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg3_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc4_stg0_0 : Ref sig .tc := ⟨.vmem, 33, rfl⟩
abbrev cc4_stg0_1 : Ref sig .tc := ⟨.vmem, 34, rfl⟩
abbrev cc4_stg1_0 : Ref sig .tc := ⟨.vmem, 35, rfl⟩
abbrev cc4_stg2_0 : Ref sig .tc := ⟨.vmem, 36, rfl⟩
abbrev cc4_stg3_0 : Ref sig .tc := ⟨.vmem, 37, rfl⟩
abbrev cc4_stg4_0 : Ref sig .tc := ⟨.vmem, 38, rfl⟩
abbrev cc4_stg5_0 : Ref sig .tc := ⟨.vmem, 39, rfl⟩
abbrev cc4_stg6_0 : Ref sig .tc := ⟨.vmem, 40, rfl⟩
abbrev cc4_stg6_1 : Ref sig .tc := ⟨.vmem, 41, rfl⟩
abbrev cc4_stg7_0 : Ref sig .tc := ⟨.vmem, 42, rfl⟩
abbrev cc4_stg7_1 : Ref sig .tc := ⟨.vmem, 43, rfl⟩
abbrev cc4_stg8_0 : Ref sig .tc := ⟨.vmem, 44, rfl⟩
abbrev cc4_stg8_1 : Ref sig .tc := ⟨.vmem, 45, rfl⟩
abbrev cc5_stg0_0 : Ref sig .tc := ⟨.vmem, 46, rfl⟩
abbrev cc5_stg0_1 : Ref sig .tc := ⟨.vmem, 47, rfl⟩
abbrev cc5_stg1_0 : Ref sig .tc := ⟨.vmem, 48, rfl⟩
abbrev cc5_stg1_1 : Ref sig .tc := ⟨.vmem, 49, rfl⟩
abbrev cc5_stg2_0 : Ref sig .tc := ⟨.vmem, 50, rfl⟩
abbrev cc5_stg2_1 : Ref sig .tc := ⟨.vmem, 51, rfl⟩
abbrev cc5_stg3_0 : Ref sig .tc := ⟨.vmem, 52, rfl⟩
abbrev cc5_stg3_1 : Ref sig .tc := ⟨.vmem, 53, rfl⟩
abbrev cc6_stg0_0 : Ref sig .tc := ⟨.vmem, 54, rfl⟩
abbrev cc6_stg0_1 : Ref sig .tc := ⟨.vmem, 55, rfl⟩
abbrev cc6_stg1_0 : Ref sig .tc := ⟨.vmem, 56, rfl⟩
abbrev cc6_stg1_1 : Ref sig .tc := ⟨.vmem, 57, rfl⟩
abbrev cc6_stg2_0 : Ref sig .tc := ⟨.vmem, 58, rfl⟩
abbrev cc6_stg2_1 : Ref sig .tc := ⟨.vmem, 59, rfl⟩
abbrev cc7_stg0_0 : Ref sig .tc := ⟨.vmem, 60, rfl⟩
abbrev cc7_stg1_0 : Ref sig .tc := ⟨.vmem, 61, rfl⟩
abbrev cc7_stg2_0 : Ref sig .tc := ⟨.vmem, 62, rfl⟩
abbrev cc7_stg3_0 : Ref sig .tc := ⟨.vmem, 63, rfl⟩
abbrev cc7_stg4_0 : Ref sig .tc := ⟨.vmem, 64, rfl⟩
abbrev cc7_stg5_0 : Ref sig .tc := ⟨.vmem, 65, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem6_1 : DmaSem sig := 14
abbrev cc1_sem7_0 : DmaSem sig := 15
abbrev cc1_sem7_1 : DmaSem sig := 16
abbrev cc1_sem8_0 : DmaSem sig := 17
abbrev cc1_sem8_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem2_1 : DmaSem sig := 24
abbrev cc2_sem3_0 : DmaSem sig := 25
abbrev cc2_sem3_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem2_1 : DmaSem sig := 32
abbrev cc4_sem0_0 : DmaSem sig := 33
abbrev cc4_sem0_1 : DmaSem sig := 34
abbrev cc4_sem1_0 : DmaSem sig := 35
abbrev cc4_sem2_0 : DmaSem sig := 36
abbrev cc4_sem3_0 : DmaSem sig := 37
abbrev cc4_sem4_0 : DmaSem sig := 38
abbrev cc4_sem5_0 : DmaSem sig := 39
abbrev cc4_sem6_0 : DmaSem sig := 40
abbrev cc4_sem6_1 : DmaSem sig := 41
abbrev cc4_sem7_0 : DmaSem sig := 42
abbrev cc4_sem7_1 : DmaSem sig := 43
abbrev cc4_sem8_0 : DmaSem sig := 44
abbrev cc4_sem8_1 : DmaSem sig := 45
abbrev cc5_sem0_0 : DmaSem sig := 46
abbrev cc5_sem0_1 : DmaSem sig := 47
abbrev cc5_sem1_0 : DmaSem sig := 48
abbrev cc5_sem1_1 : DmaSem sig := 49
abbrev cc5_sem2_0 : DmaSem sig := 50
abbrev cc5_sem2_1 : DmaSem sig := 51
abbrev cc5_sem3_0 : DmaSem sig := 52
abbrev cc5_sem3_1 : DmaSem sig := 53
abbrev cc6_sem0_0 : DmaSem sig := 54
abbrev cc6_sem0_1 : DmaSem sig := 55
abbrev cc6_sem1_0 : DmaSem sig := 56
abbrev cc6_sem1_1 : DmaSem sig := 57
abbrev cc6_sem2_0 : DmaSem sig := 58
abbrev cc6_sem2_1 : DmaSem sig := 59
abbrev cc7_sem0_0 : DmaSem sig := 60
abbrev cc7_sem1_0 : DmaSem sig := 61
abbrev cc7_sem2_0 : DmaSem sig := 62
abbrev cc7_sem3_0 : DmaSem sig := 63
abbrev cc7_sem4_0 : DmaSem sig := 64
abbrev cc7_sem5_0 : DmaSem sig := 65

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S5000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S5000x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S8000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x64 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S5000x64 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 2 → Memref sig .tc .vmem S5000x64 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev grid5 : Pipeline.Grid := ⟨1, ![200], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S8000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S8000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S8000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S8000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S5000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![1], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 1 → Memref sig .tc .vmem S1000x64 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![false]

abbrev stage7_1 : Fin 1 → Memref sig .tc .vmem S64x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S128x3 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x3 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1000x3 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S64_S1x64 : S64.ShapeCasts S1x64
  inb_S5000x4_S5000x4_0_0 : ∀ a, (![0, 0] : Fin 2 → Nat) a + S5000x4.size a ≤ S5000x4.size a
  h_S5000x4 : 0 < S5000x4.numel
  bitsLt_bf16_f32 : FTy.bits .bf16 < FTy.bits .f32
  inb_S4x64_S4x64_0_0 : ∀ a, (![0, 0] : Fin 2 → Nat) a + S4x64.size a ≤ S4x64.size a
  h_S4x64 : 0 < S4x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  slices_S2x64x64_S1x64x64_0_0_0 : S2x64x64.Slices ![0, 0, 0] S1x64x64
  shapeCasts_S1x64x64_S64x64 : S1x64x64.ShapeCasts S64x64
  slices_S2x64_S1x64_0_0 : S2x64.Slices ![0, 0] S1x64
  shapeCasts_S1x64_S64 : S1x64.ShapeCasts S64
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  shapeCasts_S1600000_S1600000x1 : S1600000.ShapeCasts S1600000x1
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  broadcasts_S8000x1_S8000x64 : S8000x1.Broadcasts S8000x64
  bcast_S_S100000x64 : S_.BroadcastsInDim S100000x64 (![] : Fin 0 → Fin S100000x64.rank)
  slices_S2x64x64_S1x64x64_1_0_0 : S2x64x64.Slices ![1, 0, 0] S1x64x64
  slices_S2x64_S1x64_1_0 : S2x64.Slices ![1, 0] S1x64
  bcast_S_S1000x64 : S_.BroadcastsInDim S1000x64 (![] : Fin 0 → Fin S1000x64.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x64_0_1 : S1000x1.BroadcastsInDim S1000x64 (![0, 1] : Fin 2 → Fin S1000x64.rank)
  shapeCasts_S128_S1x128 : S128.ShapeCasts S1x128
  shapeCasts_S3_S1x3 : S3.ShapeCasts S1x3
  inb_S1000x64_S1000x64_0_0 : ∀ a, (![0, 0] : Fin 2 → Nat) a + S1000x64.size a ≤ S1000x64.size a
  h_S1000x64 : 0 < S1000x64.numel
  shapeCasts_S1000x64_S1000x64 : S1000x64.ShapeCasts S1000x64
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  inb_S128x3_S128x3_0_0 : ∀ a, (![0, 0] : Fin 2 → Nat) a + S128x3.size a ≤ S128x3.size a
  h_S128x3 : 0 < S128x3.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S1000x3 : S1x3.Broadcasts S1000x3
  inb_S1000x3_S1000x3_0_0 : ∀ a, (![0, 0] : Fin 2 → Nat) a + S1000x3.size a ≤ S1000x3.size a
  h_S1000x3 : 0 < S1000x3.numel
  dot_S5000x4_S4x64_S5000x64_1_0_0_1_n_n_wf : DotDims.WF S5000x4 S4x64 S5000x64 [1] [0] [0] [1] [] []
  dot_S5000x64_S64x64_S5000x64_1_0_0_1_n_n_wf : DotDims.WF S5000x64 S64x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S1000x64_S100000x1_S100000x64_1_0_0_1_wf : ScatterDims.WF S1000x64 S100000x1 S100000x64 [1] [0] [0] 1
  scatter_S1000_S100000x1_S100000_n_0_0_1_wf : ScatterDims.WF S1000 S100000x1 S100000 [] [0] [0] 1
  dot_S1000x64_S64x128_S1000x128_1_0_0_1_n_n_wf : DotDims.WF S1000x64 S64x128 S1000x128 [1] [0] [0] [1] [] []
  dot_S1000x128_S128x3_S1000x3_1_0_0_1_n_n_wf : DotDims.WF S1000x128 S128x3 S1000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x4.size a ≤ S100000x4.size a
  hwx0_0 : ∀ i : grid0.Coords, EltTy.bits .f32 = 32 ∨ (Rect.block (s := S100000x4) S5000x4.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x64.size a ≤ S4x64.size a
  hwx0_1 : ∀ i : grid0.Coords, EltTy.bits .f32 = 32 ∨ (Rect.block (s := S4x64) S4x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .f32 = 32 ∨ (Rect.block (s := S100000x64) S5000x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x64.size a ≤ S100000x64.size a
  hwx1_7 : ∀ i : grid1.Coords, EltTy.bits .f32 = 32 ∨ (Rect.block (s := S100000x64) S5000x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x64.size a ≤ S100000x64.size a
  hwx1_8 : ∀ i : grid1.Coords, EltTy.bits .f32 = 32 ∨ (Rect.block (s := S100000x64) S5000x64.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x64.size a ≤ S1600000x64.size a
  hwx2_0 : ∀ i : grid2.Coords, EltTy.bits .f32 = 32 ∨ (Rect.block (s := S1600000x64) S8000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x64.size a ≤ S1600000x64.size a
  hwx2_1 : ∀ i : grid2.Coords, EltTy.bits .f32 = 32 ∨ (Rect.block (s := S1600000x64) S8000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8000x1.size a ≤ S1600000x1.size a
  hwx2_2 : ∀ i : grid2.Coords, EltTy.bits .f32 = 32 ∨ (Rect.block (s := S1600000x1) S8000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S8000x64.size a ≤ S1600000x64.size a
  hwx2_3 : ∀ i : grid2.Coords, EltTy.bits .f32 = 32 ∨ (Rect.block (s := S1600000x64) S8000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x64.size a ≤ S64x64.size a
  hwx4_3 : ∀ i : grid4.Coords, EltTy.bits .f32 = 32 ∨ (Rect.block (s := S64x64) S64x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x64.size a ≤ S64x64.size a
  hwx4_4 : ∀ i : grid4.Coords, EltTy.bits .f32 = 32 ∨ (Rect.block (s := S64x64) S64x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x64.size a ≤ S1x64.size a
  hwx4_5 : ∀ i : grid4.Coords, EltTy.bits .f32 = 32 ∨ (Rect.block (s := S1x64) S1x64.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x64.size a ≤ S100000x64.size a
  hwx4_6 : ∀ i : grid4.Coords, EltTy.bits .f32 = 32 ∨ (Rect.block (s := S100000x64) S5000x64.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S5000x64.size a ≤ S100000x64.size a
  hwx4_7 : ∀ i : grid4.Coords, EltTy.bits .f32 = 32 ∨ (Rect.block (s := S100000x64) S5000x64.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S5000x64.size a ≤ S100000x64.size a
  hwx4_8 : ∀ i : grid4.Coords, EltTy.bits .f32 = 32 ∨ (Rect.block (s := S100000x64) S5000x64.size (cc4_transform_8 i) (hinb4_8 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S8000x64.size a ≤ S1600000x64.size a
  hwx5_0 : ∀ i : grid5.Coords, EltTy.bits .f32 = 32 ∨ (Rect.block (s := S1600000x64) S8000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S8000x64.size a ≤ S1600000x64.size a
  hwx5_1 : ∀ i : grid5.Coords, EltTy.bits .f32 = 32 ∨ (Rect.block (s := S1600000x64) S8000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S8000x1.size a ≤ S1600000x1.size a
  hwx5_2 : ∀ i : grid5.Coords, EltTy.bits .f32 = 32 ∨ (Rect.block (s := S1600000x1) S8000x1.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S8000x64.size a ≤ S1600000x64.size a
  hwx5_3 : ∀ i : grid5.Coords, EltTy.bits .f32 = 32 ∨ (Rect.block (s := S1600000x64) S8000x64.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S100000x64.size a
  hwx6_0 : ∀ i : grid6.Coords, EltTy.bits .f32 = 32 ∨ (Rect.block (s := S100000x64) S5000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x64.size a ≤ S100000x64.size a
  hwx6_1 : ∀ i : grid6.Coords, EltTy.bits .f32 = 32 ∨ (Rect.block (s := S100000x64) S5000x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x64.size a ≤ S100000x64.size a
  hwx6_2 : ∀ i : grid6.Coords, EltTy.bits .f32 = 32 ∨ (Rect.block (s := S100000x64) S5000x64.size (cc6_transform_2 i) (hinb6_2 i)).WholeWords (EltTy.packing .f32)
  hrank7 : 0 < grid7.rank
  hstage7_0 : ∀ j, (stage7_0 j).IsWhole
  nbuf7_0 : grid7.bufCount reads7_0 true = 1
  hreads7_0 : ∀ i i' : grid7.Coords, (∀ a, reads7_0 a = true → i a = i' a) → cc7_transform_0 i = cc7_transform_0 i'
  hinb7_0 : ∀ (i : grid7.Coords) a, (cc7_transform_0 i a + 1) * S1000x64.size a ≤ S1000x64.size a
  hwx7_0 : ∀ i : grid7.Coords, EltTy.bits .f32 = 32 ∨ (Rect.block (s := S1000x64) S1000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S64x128.size a ≤ S64x128.size a
  hwx7_1 : ∀ i : grid7.Coords, EltTy.bits .f32 = 32 ∨ (Rect.block (s := S64x128) S64x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S128x3.size a ≤ S128x3.size a
  hwx7_3 : ∀ i : grid7.Coords, EltTy.bits .f32 = 32 ∨ (Rect.block (s := S128x3) S128x3.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x3.size a ≤ S1x3.size a
  hwx7_4 : ∀ i : grid7.Coords, EltTy.bits .f32 = 32 ∨ (Rect.block (s := S1x3) S1x3.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1000x3.size a ≤ S1000x3.size a
  hwx7_5 : ∀ i : grid7.Coords, EltTy.bits .f32 = 32 ∨ (Rect.block (s := S1000x3) S1000x3.size (cc7_transform_5 i) (hinb7_5 i)).WholeWords (EltTy.packing .f32)

variable [Facts₀]

def dot_S5000x4_S4x64_S5000x64_1_0_0_1_n_n : DotDims S5000x4 S4x64 S5000x64 where
  lhsContracting := [1]
  rhsContracting := [0]
  lhsNonContracting := [0]
  rhsNonContracting := [1]
  lhsBatch := []
  rhsBatch := []
  wf := dot_S5000x4_S4x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S1000x64_S100000x1_S100000x64_1_0_0_1 : ScatterDims S1000x64 S100000x1 S100000x64 where
  updateWindowDims := [1]
  insertedWindowDims := [0]
  scatterDimsToOperandDims := [0]
  indexVectorDim := 1
  wf := scatter_S1000x64_S100000x1_S100000x64_1_0_0_1_wf
def scatter_S1000_S100000x1_S100000_n_0_0_1 : ScatterDims S1000 S100000x1 S100000 where
  updateWindowDims := []
  insertedWindowDims := [0]
  scatterDimsToOperandDims := [0]
  indexVectorDim := 1
  wf := scatter_S1000_S100000x1_S100000_n_0_0_1_wf
def dot_S1000x64_S64x128_S1000x128_1_0_0_1_n_n : DotDims S1000x64 S64x128 S1000x128 where
  lhsContracting := [1]
  rhsContracting := [0]
  lhsNonContracting := [0]
  rhsNonContracting := [1]
  lhsBatch := []
  rhsBatch := []
  wf := dot_S1000x64_S64x128_S1000x128_1_0_0_1_n_n_wf
def dot_S1000x128_S128x3_S1000x3_1_0_0_1_n_n : DotDims S1000x128 S128x3 S1000x3 where
  lhsContracting := [1]
  rhsContracting := [0]
  lhsNonContracting := [0]
  rhsNonContracting := [1]
  lhsBatch := []
  rhsBatch := []
  wf := dot_S1000x128_S128x3_S1000x3_1_0_0_1_n_n_wf

abbrev win0_0 : Pipeline.Window sig grid0 :=
  Pipeline.Window.ofSpec (Memref.whole main_arg0) S5000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S4x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v16) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v13) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v17) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v18_0) S5000x64.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v18_1) S5000x64.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v18_2) S5000x64.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v19) S8000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v20) S8000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v21) S8000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v22) S8000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v25) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v18_2) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v26) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v26) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v28) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v37) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v32) S64x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v34) S64x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v38) S1x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v39_0) S5000x64.size cc4_transform_6 reads4_6 true false 2 stage4_6 sem4_6
    hrank4 hreads4_6 hinb4_6 nbuf4_6 (Memref.isWhole_whole _) hwx4_6 hstage4_6

abbrev win4_7 : Pipeline.Window sig grid4 :=
  Pipeline.Window.ofSpec (Memref.whole main_v39_1) S5000x64.size cc4_transform_7 reads4_7 true false 2 stage4_7 sem4_7
    hrank4 hreads4_7 hinb4_7 nbuf4_7 (Memref.isWhole_whole _) hwx4_7 hstage4_7

abbrev win4_8 : Pipeline.Window sig grid4 :=
  Pipeline.Window.ofSpec (Memref.whole main_v39_2) S5000x64.size cc4_transform_8 reads4_8 true false 2 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev win5_0 : Pipeline.Window sig grid5 :=
  Pipeline.Window.ofSpec (Memref.whole main_v40) S8000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v41) S8000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v42) S8000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v43) S8000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v46) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v39_2) S5000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v47) S5000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v59) S1000x64.size cc7_transform_0 reads7_0 false true 1 stage7_0 sem7_0
    hrank7 hreads7_0 hinb7_0 nbuf7_0 (Memref.isWhole_whole _) hwx7_0 hstage7_0

abbrev win7_1 : Pipeline.Window sig grid7 :=
  Pipeline.Window.ofSpec (Memref.whole main_arg11) S64x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v60) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_arg13) S128x3.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v61) S1x3.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v62) S1000x3.size cc7_transform_5 reads7_5 true true 1 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

class Facts : Prop extends Facts₀ where

variable [Facts]
-- ==== ReferenceIdeal.lean ====
abbrev S100000x4 : Shape := ⟨2, ![100000, 4]⟩
abbrev S2x1600000 : Shape := ⟨2, ![2, 1600000]⟩
abbrev S1600000 : Shape := ⟨1, ![1600000]⟩
abbrev S100000 : Shape := ⟨1, ![100000]⟩
abbrev S4x64 : Shape := ⟨2, ![4, 64]⟩
abbrev S64 : Shape := ⟨1, ![64]⟩
abbrev S2x64x64 : Shape := ⟨3, ![2, 64, 64]⟩
abbrev S2x64 : Shape := ⟨2, ![2, 64]⟩
abbrev S64x128 : Shape := ⟨2, ![64, 128]⟩
abbrev S128 : Shape := ⟨1, ![128]⟩
abbrev S128x3 : Shape := ⟨2, ![128, 3]⟩
abbrev S3 : Shape := ⟨1, ![3]⟩
abbrev S1x1600000 : Shape := ⟨2, ![1, 1600000]⟩
abbrev S100000x64 : Shape := ⟨2, ![100000, 64]⟩
abbrev S1x64 : Shape := ⟨2, ![1, 64]⟩
abbrev S1x64x64 : Shape := ⟨3, ![1, 64, 64]⟩
abbrev S64x64 : Shape := ⟨2, ![64, 64]⟩
abbrev S_ : Shape := ⟨0, ![]⟩
abbrev S1600000x1 : Shape := ⟨2, ![1600000, 1]⟩
abbrev S1600000x64 : Shape := ⟨2, ![1600000, 64]⟩
abbrev S1000x64 : Shape := ⟨2, ![1000, 64]⟩
abbrev S100000x1 : Shape := ⟨2, ![100000, 1]⟩
abbrev S1000 : Shape := ⟨1, ![1000]⟩
abbrev S1000x1 : Shape := ⟨2, ![1000, 1]⟩
abbrev S1000x128 : Shape := ⟨2, ![1000, 128]⟩
abbrev S1x128 : Shape := ⟨2, ![1, 128]⟩
abbrev S1000x3 : Shape := ⟨2, ![1000, 3]⟩
abbrev S1x3 : Shape := ⟨2, ![1, 3]⟩

abbrev nBuf : Space → Nat
  | .hbm => 148
  | .vmem => 0
  | .smem => 0
  | _ => 0

abbrev hbmTy0_0 (i : Nat) : BufTy := match i % 128 with
  | 0 => ⟨S100000x4, .f32⟩
  | 1 => ⟨S2x1600000, .i32⟩
  | 2 => ⟨S1600000, .f32⟩
  | 3 => ⟨S100000, .i32⟩
  | 4 => ⟨S4x64, .f32⟩
  | 5 => ⟨S64, .f32⟩
  | 6 => ⟨S2x64x64, .f32⟩
  | 7 => ⟨S2x64, .f32⟩
  | 8 => ⟨S2x64x64, .f32⟩
  | 9 => ⟨S2x64x64, .f32⟩
  | 10 => ⟨S2x64, .f32⟩
  | 11 => ⟨S64x128, .f32⟩
  | 12 => ⟨S128, .f32⟩
  | 13 => ⟨S128x3, .f32⟩
  | 14 => ⟨S3, .f32⟩
  | 15 => ⟨S1x1600000, .i32⟩
  | 16 => ⟨S1600000, .i32⟩
  | 17 => ⟨S1x1600000, .i32⟩
  | 18 => ⟨S1600000, .i32⟩
  | 19 => ⟨S100000x64, .f32⟩
  | 20 => ⟨S1x64, .f32⟩
  | 21 => ⟨S100000x64, .f32⟩
  | 22 => ⟨S100000x64, .f32⟩
  | 23 => ⟨S1x64x64, .f32⟩
  | 24 => ⟨S64x64, .f32⟩
  | 25 => ⟨S100000x64, .f32⟩
  | 26 => ⟨S1x64, .f32⟩
  | 27 => ⟨S64, .f32⟩
  | 28 => ⟨S1x64, .f32⟩
  | 29 => ⟨S100000x64, .f32⟩
  | 30 => ⟨S100000x64, .f32⟩
  | 31 => ⟨S1x64x64, .f32⟩
  | 32 => ⟨S64x64, .f32⟩
  | 33 => ⟨S100000x64, .f32⟩
  | 34 => ⟨S_, .i32⟩
  | 35 => ⟨S1600000, .i32⟩
  | 36 => ⟨S1600000, .i1⟩
  | 37 => ⟨S_, .i32⟩
  | 38 => ⟨S1600000, .i32⟩
  | 39 => ⟨S1600000, .i32⟩
  | 40 => ⟨S1600000, .i32⟩
  | 41 => ⟨S1600000x1, .i32⟩
  | 42 => ⟨S1600000x64, .f32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1600000x64, .f32⟩
  | 52 => ⟨S1600000x64, .f32⟩
  | 53 => ⟨S1600000x1, .f32⟩
  | 54 => ⟨S1600000x64, .f32⟩
  | 55 => ⟨S1600000x64, .f32⟩
  | 56 => ⟨S_, .f32⟩
  | 57 => ⟨S100000x64, .f32⟩
  | 58 => ⟨S1600000x1, .i32⟩
  | 59 => ⟨S100000x64, .f32⟩
  | 60 => ⟨S1x64x64, .f32⟩
  | 61 => ⟨S64x64, .f32⟩
  | 62 => ⟨S100000x64, .f32⟩
  | 63 => ⟨S100000x64, .f32⟩
  | 64 => ⟨S1x64, .f32⟩
  | 65 => ⟨S64, .f32⟩
  | 66 => ⟨S1x64, .f32⟩
  | 67 => ⟨S100000x64, .f32⟩
  | 68 => ⟨S100000x64, .f32⟩
  | 69 => ⟨S_, .f32⟩
  | 70 => ⟨S100000x64, .f32⟩
  | 71 => ⟨S100000x64, .f32⟩
  | 72 => ⟨S1x64x64, .f32⟩
  | 73 => ⟨S64x64, .f32⟩
  | 74 => ⟨S100000x64, .f32⟩
  | 75 => ⟨S1x64, .f32⟩
  | 76 => ⟨S64, .f32⟩
  | 77 => ⟨S1x64, .f32⟩
  | 78 => ⟨S100000x64, .f32⟩
  | 79 => ⟨S100000x64, .f32⟩
  | 80 => ⟨S1x64x64, .f32⟩
  | 81 => ⟨S64x64, .f32⟩
  | 82 => ⟨S100000x64, .f32⟩
  | 83 => ⟨S_, .i32⟩
  | 84 => ⟨S1600000, .i32⟩
  | 85 => ⟨S1600000, .i1⟩
  | 86 => ⟨S_, .i32⟩
  | 87 => ⟨S1600000, .i32⟩
  | 88 => ⟨S1600000, .i32⟩
  | 89 => ⟨S1600000, .i32⟩
  | 90 => ⟨S1600000x1, .i32⟩
  | 91 => ⟨S1600000x64, .f32⟩
  | 92 => ⟨S_, .i32⟩
  | 93 => ⟨S1600000, .i32⟩
  | 94 => ⟨S1600000, .i1⟩
  | 95 => ⟨S_, .i32⟩
  | 96 => ⟨S1600000, .i32⟩
  | 97 => ⟨S1600000, .i32⟩
  | 98 => ⟨S1600000, .i32⟩
  | 99 => ⟨S1600000x1, .i32⟩
  | 100 => ⟨S1600000x64, .f32⟩
  | 101 => ⟨S1600000x64, .f32⟩
  | 102 => ⟨S1600000x1, .f32⟩
  | 103 => ⟨S1600000x64, .f32⟩
  | 104 => ⟨S1600000x64, .f32⟩
  | 105 => ⟨S_, .f32⟩
  | 106 => ⟨S100000x64, .f32⟩
  | 107 => ⟨S1600000x1, .i32⟩
  | 108 => ⟨S100000x64, .f32⟩
  | 109 => ⟨S1x64x64, .f32⟩
  | 110 => ⟨S64x64, .f32⟩
  | 111 => ⟨S100000x64, .f32⟩
  | 112 => ⟨S100000x64, .f32⟩
  | 113 => ⟨S1x64, .f32⟩
  | 114 => ⟨S64, .f32⟩
  | 115 => ⟨S1x64, .f32⟩
  | 116 => ⟨S100000x64, .f32⟩
  | 117 => ⟨S100000x64, .f32⟩
  | 118 => ⟨S_, .f32⟩
  | 119 => ⟨S100000x64, .f32⟩
  | 120 => ⟨S100000x64, .f32⟩
  | 121 => ⟨S_, .f32⟩
  | 122 => ⟨S1000x64, .f32⟩
  | 123 => ⟨S100000x1, .i32⟩
  | 124 => ⟨S1000x64, .f32⟩
  | 125 => ⟨S_, .f32⟩
  | 126 => ⟨S100000, .f32⟩
  | 127 => ⟨S_, .f32⟩
  | _ => ⟨S100000x4, .f32⟩

abbrev hbmTy0_1 (i : Nat) : BufTy := match i % 128 with
  | 0 => ⟨S1000, .f32⟩
  | 1 => ⟨S100000x1, .i32⟩
  | 2 => ⟨S1000, .f32⟩
  | 3 => ⟨S_, .f32⟩
  | 4 => ⟨S1000, .f32⟩
  | 5 => ⟨S1000, .f32⟩
  | 6 => ⟨S1000x1, .f32⟩
  | 7 => ⟨S1000x64, .f32⟩
  | 8 => ⟨S1000x64, .f32⟩
  | 9 => ⟨S1000x128, .f32⟩
  | 10 => ⟨S1x128, .f32⟩
  | 11 => ⟨S1000x128, .f32⟩
  | 12 => ⟨S1000x128, .f32⟩
  | 13 => ⟨S_, .f32⟩
  | 14 => ⟨S1000x128, .f32⟩
  | 15 => ⟨S1000x128, .f32⟩
  | 16 => ⟨S1000x3, .f32⟩
  | 17 => ⟨S1x3, .f32⟩
  | 18 => ⟨S1000x3, .f32⟩
  | 19 => ⟨S1000x3, .f32⟩
  | _ => ⟨S100000x4, .f32⟩

abbrev hbmTy (i : Nat) : BufTy := match i / 128 with
  | 0 => hbmTy0_0 i
  | 1 => hbmTy0_1 i
  | _ => ⟨S100000x4, .f32⟩

abbrev bufTy : (tb : Table) → Fin (tcTables nBuf tb) → BufTy
  | .hbm, ⟨i, _⟩ => hbmTy i
  | _, _ => ⟨S100000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c : Ref sig .tc := ⟨.hbm, 34, rfl⟩
abbrev main_v19 : Ref sig .tc := ⟨.hbm, 35, rfl⟩
abbrev main_v20 : Ref sig .tc := ⟨.hbm, 36, rfl⟩
abbrev main_c_0 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_1 : Ref sig .tc := ⟨.hbm, 43, rfl⟩
abbrev main_v26 : Ref sig .tc := ⟨.hbm, 44, rfl⟩
abbrev main_v27 : Ref sig .tc := ⟨.hbm, 45, rfl⟩
abbrev main_c_2 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call0_cst : Ref sig .tc := ⟨.hbm, 69, rfl⟩
abbrev main_call0_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_c_3 : Ref sig .tc := ⟨.hbm, 83, rfl⟩
abbrev main_v61 : Ref sig .tc := ⟨.hbm, 84, rfl⟩
abbrev main_v62 : Ref sig .tc := ⟨.hbm, 85, rfl⟩
abbrev main_c_4 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_c_5 : Ref sig .tc := ⟨.hbm, 92, rfl⟩
abbrev main_v68 : Ref sig .tc := ⟨.hbm, 93, rfl⟩
abbrev main_v69 : Ref sig .tc := ⟨.hbm, 94, rfl⟩
abbrev main_c_6 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_cst_7 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_call1_cst : Ref sig .tc := ⟨.hbm, 118, rfl⟩
abbrev main_call1_v0 : Ref sig .tc := ⟨.hbm, 119, rfl⟩
abbrev main_v91 : Ref sig .tc := ⟨.hbm, 120, rfl⟩
abbrev main_cst_8 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_cst_9 : Ref sig .tc := ⟨.hbm, 125, rfl⟩
abbrev main_v95 : Ref sig .tc := ⟨.hbm, 126, rfl⟩
abbrev main_cst_10 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_cst_11 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_call2_cst : Ref sig .tc := ⟨.hbm, 141, rfl⟩
abbrev main_call2_v0 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S2x64x64_S1x64x64_0_0_0 : S2x64x64.Slices ![0, 0, 0] S1x64x64
  shapeCasts_S1x64x64_S64x64 : S1x64x64.ShapeCasts S64x64
  slices_S2x64_S1x64_0_0 : S2x64.Slices ![0, 0] S1x64
  shapeCasts_S1x64_S64 : S1x64.ShapeCasts S64
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  slices_S2x64x64_S1x64x64_1_0_0 : S2x64x64.Slices ![1, 0, 0] S1x64x64
  slices_S2x64_S1x64_1_0 : S2x64.Slices ![1, 0] S1x64
  bcast_S_S1000x64 : S_.BroadcastsInDim S1000x64 (![] : Fin 0 → Fin S1000x64.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x64_0_1 : S1000x1.BroadcastsInDim S1000x64 (![0, 1] : Fin 2 → Fin S1000x64.rank)
  bcast_S128_S1x128_1 : S128.BroadcastsInDim S1x128 (![1] : Fin 1 → Fin S1x128.rank)
  bcast_S1x128_S1000x128_0_1 : S1x128.BroadcastsInDim S1000x128 (![0, 1] : Fin 2 → Fin S1000x128.rank)
  bcast_S_S1000x128 : S_.BroadcastsInDim S1000x128 (![] : Fin 0 → Fin S1000x128.rank)
  bcast_S3_S1x3_1 : S3.BroadcastsInDim S1x3 (![1] : Fin 1 → Fin S1x3.rank)
  bcast_S1x3_S1000x3_0_1 : S1x3.BroadcastsInDim S1000x3 (![0, 1] : Fin 2 → Fin S1000x3.rank)
  dot_S100000x4_S4x64_S100000x64_1_0_0_1_n_n_wf : DotDims.WF S100000x4 S4x64 S100000x64 [1] [0] [0] [1] [] []
  dot_S100000x64_S64x64_S100000x64_1_0_0_1_n_n_wf : DotDims.WF S100000x64 S64x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S1000x64_S100000x1_S100000x64_1_0_0_1_wf : ScatterDims.WF S1000x64 S100000x1 S100000x64 [1] [0] [0] 1
  scatter_S1000_S100000x1_S100000_n_0_0_1_wf : ScatterDims.WF S1000 S100000x1 S100000 [] [0] [0] 1
  dot_S1000x64_S64x128_S1000x128_1_0_0_1_n_n_wf : DotDims.WF S1000x64 S64x128 S1000x128 [1] [0] [0] [1] [] []
  dot_S1000x128_S128x3_S1000x3_1_0_0_1_n_n_wf : DotDims.WF S1000x128 S128x3 S1000x3 [1] [0] [0] [1] [] []

variable [Facts₀]

def dot_S100000x4_S4x64_S100000x64_1_0_0_1_n_n : DotDims S100000x4 S4x64 S100000x64 where
  lhsContracting := [1]
  rhsContracting := [0]
  lhsNonContracting := [0]
  rhsNonContracting := [1]
  lhsBatch := []
  rhsBatch := []
  wf := dot_S100000x4_S4x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S1000x64_S100000x1_S100000x64_1_0_0_1 : ScatterDims S1000x64 S100000x1 S100000x64 where
  updateWindowDims := [1]
  insertedWindowDims := [0]
  scatterDimsToOperandDims := [0]
  indexVectorDim := 1
  wf := scatter_S1000x64_S100000x1_S100000x64_1_0_0_1_wf
def scatter_S1000_S100000x1_S100000_n_0_0_1 : ScatterDims S1000 S100000x1 S100000 where
  updateWindowDims := []
  insertedWindowDims := [0]
  scatterDimsToOperandDims := [0]
  indexVectorDim := 1
  wf := scatter_S1000_S100000x1_S100000_n_0_0_1_wf
def dot_S1000x64_S64x128_S1000x128_1_0_0_1_n_n : DotDims S1000x64 S64x128 S1000x128 where
  lhsContracting := [1]
  rhsContracting := [0]
  lhsNonContracting := [0]
  rhsNonContracting := [1]
  lhsBatch := []
  rhsBatch := []
  wf := dot_S1000x64_S64x128_S1000x128_1_0_0_1_n_n_wf
def dot_S1000x128_S128x3_S1000x3_1_0_0_1_n_n : DotDims S1000x128 S128x3 S1000x3 where
  lhsContracting := [1]
  rhsContracting := [0]
  lhsNonContracting := [0]
  rhsNonContracting := [1]
  lhsBatch := []
  rhsBatch := []
  wf := dot_S1000x128_S128x3_S1000x3_1_0_0_1_n_n_wf

class Facts : Prop extends Facts₀ where

variable [Facts]
-- ==== Proof.LibDense.lean ====
/-
  The plain matrix product of two rank-2 arrays of extended reals, and the two places a program meets it: a
  contraction's sum over its one contracted axis, for dimension numbers that contract the left operand's columns
  with the right operand's rows and have no batch axis, re-indexed by that axis's coordinate; and, at the ideal
  values, a matmul into a zero accumulator whose operands pass through a narrower float format, and a host
  dot_general.
-/
import Idealize.ShloMosaic.PureOps.Ideal
import Idealize.ShloMosaic.PureOps.Ideal.Laws
import Idealize.ShloMosaic.Lib.ValueIdx

noncomputable section

open scoped BigOperators

namespace Cert.Lib

open Idealize.ShloMosaic Idealize.ShloMosaic.ValueIdx

/-- The matrix product x · w of an M × K by a K × N array: entry (p, q) is the sum over k of x (p, k) · w (k, q). -/
def dense {M K N : Nat} (x : (⟨2, ![M, K]⟩ : Shape).Idx → EReal) (w : (⟨2, ![K, N]⟩ : Shape).Idx → EReal) :
    (⟨2, ![M, N]⟩ : Shape).Idx → EReal :=
  fun j => ∑ k : Fin K, x (ValueIdx.ix2 (j 0) k) * w (ValueIdx.ix2 k (j 1))

/-- The product read at an entry. -/
theorem dense_apply {M K N : Nat} (x : (⟨2, ![M, K]⟩ : Shape).Idx → EReal) (w : (⟨2, ![K, N]⟩ : Shape).Idx → EReal)
    (j : (⟨2, ![M, N]⟩ : Shape).Idx) :
    dense x w j = ∑ k : Fin K, x (ValueIdx.ix2 (j 0) k) * w (ValueIdx.ix2 k (j 1)) := rfl

/-- A row of the product depends on that row of the left factor alone: if row p' of x' is row p of x, and w' is w,
    then entry (p', q) of x' · w' is entry (p, q) of x · w. -/
theorem dense_row {M M' K N : Nat} (x : (⟨2, ![M, K]⟩ : Shape).Idx → EReal) (x' : (⟨2, ![M', K]⟩ : Shape).Idx → EReal)
    (w w' : (⟨2, ![K, N]⟩ : Shape).Idx → EReal) (p : Fin M) (p' : Fin M')
    (hx : ∀ k : Fin K, x' (ValueIdx.ix2 p' k) = x (ValueIdx.ix2 p k)) (hw : ∀ i, w' i = w i) (q : Fin N) :
    dense x' w' (ValueIdx.ix2 p' q) = dense x w (ValueIdx.ix2 p q) := by
  show ∑ k : Fin K, x' (ValueIdx.ix2 p' k) * w' (ValueIdx.ix2 k q) = ∑ k : Fin K, x (ValueIdx.ix2 p k) * w (ValueIdx.ix2 k q)
  exact Finset.sum_congr rfl fun k _ => by rw [hx k, hw]

section Plain

variable {M K N : Nat} (d : DotDims ⟨2, ![M, K]⟩ ⟨2, ![K, N]⟩ ⟨2, ![M, N]⟩)

/-- Dimension numbers that contract one axis have a contraction shape of rank one. -/
theorem contr_rank (hlc : d.lhsContracting = [1]) : d.contr.rank = 1 := by
  rw [d.rank_contr, hlc]; rfl

/-- When the contracted axis is the left operand's second, the contraction shape's one extent is K. -/
theorem contr_size (hlc : d.lhsContracting = [1]) :
    d.contr.size ⟨0, by rw [contr_rank d hlc]; exact Nat.one_pos⟩ = K := by
  have hp : 0 < d.lhsContracting.length := by rw [hlc]; exact Nat.one_pos
  have h1 : d.lhsContracting[0]'hp = 1 := by simp [hlc]
  rw [d.size_contr 0 hp, h1]
  rfl

/-- Reading two coordinates of a rank-2 index at equal axis numbers gives equal values. -/
theorem coord_congr {n : Fin 2 → Nat} (j : (⟨2, n⟩ : Shape).Idx) (p q : Nat) (hp : p < 2) (hq : q < 2) (h : p = q) :
    (j ⟨p, hp⟩).val = (j ⟨q, hq⟩).val := by subst h; rfl

/-- The left operand's row is the result's row: axis 0 of the left operand is its one free axis, the first of the
    result's axes. -/
theorem lhsIdx_0 (hln : d.lhsNonContracting = [0]) (hlb : d.lhsBatch = [])
    (j : (⟨2, ![M, N]⟩ : Shape).Idx) (q : d.contr.Idx) : (d.lhsIdx j q 0).val = (j 0).val := by
  unfold DotDims.lhsIdx
  rw [dif_neg (show ¬(0 : Fin (⟨2, ![M, K]⟩ : Shape).rank) ∈ d.lhsBatch by rw [hlb]; exact List.not_mem_nil),
    dif_pos (show (0 : Fin (⟨2, ![M, K]⟩ : Shape).rank) ∈ d.lhsNonContracting by rw [hln]; exact List.mem_singleton.mpr rfl)]
  simp only [Fin.val_cast]
  exact coord_congr j _ _ _ _ (by simp [hlb, hln])

/-- The left operand's column is the contracted coordinate: axis 1 of the left operand is the contracted one. -/
theorem lhsIdx_1 (hlc : d.lhsContracting = [1]) (j : (⟨2, ![M, N]⟩ : Shape).Idx) (q : d.contr.Idx) :
    (d.lhsIdx j q 1).val = (q ⟨0, by rw [contr_rank d hlc]; exact Nat.one_pos⟩).val :=
  d.lhsIdx_val_of_single hlc j q

/-- The right operand's row is the contracted coordinate: axis 0 of the right operand is the contracted one. -/
theorem rhsIdx_0 (hlc : d.lhsContracting = [1]) (hrc : d.rhsContracting = [0]) (j : (⟨2, ![M, N]⟩ : Shape).Idx)
    (q : d.contr.Idx) : (d.rhsIdx j q 0).val = (q ⟨0, by rw [contr_rank d hlc]; exact Nat.one_pos⟩).val :=
  d.rhsIdx_val_of_single hrc j q

/-- The right operand's column is the result's column: axis 1 of the right operand is its one free axis, which
    comes after the left operand's one free axis among the result's axes. -/
theorem rhsIdx_1 (hln : d.lhsNonContracting = [0]) (hrn : d.rhsNonContracting = [1]) (hlb : d.lhsBatch = [])
    (hrb : d.rhsBatch = []) (j : (⟨2, ![M, N]⟩ : Shape).Idx) (q : d.contr.Idx) : (d.rhsIdx j q 1).val = (j 1).val := by
  unfold DotDims.rhsIdx
  rw [dif_neg (show ¬(1 : Fin (⟨2, ![K, N]⟩ : Shape).rank) ∈ d.rhsBatch by rw [hrb]; exact List.not_mem_nil),
    dif_pos (show (1 : Fin (⟨2, ![K, N]⟩ : Shape).rank) ∈ d.rhsNonContracting by rw [hrn]; exact List.mem_singleton.mpr rfl)]
  simp only [Fin.val_cast]
  exact coord_congr j _ _ _ _ (by simp [hlb, hln, hrn])

/-- THE CONTRACTION IS THE MATRIX PRODUCT. For dimension numbers contracting the left operand's columns with the
    right operand's rows, one free axis each and no batch axis, the sum over the contraction index of the operands'
    products at the dot's operand indices is the matrix product's entry: re-index the sum by the contracted axis's
    coordinate; the operand indices at result entry (p, q) and coordinate k are then (p, k) and (k, q). -/
theorem sum_contr_eq_dense (hlc : d.lhsContracting = [1]) (hrc : d.rhsContracting = [0])
    (hln : d.lhsNonContracting = [0]) (hrn : d.rhsNonContracting = [1]) (hlb : d.lhsBatch = []) (hrb : d.rhsBatch = [])
    (l : (⟨2, ![M, K]⟩ : Shape).Idx → EReal) (r : (⟨2, ![K, N]⟩ : Shape).Idx → EReal) (j : (⟨2, ![M, N]⟩ : Shape).Idx) :
    ∑ k : d.contr.Idx, l (d.lhsIdx j k) * r (d.rhsIdx j k) = dense l r j := by
  rw [dense_apply, ← Equiv.sum_comp (ValueIdx.contrEquiv1 d K (contr_rank d hlc) (contr_size d hlc)).symm]
  refine Finset.sum_congr rfl fun k _ => ?_
  have hk := ValueIdx.contrEquiv1_symm_val d K (contr_rank d hlc) (contr_size d hlc) k
  have el : d.lhsIdx j ((ValueIdx.contrEquiv1 d K (contr_rank d hlc) (contr_size d hlc)).symm k)
      = (ValueIdx.ix2 (j 0) k : (⟨2, ![M, K]⟩ : Shape).Idx) := funext fun a => Fin.ext (by
    match a with
    | ⟨0, _⟩ => exact lhsIdx_0 d hln hlb _ _
    | ⟨1, _⟩ => exact (lhsIdx_1 d hlc _ _).trans hk)
  have er : d.rhsIdx j ((ValueIdx.contrEquiv1 d K (contr_rank d hlc) (contr_size d hlc)).symm k)
      = (ValueIdx.ix2 k (j 1) : (⟨2, ![K, N]⟩ : Shape).Idx) := funext fun a => Fin.ext (by
    match a with
    | ⟨0, _⟩ => exact (rhsIdx_0 d hlc hrc _ _).trans hk
    | ⟨1, _⟩ => exact rhsIdx_1 d hln hrn hlb hrb _ _)
  rw [el, er]

/-- At the ideal values a matmul into the zero accumulator, its two f32 operands first passed through bf16 (the
    identity on extended reals), is the matrix product of the operands. -/
theorem matmul_truncf_eq_dense (hlc : d.lhsContracting = [1]) (hrc : d.rhsContracting = [0])
    (hln : d.lhsNonContracting = [0]) (hrn : d.rhsNonContracting = [1]) (hlb : d.lhsBatch = []) (hrb : d.rhsBatch = [])
    (prec : Option ContractPrecision) (l : FVec Ideal ⟨2, ![M, K]⟩ .f32) (r : FVec Ideal ⟨2, ![K, N]⟩ .f32)
    (h₁ : FTy.bf16.bits < FTy.f32.bits) (h₂ : FTy.bf16.bits < FTy.f32.bits) :
    FloatOps.matmul d prec (truncf .bf16 l h₁ : FVec Ideal ⟨2, ![M, K]⟩ .bf16)
        (truncf .bf16 r h₂ : FVec Ideal ⟨2, ![K, N]⟩ .bf16) (constant (F := Ideal) ⟨2, ![M, N]⟩ .f32 0x00000000#32)
      = dense l r := by
  funext j
  rw [Ideal.matmul_constant_zero_apply]
  exact sum_contr_eq_dense d hlc hrc hln hrn hlb hrb l r j

/-- At the ideal values the host's dot_general is the matrix product of its operands, whatever the precision. -/
theorem dotGeneral_eq_dense (hlc : d.lhsContracting = [1]) (hrc : d.rhsContracting = [0])
    (hln : d.lhsNonContracting = [0]) (hrn : d.rhsNonContracting = [1]) (hlb : d.lhsBatch = []) (hrb : d.rhsBatch = [])
    (prec : Option ContractPrecision) (l : FVec Ideal ⟨2, ![M, K]⟩ .f32) (r : FVec Ideal ⟨2, ![K, N]⟩ .f32) :
    Host.dotGeneral d prec l r = dense l r := by
  funext j
  simp only [Host.dotGeneral]
  rw [Ideal.dotGeneral_apply]
  exact sum_contr_eq_dense d hlc hrc hln hrn hlb hrb l r j

end Plain

end Cert.Lib

end
-- ==== Proof.Spec.lean ====
/-
  The network the two programs compute, as whole-array functions on the extended reals, for any sizes.

  Arrays are functions from a shape's indices to extended reals.  A dense layer is a matrix product plus a bias row
  added to every row; a message is the difference of two gathered rows scaled by that edge's weight; a node update is
  the positive part of the aggregated messages plus a dense layer of the node's own features; the head is two dense
  layers with a positive part between them.  The gathers, the scatter-add and the mean pool are parameters: both
  programs apply the same host operations there, and nothing below looks inside them.

  Also here: what each kernel body's arithmetic is at the ideal values, index by index (operands that pass through a
  narrower float format are unchanged there), in the spelling the bodies use — a product into a zero accumulator, a
  one-row bias broadcast down the rows, a one-column weight broadcast along the rows, a maximum with a splat zero.
-/
import Idealize.ShloMosaic.PureOps.Ideal
import Idealize.ShloMosaic.PureOps.Ideal.Laws
import Idealize.ShloMosaic.Lib.ValueIdx
import Idealize.ShloMosaic.Lib.Pipeline.Value
import proofs.«421567_j10007273799859_2_alg».proof.Proof.LibDense

noncomputable section

open scoped BigOperators

namespace Cert.Spec

open Idealize.ShloMosaic Idealize.ShloMosaic.ValueIdx Cert.Lib

/-- A two-axis array of extended reals. -/
abbrev Arr2 (M N : Nat) : Type := (⟨2, ![M, N]⟩ : Shape).Idx → EReal
/-- A one-axis array of extended reals. -/
abbrev Arr1 (N : Nat) : Type := (⟨1, ![N]⟩ : Shape).Idx → EReal

/-- x · w with the one-row array b added to every row. -/
def affineRow {M K N : Nat} (x : Arr2 M K) (w : Arr2 K N) (b : Arr2 1 N) : Arr2 M N :=
  fun j => dense x w j + b (ix2 (0 : Fin 1) (j 1))

/-- x · w with the vector b added to every row. -/
def affine {M K N : Nat} (x : Arr2 M K) (w : Arr2 K N) (b : Arr1 N) : Arr2 M N :=
  fun j => dense x w j + b (ix1 (j 1))

/-- The positive part, entry by entry. -/
def relu {M N : Nat} (x : Arr2 M N) : Arr2 M N := fun j => max (x j) 0

/-- The message on each edge: (a − b) scaled by the edge's weight, the weights a one-column array. -/
def msgCol {E H : Nat} (a b : Arr2 E H) (e : Arr2 E 1) : Arr2 E H :=
  fun j => (a j - b j) * e (ix2 (j 0) (0 : Fin 1))

/-- The message on each edge, the weights a vector. -/
def msg {E H : Nat} (a b : Arr2 E H) (e : Arr1 E) : Arr2 E H :=
  fun j => (a j - b j) * e (ix1 (j 0))

/-- The node update: the positive part of the aggregate plus the node's own dense layer. -/
def combine {N H : Nat} (agg c : Arr2 N H) : Arr2 N H := fun j => max (agg j + c j) 0

/-- The head, biases as one-row arrays. -/
def headRow {G H H2 C : Nat} (g : Arr2 G H) (w1 : Arr2 H H2) (b1 : Arr2 1 H2) (w2 : Arr2 H2 C) (b2 : Arr2 1 C) : Arr2 G C :=
  affineRow (relu (affineRow g w1 b1)) w2 b2

/-- The head, biases as vectors. -/
def head {G H H2 C : Nat} (g : Arr2 G H) (w1 : Arr2 H H2) (b1 : Arr1 H2) (w2 : Arr2 H2 C) (b2 : Arr1 C) : Arr2 G C :=
  affine (relu (affine g w1 b1)) w2 b2

/-- One message-passing layer over given gathers gS, gD and scatter-add sc. -/
def layer {N E H : Nat} (gS gD : Arr2 N H → Arr2 E H) (sc : Arr2 E H → Arr2 N H) (ea : Arr1 E)
    (w1 : Arr2 H H) (b1 : Arr1 H) (w2 w3 : Arr2 H H) (b3 : Arr1 H) (h : Arr2 N H) : Arr2 N H :=
  combine (sc (msg (gS (affine h w1 b1)) (gD (dense h w2)) ea)) (affine h w3 b3)

/-- A bias row that is a vector laid out as one row gives the same dense layer. -/
theorem affineRow_eq_affine {M K N : Nat} (x : Arr2 M K) (w : Arr2 K N) (brow : Arr2 1 N) (b : Arr1 N)
    (hb : ∀ q : Fin N, brow (ix2 (0 : Fin 1) q) = b (ix1 q)) : affineRow x w brow = affine x w b :=
  funext fun j => by unfold affineRow affine; exact congrArg (fun z => dense x w j + z) (hb (j 1))

/-- Weights laid out as one column give the same messages. -/
theorem msgCol_eq_msg {E H : Nat} (a b : Arr2 E H) (ecol : Arr2 E 1) (e : Arr1 E)
    (he : ∀ p : Fin E, ecol (ix2 p (0 : Fin 1)) = e (ix1 p)) : msgCol a b ecol = msg a b e :=
  funext fun j => by unfold msgCol msg; exact congrArg (fun z => (a j - b j) * z) (he (j 0))

theorem headRow_eq_head {G H H2 C : Nat} (g : Arr2 G H) (w1 : Arr2 H H2) (b1r : Arr2 1 H2) (b1 : Arr1 H2)
    (w2 : Arr2 H2 C) (b2r : Arr2 1 C) (b2 : Arr1 C)
    (h1 : ∀ q : Fin H2, b1r (ix2 (0 : Fin 1) q) = b1 (ix1 q)) (h2 : ∀ q : Fin C, b2r (ix2 (0 : Fin 1) q) = b2 (ix1 q)) :
    headRow g w1 b1r w2 b2r = head g w1 b1 w2 b2 := by
  unfold headRow head
  rw [affineRow_eq_affine g w1 b1r b1 h1, affineRow_eq_affine _ w2 b2r b2 h2]

end Cert.Spec

end
-- ==== Proof.Net.lean ====
/-
  The whole network over given host functions: the gathers of source-node and target-node rows, the scatter-add of
  messages into their target nodes, and the mean pool of node features over each graph.  Two message-passing layers
  over the embedded node features, pooled and sent through the head.
-/
import proofs.«421567_j10007273799859_2_alg».proof.Proof.Spec

noncomputable section

namespace Cert.Spec

/-- The host functions the network is built over. -/
structure HostOps (N E H G : Nat) where
  gS : Arr2 N H → Arr2 E H
  gD : Arr2 N H → Arr2 E H
  sc : Arr2 E H → Arr2 N H
  pool : Arr2 N H → Arr2 G H

/-- Embedding, two layers, pool, head. -/
def net {N E Fi H G H2 C : Nat} (o : HostOps N E H G) (x : Arr2 N Fi) (we : Arr2 Fi H) (be : Arr1 H) (ea : Arr1 E)
    (w1a : Arr2 H H) (b1a : Arr1 H) (w2a w3a : Arr2 H H) (b3a : Arr1 H)
    (w1b : Arr2 H H) (b1b : Arr1 H) (w2b w3b : Arr2 H H) (b3b : Arr1 H)
    (m1 : Arr2 H H2) (c1 : Arr1 H2) (m2 : Arr2 H2 C) (c2 : Arr1 C) : Arr2 G C :=
  head (o.pool (layer o.gS o.gD o.sc ea w1b b1b w2b w3b b3b
    (layer o.gS o.gD o.sc ea w1a b1a w2a w3a b3a (affine x we be)))) m1 c1 m2 c2

end Cert.Spec

end
-- ==== Proof.KHost.lean ====
/-
  The host side of the kernel program as functions of the argument arrays, at the ideal values: the two rows of the
  edge list, an index wrapped into range and laid out as a column, the gathers and the scatter-add over them, the mean
  pool over the graph assignment, and each layer's weight matrices and bias vectors cut out of the stacked arguments.
  Then the values the program's stages hold, named one by one.
-/
import proofs.«421567_j10007273799859_2_alg».proof.KernelIdeal
import proofs.«421567_j10007273799859_2_alg».proof.Proof.Gen.KernelIdeal
import proofs.«421567_j10007273799859_2_alg».proof.Proof.Net

noncomputable section

namespace Cert.KernelIdeal.Host

open Idealize.ShloMosaic Cert.KernelIdeal Cert.KernelIdeal.Facts₀ Cert.KernelIdeal.Facts Cert.Spec

/-- Row r of the edge list as a vector of node numbers. -/
def src (a1 : IVec S2x1600000 32) : IVec S1600000 32 :=
  shapeCast S1600000 (extractStridedSlice S1x1600000 ![0, 0] a1 slices_S2x1600000_S1x1600000_0_0) shapeCasts_S1x1600000_S1600000
def dst (a1 : IVec S2x1600000 32) : IVec S1600000 32 :=
  shapeCast S1600000 (extractStridedSlice S1x1600000 ![1, 0] a1 slices_S2x1600000_S1x1600000_1_0) shapeCasts_S1x1600000_S1600000

/-- A node number with a negative one moved up by the node count, as a one-column array. -/
def wrapCol (idx : IVec S1600000 32) : IVec S1600000x1 32 :=
  broadcastInDim S1600000x1 ![0] bcast_S1600000_S1600000x1_0
    (select (cmpi .slt idx (broadcastInDim S1600000 ![] bcast_S_S1600000 (constantI S_ 32 0#32)))
      (addi idx (broadcastInDim S1600000 ![] bcast_S_S1600000 (constantI S_ 32 100000#32))) idx)

/-- The rows of a node array at the (wrapped, clamped) node numbers idx. -/
def gatherRows (idx : IVec S1600000 32) (a : Arr2 100000 64) : Arr2 1600000 64 :=
  Host.gather gather_S100000x64_S1600000x1_S1600000x64_1_0_n_n_0_1_164 (a : FVec Ideal S100000x64 .f32) (wrapCol idx)

/-- Edge rows added into the node rows their target numbers name, from zero. -/
def scatterRows (idx : IVec S1600000 32) (u : Arr2 1600000 64) : Arr2 100000 64 :=
  Host.scatterAdd (F := Ideal) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 idx) (u : FVec Ideal S1600000x64 .f32)

/-- The mean of the node rows of each graph, a graph with no node counted as having one. -/
def meanPool (batch : IVec S100000 32) (h : Arr2 100000 64) : Arr2 1000 64 :=
  Host.divf (F := Ideal)
    (Host.scatterAdd (F := Ideal) scatter_S1000x64_S100000x1_S100000x64_1_0_0_1
      (broadcastInDim S1000x64 ![] bcast_S_S1000x64 (constant (F := Ideal) S_ .f32 0x00000000#32))
      (broadcastInDim S100000x1 ![0] bcast_S100000_S100000x1_0 batch) (h : FVec Ideal S100000x64 .f32))
    (broadcastInDim S1000x64 ![0, 1] bcast_S1000x1_S1000x64_0_1
      (broadcastInDim S1000x1 ![0] bcast_S1000_S1000x1_0
        (maximumf
          (Host.scatterAdd (F := Ideal) scatter_S1000_S100000x1_S100000_n_0_0_1
            (broadcastInDim S1000 ![] bcast_S_S1000 (constant (F := Ideal) S_ .f32 0x00000000#32))
            (broadcastInDim S100000x1 ![0] bcast_S100000_S100000x1_0 batch)
            (broadcastInDim S100000 ![] bcast_S_S100000 (constant (F := Ideal) S_ .f32 0x3F800000#32)))
          (broadcastInDim S1000 ![] bcast_S_S1000 (constant (F := Ideal) S_ .f32 0x3F800000#32)))))

/-- Layer l's weight matrix out of a stacked argument. -/
def mat0 (a : FVec Ideal S2x64x64 .f32) : Arr2 64 64 :=
  shapeCast S64x64 (extractStridedSlice S1x64x64 ![0, 0, 0] a slices_S2x64x64_S1x64x64_0_0_0) shapeCasts_S1x64x64_S64x64
def mat1 (a : FVec Ideal S2x64x64 .f32) : Arr2 64 64 :=
  shapeCast S64x64 (extractStridedSlice S1x64x64 ![1, 0, 0] a slices_S2x64x64_S1x64x64_1_0_0) shapeCasts_S1x64x64_S64x64
/-- Layer l's bias vector out of a stacked argument. -/
def vec0 (a : FVec Ideal S2x64 .f32) : Arr1 64 :=
  shapeCast S64 (extractStridedSlice S1x64 ![0, 0] a slices_S2x64_S1x64_0_0) shapeCasts_S1x64_S64
def vec1 (a : FVec Ideal S2x64 .f32) : Arr1 64 :=
  shapeCast S64 (extractStridedSlice S1x64 ![1, 0] a slices_S2x64_S1x64_1_0) shapeCasts_S1x64_S64

/-- The host functions over the edge list a1 and the graph assignment a3. -/
def ops (a1 : IVec S2x1600000 32) (a3 : IVec S100000 32) : HostOps 100000 1600000 64 1000 where
  gS := gatherRows (src a1)
  gD := gatherRows (dst a1)
  sc := scatterRows (dst a1)
  pool := meanPool a3

end Cert.KernelIdeal.Host

end
-- ==== Proof.KStages.lean ====
/-
  The values the kernel's program holds stage by stage, as functions of the launch memory, at the ideal values:
  the embedded node features; per layer the three dense layers of the node features, the gathered source and target
  rows, the messages, their sums per target node, and the updated node features; the pooled graph features; the
  head's result.  The result is the network of Net.lean over the host functions of KHost.lean.
-/
import proofs.«421567_j10007273799859_2_alg».proof.Proof.KHost

noncomputable section

namespace Cert.KernelIdeal.Stage

open Idealize.ShloMosaic Idealize.ShloMosaic.TcCoe Cert.KernelIdeal Cert.KernelIdeal.Host Cert.Spec

variable (m : (ℓ : Loc nD τ sig) → Buf (Elt Ideal) ℓ) (c : Dev nD)

/-- The argument arrays at launch, at their literal types. -/
abbrev A0 : Arr2 100000 4 := m ((c : Thread nD τ).loc main_arg0)
abbrev A1 : IVec S2x1600000 32 := m ((c : Thread nD τ).loc main_arg1)
abbrev A2 : Arr1 1600000 := m ((c : Thread nD τ).loc main_arg2)
abbrev A3 : IVec S100000 32 := m ((c : Thread nD τ).loc main_arg3)
abbrev A4 : Arr2 4 64 := m ((c : Thread nD τ).loc main_arg4)
abbrev A5 : Arr1 64 := m ((c : Thread nD τ).loc main_arg5)
abbrev A6 : FVec Ideal S2x64x64 .f32 := m ((c : Thread nD τ).loc main_arg6)
abbrev A7 : FVec Ideal S2x64 .f32 := m ((c : Thread nD τ).loc main_arg7)
abbrev A8 : FVec Ideal S2x64x64 .f32 := m ((c : Thread nD τ).loc main_arg8)
abbrev A9 : FVec Ideal S2x64x64 .f32 := m ((c : Thread nD τ).loc main_arg9)
abbrev A10 : FVec Ideal S2x64 .f32 := m ((c : Thread nD τ).loc main_arg10)
abbrev A11 : Arr2 64 128 := m ((c : Thread nD τ).loc main_arg11)
abbrev A12 : Arr1 128 := m ((c : Thread nD τ).loc main_arg12)
abbrev A13 : Arr2 128 3 := m ((c : Thread nD τ).loc main_arg13)
abbrev A14 : Arr1 3 := m ((c : Thread nD τ).loc main_arg14)

/-- The embedded node features. -/
def h0 : Arr2 100000 64 := affine (A0 m c) (A4 m c) (A5 m c)

/-- Layer 0. -/
def a0 : Arr2 100000 64 := affine (h0 m c) (mat0 (A6 m c)) (vec0 (A7 m c))
def b0 : Arr2 100000 64 := Cert.Lib.dense (h0 m c) (mat0 (A8 m c))
def c0 : Arr2 100000 64 := affine (h0 m c) (mat0 (A9 m c)) (vec0 (A10 m c))
def as0 : Arr2 1600000 64 := gatherRows (src (A1 m c)) (a0 m c)
def bd0 : Arr2 1600000 64 := gatherRows (dst (A1 m c)) (b0 m c)
def ms0 : Arr2 1600000 64 := msg (as0 m c) (bd0 m c) (A2 m c)
def ag0 : Arr2 100000 64 := scatterRows (dst (A1 m c)) (ms0 m c)
def h1 : Arr2 100000 64 := combine (ag0 m c) (c0 m c)

/-- Layer 1. -/
def a1 : Arr2 100000 64 := affine (h1 m c) (mat1 (A6 m c)) (vec1 (A7 m c))
def b1 : Arr2 100000 64 := Cert.Lib.dense (h1 m c) (mat1 (A8 m c))
def c1 : Arr2 100000 64 := affine (h1 m c) (mat1 (A9 m c)) (vec1 (A10 m c))
def as1 : Arr2 1600000 64 := gatherRows (src (A1 m c)) (a1 m c)
def bd1 : Arr2 1600000 64 := gatherRows (dst (A1 m c)) (b1 m c)
def ms1 : Arr2 1600000 64 := msg (as1 m c) (bd1 m c) (A2 m c)
def ag1 : Arr2 100000 64 := scatterRows (dst (A1 m c)) (ms1 m c)
def h2 : Arr2 100000 64 := combine (ag1 m c) (c1 m c)

/-- The pooled graph features and the head's result. -/
def gx : Arr2 1000 64 := meanPool (A3 m c) (h2 m c)
def out : Arr2 1000 3 := head (gx m c) (A11 m c) (A12 m c) (A13 m c) (A14 m c)

/-- The stages compose to the network over the host functions. -/
theorem out_eq_net : out m c = net (ops (A1 m c) (A3 m c)) (A0 m c) (A4 m c) (A5 m c) (A2 m c)
    (mat0 (A6 m c)) (vec0 (A7 m c)) (mat0 (A8 m c)) (mat0 (A9 m c)) (vec0 (A10 m c))
    (mat1 (A6 m c)) (vec1 (A7 m c)) (mat1 (A8 m c)) (mat1 (A9 m c)) (vec1 (A10 m c))
    (A11 m c) (A12 m c) (A13 m c) (A14 m c) := rfl

/-- What the proofs about the gathers assume of the edge list: every entry a node number. -/
def EdgesInRange : Prop := ∀ i : S2x1600000.Idx, 0 ≤ (A1 m c i).toInt ∧ (A1 m c i).toInt < 100000

end Cert.KernelIdeal.Stage

end
-- ==== Proof.LibHostCalls.lean ====
/-
  Reading back host lines that came from a module-local function (a `func.call` such as jnp.take's `@_take` or jnp.clip's
  `@clip`, whose operations are the typed-reference builders `TRef.unary`, `TRef.binary`, …).

  A typed builder writes its result through `TRef.toBuf` and reads its operands through `TRef.ofBuf`, both casts along the
  reference's `ty_eq`.  A value passed from one operation of the function to the next is therefore wrapped
  `ofBuf (toBuf v)`: moved to the buffer's own type and back.  `cast_round` says such a round trip is the value, whatever
  the two equalities' proofs are, so `simp only [TRef.toBuf, TRef.ofBuf, cast_round]` cancels every pair syntactically,
  without looking at any buffer's type.  What is left afterwards is at most one cast around the whole result — removed by
  `refine eq_of_heq ((cast_heq _ _).trans (heq_of_eq ?_))` — and casts around the values read from the valuation, each
  rewritten by a local equation `∀ h, cast h (W b) = W b := fun _ => rfl` stated at the buffer's literal type.
  A long line is best read in parts, each from an arbitrary valuation, joined by the library's `StableHlo.after_append`.
-/
import Idealize.ShloMosaic.Lib.StableHlo.Run

noncomputable section

namespace HostCalls

open Idealize.ShloMosaic Idealize.ShloMosaic.StableHlo

/-- A value moved to another type along an equality and back is the value, whatever the two equalities' proofs. -/
theorem cast_round {A B : Type} (h1 : A = B) (h2 : B = A) (v : A) : cast h2 (cast h1 v) = v := by
  subst h1; rfl

end HostCalls

end
-- ==== Proof.FoldLib.lean ====
/-
  Reading the kernel program's buffers through its twenty segments.  A segment is a stretch of host operations or a
  kernel region; W j is what the buffers hold after segment j (W 0 the launch contents).  Here: the tactic for "no
  operation of this host stretch writes this buffer", the list of the fifteen argument arrays, and two layout facts —
  a vector laid out as one row, or as one column, read back at an entry.
-/
import proofs.«421567_j10007273799859_2_alg».proof.Proof.Gen.KernelIdeal.Frame
import proofs.«421567_j10007273799859_2_alg».proof.Proof.KStages
import proofs.«421567_j10007273799859_2_alg».proof.Proof.LibHostCalls
import Idealize.ShloMosaic.Lib.Pipeline.Value
import Idealize.ShloMosaic.Lib.ValueIdx

set_option maxRecDepth 16384

noncomputable section

namespace Cert.KernelIdeal.Fold

open Idealize.ShloMosaic Idealize.ShloMosaic.TcCoe Idealize.ShloMosaic.ValueIdx Idealize.ShloMosaic.StableHlo
open Cert.KernelIdeal Cert.KernelIdeal.Gen Cert.KernelIdeal.Stage Cert.Spec

/-- Closes `StableHlo.after ops W (Proc.devRef .tc b) = W (Proc.devRef .tc b)` for a literal list `ops` none of whose
    operations writes the literal buffer `b`. -/
macro "keep_host " ops:ident : tactic => `(tactic| (
  refine StableHlo.after_of_forall_not_mem _ _ (List.forall_iff_forall_mem.mp ?_)
  simp only [$ops:ident, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

/-- The fifteen argument arrays. -/
abbrev args : List (Ref sig .tc) :=
  [main_arg0, main_arg1, main_arg2, main_arg3, main_arg4, main_arg5, main_arg6, main_arg7, main_arg8, main_arg9, main_arg10,
   main_arg11, main_arg12, main_arg13, main_arg14]

/-- A vector laid out as one row, read at (0, q), is its entry q. -/
theorem row_read {N : Nat} (b : Arr1 N) (h : (⟨1, ![N]⟩ : Shape).ShapeCasts ⟨2, ![1, N]⟩) (q : Fin N) :
    (shapeCast ⟨2, ![1, N]⟩ b h : Arr2 1 N) (ix2 (0 : Fin 1) q) = b (ix1 q) := by
  refine shapeCast_apply b h _ _ ?_
  rw [Shape.rowMajor_val_one, Shape.rowMajor_val_two]
  show q.val = 0 * N + q.val
  omega

/-- A vector laid out as one column, read at (p, 0), is its entry p. -/
theorem col_read {E : Nat} (e : Arr1 E) (h : (⟨1, ![E]⟩ : Shape).ShapeCasts ⟨2, ![E, 1]⟩) (p : Fin E) :
    (shapeCast ⟨2, ![E, 1]⟩ e h : Arr2 E 1) (ix2 p (0 : Fin 1)) = e (ix1 p) := by
  refine shapeCast_apply e h _ _ ?_
  rw [Shape.rowMajor_val_one, Shape.rowMajor_val_two]
  show p.val = p.val * 1 + 0
  omega

end Cert.KernelIdeal.Fold

end
-- ==== Proof.FoldKeep.lean ====
/-
  The kernel program's segments 1 to 19, one lemma each: the argument arrays and the buffers a later segment still
  reads keep their contents across the segment (a host stretch writes none of them; a region changes only its
  output arrays).  Then, boundary by boundary, every argument array holds its launch contents.
-/
import proofs.«421567_j10007273799859_2_alg».proof.Proof.FoldLib

set_option maxRecDepth 16384

noncomputable section

namespace Cert.KernelIdeal.Fold

open Idealize.ShloMosaic Idealize.ShloMosaic.TcCoe Idealize.ShloMosaic.StableHlo
open Cert.KernelIdeal Cert.KernelIdeal.Gen Cert.KernelIdeal.Stage

variable (m : (ℓ : Loc nD τ sig) → Buf (Elt Ideal) ℓ) (ρ : Dev nD → PrngReg) (c : Dev nD)

/-- Segment 1 (a host stretch) writes none of these. -/
theorem keep1 {b : Ref sig .tc} (hb : b ∈ args) :
    W1 m ρ c (Proc.devRef .tc b) = W0 m ρ c (Proc.devRef .tc b) :=
  List.forall_iff_forall_mem.mp (show (args).Forall (fun b => W1 m ρ c (Proc.devRef .tc b) = W0 m ρ c (Proc.devRef .tc b)) from by
    simp only [args, List.cons_append, List.nil_append, List.Forall]
    repeat' apply And.intro
    all_goals (show StableHlo.after hostOps0 (W0 m ρ c) _ = _; keep_host hostOps0)) b hb

/-- Segment 2 (region 0) changes only its output arrays. -/
theorem keep2 {b : Ref sig .tc} (hb : b ∈ args ++ [main_v1, main_v3]) :
    W2 m ρ c (Proc.devRef .tc b) = W1 m ρ c (Proc.devRef .tc b) :=
  List.forall_iff_forall_mem.mp (show (args ++ [main_v1, main_v3]).Forall (fun b => W2 m ρ c (Proc.devRef .tc b) = W1 m ρ c (Proc.devRef .tc b)) from by
    simp only [args, List.cons_append, List.nil_append, List.Forall]
    repeat' apply And.intro
    all_goals first
      | exact W2_of_ne m ρ c _ (by decide)
      | exact (W2_arr m ρ c 0).trans (((dat0 (V1 m ρ) c).arrAt_in 0 rfl _).trans (A_eq0 (V1 m ρ) c 0))
      | exact (W2_arr m ρ c 1).trans (((dat0 (V1 m ρ) c).arrAt_in 1 rfl _).trans (A_eq0 (V1 m ρ) c 1))
      | exact (W2_arr m ρ c 2).trans (((dat0 (V1 m ρ) c).arrAt_in 2 rfl _).trans (A_eq0 (V1 m ρ) c 2))
  ) b hb

/-- Segment 3 (a host stretch) writes none of these. -/
theorem keep3 {b : Ref sig .tc} (hb : b ∈ args ++ [main_v1, main_v3, main_v5]) :
    W3 m ρ c (Proc.devRef .tc b) = W2 m ρ c (Proc.devRef .tc b) :=
  List.forall_iff_forall_mem.mp (show (args ++ [main_v1, main_v3, main_v5]).Forall (fun b => W3 m ρ c (Proc.devRef .tc b) = W2 m ρ c (Proc.devRef .tc b)) from by
    simp only [args, List.cons_append, List.nil_append, List.Forall]
    repeat' apply And.intro
    all_goals (show StableHlo.after hostOps1 (W2 m ρ c) _ = _; keep_host hostOps1)) b hb

/-- Segment 4 (region 1) changes only its output arrays. -/
theorem keep4 {b : Ref sig .tc} (hb : b ∈ args ++ [main_v1, main_v3]) :
    W4 m ρ c (Proc.devRef .tc b) = W3 m ρ c (Proc.devRef .tc b) :=
  List.forall_iff_forall_mem.mp (show (args ++ [main_v1, main_v3]).Forall (fun b => W4 m ρ c (Proc.devRef .tc b) = W3 m ρ c (Proc.devRef .tc b)) from by
    simp only [args, List.cons_append, List.nil_append, List.Forall]
    repeat' apply And.intro
    all_goals first
      | exact W4_of_ne m ρ c _ (by decide)
      | exact (W4_arr m ρ c 0).trans (((dat1 (V3 m ρ) c).arrAt_in 0 rfl _).trans (A_eq1 (V3 m ρ) c 0))
      | exact (W4_arr m ρ c 1).trans (((dat1 (V3 m ρ) c).arrAt_in 1 rfl _).trans (A_eq1 (V3 m ρ) c 1))
      | exact (W4_arr m ρ c 2).trans (((dat1 (V3 m ρ) c).arrAt_in 2 rfl _).trans (A_eq1 (V3 m ρ) c 2))
      | exact (W4_arr m ρ c 3).trans (((dat1 (V3 m ρ) c).arrAt_in 3 rfl _).trans (A_eq1 (V3 m ρ) c 3))
      | exact (W4_arr m ρ c 4).trans (((dat1 (V3 m ρ) c).arrAt_in 4 rfl _).trans (A_eq1 (V3 m ρ) c 4))
      | exact (W4_arr m ρ c 5).trans (((dat1 (V3 m ρ) c).arrAt_in 5 rfl _).trans (A_eq1 (V3 m ρ) c 5))
  ) b hb

/-- Segment 5 (a host stretch) writes none of these. -/
theorem keep5 {b : Ref sig .tc} (hb : b ∈ args ++ [main_v1, main_v3, main_v18_1, main_v18_2]) :
    W5 m ρ c (Proc.devRef .tc b) = W4 m ρ c (Proc.devRef .tc b) :=
  List.forall_iff_forall_mem.mp (show (args ++ [main_v1, main_v3, main_v18_1, main_v18_2]).Forall (fun b => W5 m ρ c (Proc.devRef .tc b) = W4 m ρ c (Proc.devRef .tc b)) from by
    simp only [args, List.cons_append, List.nil_append, List.Forall]
    repeat' apply And.intro
    all_goals (show StableHlo.after hostOps2 (W4 m ρ c) _ = _; keep_host hostOps2)) b hb

/-- Segment 6 (a host stretch) writes none of these. -/
theorem keep6 {b : Ref sig .tc} (hb : b ∈ args ++ [main_v1, main_v3, main_v18_2, main_v19]) :
    W6 m ρ c (Proc.devRef .tc b) = W5 m ρ c (Proc.devRef .tc b) :=
  List.forall_iff_forall_mem.mp (show (args ++ [main_v1, main_v3, main_v18_2, main_v19]).Forall (fun b => W6 m ρ c (Proc.devRef .tc b) = W5 m ρ c (Proc.devRef .tc b)) from by
    simp only [args, List.cons_append, List.nil_append, List.Forall]
    repeat' apply And.intro
    all_goals (show StableHlo.after hostOps2_1 (W5 m ρ c) _ = _; keep_host hostOps2_1)) b hb

/-- Segment 7 (a host stretch) writes none of these. -/
theorem keep7 {b : Ref sig .tc} (hb : b ∈ args ++ [main_v1, main_v3, main_v18_2, main_v19, main_v20]) :
    W7 m ρ c (Proc.devRef .tc b) = W6 m ρ c (Proc.devRef .tc b) :=
  List.forall_iff_forall_mem.mp (show (args ++ [main_v1, main_v3, main_v18_2, main_v19, main_v20]).Forall (fun b => W7 m ρ c (Proc.devRef .tc b) = W6 m ρ c (Proc.devRef .tc b)) from by
    simp only [args, List.cons_append, List.nil_append, List.Forall]
    repeat' apply And.intro
    all_goals (show StableHlo.after hostOps2_2 (W6 m ρ c) _ = _; keep_host hostOps2_2)) b hb

/-- Segment 8 (region 2) changes only its output arrays. -/
theorem keep8 {b : Ref sig .tc} (hb : b ∈ args ++ [main_v1, main_v3, main_v18_2]) :
    W8 m ρ c (Proc.devRef .tc b) = W7 m ρ c (Proc.devRef .tc b) :=
  List.forall_iff_forall_mem.mp (show (args ++ [main_v1, main_v3, main_v18_2]).Forall (fun b => W8 m ρ c (Proc.devRef .tc b) = W7 m ρ c (Proc.devRef .tc b)) from by
    simp only [args, List.cons_append, List.nil_append, List.Forall]
    repeat' apply And.intro
    all_goals first
      | exact W8_of_ne m ρ c _ (by decide)
      | exact (W8_arr m ρ c 0).trans (((dat2 (V7 m ρ) c).arrAt_in 0 rfl _).trans (A_eq2 (V7 m ρ) c 0))
      | exact (W8_arr m ρ c 1).trans (((dat2 (V7 m ρ) c).arrAt_in 1 rfl _).trans (A_eq2 (V7 m ρ) c 1))
      | exact (W8_arr m ρ c 2).trans (((dat2 (V7 m ρ) c).arrAt_in 2 rfl _).trans (A_eq2 (V7 m ρ) c 2))
  ) b hb

/-- Segment 9 (a host stretch) writes none of these. -/
theorem keep9 {b : Ref sig .tc} (hb : b ∈ args ++ [main_v1, main_v3, main_v18_2]) :
    W9 m ρ c (Proc.devRef .tc b) = W8 m ρ c (Proc.devRef .tc b) :=
  List.forall_iff_forall_mem.mp (show (args ++ [main_v1, main_v3, main_v18_2]).Forall (fun b => W9 m ρ c (Proc.devRef .tc b) = W8 m ρ c (Proc.devRef .tc b)) from by
    simp only [args, List.cons_append, List.nil_append, List.Forall]
    repeat' apply And.intro
    all_goals (show StableHlo.after hostOps3 (W8 m ρ c) _ = _; keep_host hostOps3)) b hb

/-- Segment 10 (region 3) changes only its output arrays. -/
theorem keep10 {b : Ref sig .tc} (hb : b ∈ args ++ [main_v1, main_v3]) :
    W10 m ρ c (Proc.devRef .tc b) = W9 m ρ c (Proc.devRef .tc b) :=
  List.forall_iff_forall_mem.mp (show (args ++ [main_v1, main_v3]).Forall (fun b => W10 m ρ c (Proc.devRef .tc b) = W9 m ρ c (Proc.devRef .tc b)) from by
    simp only [args, List.cons_append, List.nil_append, List.Forall]
    repeat' apply And.intro
    all_goals first
      | exact W10_of_ne m ρ c _ (by decide)
      | exact (W10_arr m ρ c 0).trans (((dat3 (V9 m ρ) c).arrAt_in 0 rfl _).trans (A_eq3 (V9 m ρ) c 0))
      | exact (W10_arr m ρ c 1).trans (((dat3 (V9 m ρ) c).arrAt_in 1 rfl _).trans (A_eq3 (V9 m ρ) c 1))
  ) b hb

/-- Segment 11 (a host stretch) writes none of these. -/
theorem keep11 {b : Ref sig .tc} (hb : b ∈ args ++ [main_v1, main_v3, main_v26]) :
    W11 m ρ c (Proc.devRef .tc b) = W10 m ρ c (Proc.devRef .tc b) :=
  List.forall_iff_forall_mem.mp (show (args ++ [main_v1, main_v3, main_v26]).Forall (fun b => W11 m ρ c (Proc.devRef .tc b) = W10 m ρ c (Proc.devRef .tc b)) from by
    simp only [args, List.cons_append, List.nil_append, List.Forall]
    repeat' apply And.intro
    all_goals (show StableHlo.after hostOps4 (W10 m ρ c) _ = _; keep_host hostOps4)) b hb

/-- Segment 12 (region 4) changes only its output arrays. -/
theorem keep12 {b : Ref sig .tc} (hb : b ∈ args ++ [main_v1, main_v3]) :
    W12 m ρ c (Proc.devRef .tc b) = W11 m ρ c (Proc.devRef .tc b) :=
  List.forall_iff_forall_mem.mp (show (args ++ [main_v1, main_v3]).Forall (fun b => W12 m ρ c (Proc.devRef .tc b) = W11 m ρ c (Proc.devRef .tc b)) from by
    simp only [args, List.cons_append, List.nil_append, List.Forall]
    repeat' apply And.intro
    all_goals first
      | exact W12_of_ne m ρ c _ (by decide)
      | exact (W12_arr m ρ c 0).trans (((dat4 (V11 m ρ) c).arrAt_in 0 rfl _).trans (A_eq4 (V11 m ρ) c 0))
      | exact (W12_arr m ρ c 1).trans (((dat4 (V11 m ρ) c).arrAt_in 1 rfl _).trans (A_eq4 (V11 m ρ) c 1))
      | exact (W12_arr m ρ c 2).trans (((dat4 (V11 m ρ) c).arrAt_in 2 rfl _).trans (A_eq4 (V11 m ρ) c 2))
      | exact (W12_arr m ρ c 3).trans (((dat4 (V11 m ρ) c).arrAt_in 3 rfl _).trans (A_eq4 (V11 m ρ) c 3))
      | exact (W12_arr m ρ c 4).trans (((dat4 (V11 m ρ) c).arrAt_in 4 rfl _).trans (A_eq4 (V11 m ρ) c 4))
      | exact (W12_arr m ρ c 5).trans (((dat4 (V11 m ρ) c).arrAt_in 5 rfl _).trans (A_eq4 (V11 m ρ) c 5))
  ) b hb

/-- Segment 13 (a host stretch) writes none of these. -/
theorem keep13 {b : Ref sig .tc} (hb : b ∈ args ++ [main_v1, main_v3, main_v39_1, main_v39_2]) :
    W13 m ρ c (Proc.devRef .tc b) = W12 m ρ c (Proc.devRef .tc b) :=
  List.forall_iff_forall_mem.mp (show (args ++ [main_v1, main_v3, main_v39_1, main_v39_2]).Forall (fun b => W13 m ρ c (Proc.devRef .tc b) = W12 m ρ c (Proc.devRef .tc b)) from by
    simp only [args, List.cons_append, List.nil_append, List.Forall]
    repeat' apply And.intro
    all_goals (show StableHlo.after hostOps5 (W12 m ρ c) _ = _; keep_host hostOps5)) b hb

/-- Segment 14 (a host stretch) writes none of these. -/
theorem keep14 {b : Ref sig .tc} (hb : b ∈ args ++ [main_v1, main_v3, main_v39_2, main_v40]) :
    W14 m ρ c (Proc.devRef .tc b) = W13 m ρ c (Proc.devRef .tc b) :=
  List.forall_iff_forall_mem.mp (show (args ++ [main_v1, main_v3, main_v39_2, main_v40]).Forall (fun b => W14 m ρ c (Proc.devRef .tc b) = W13 m ρ c (Proc.devRef .tc b)) from by
    simp only [args, List.cons_append, List.nil_append, List.Forall]
    repeat' apply And.intro
    all_goals (show StableHlo.after hostOps5_1 (W13 m ρ c) _ = _; keep_host hostOps5_1)) b hb

/-- Segment 15 (a host stretch) writes none of these. -/
theorem keep15 {b : Ref sig .tc} (hb : b ∈ args ++ [main_v1, main_v3, main_v39_2, main_v40, main_v41]) :
    W15 m ρ c (Proc.devRef .tc b) = W14 m ρ c (Proc.devRef .tc b) :=
  List.forall_iff_forall_mem.mp (show (args ++ [main_v1, main_v3, main_v39_2, main_v40, main_v41]).Forall (fun b => W15 m ρ c (Proc.devRef .tc b) = W14 m ρ c (Proc.devRef .tc b)) from by
    simp only [args, List.cons_append, List.nil_append, List.Forall]
    repeat' apply And.intro
    all_goals (show StableHlo.after hostOps5_2 (W14 m ρ c) _ = _; keep_host hostOps5_2)) b hb

/-- Segment 16 (region 5) changes only its output arrays. -/
theorem keep16 {b : Ref sig .tc} (hb : b ∈ args ++ [main_v1, main_v3, main_v39_2]) :
    W16 m ρ c (Proc.devRef .tc b) = W15 m ρ c (Proc.devRef .tc b) :=
  List.forall_iff_forall_mem.mp (show (args ++ [main_v1, main_v3, main_v39_2]).Forall (fun b => W16 m ρ c (Proc.devRef .tc b) = W15 m ρ c (Proc.devRef .tc b)) from by
    simp only [args, List.cons_append, List.nil_append, List.Forall]
    repeat' apply And.intro
    all_goals first
      | exact W16_of_ne m ρ c _ (by decide)
      | exact (W16_arr m ρ c 0).trans (((dat5 (V15 m ρ) c).arrAt_in 0 rfl _).trans (A_eq5 (V15 m ρ) c 0))
      | exact (W16_arr m ρ c 1).trans (((dat5 (V15 m ρ) c).arrAt_in 1 rfl _).trans (A_eq5 (V15 m ρ) c 1))
      | exact (W16_arr m ρ c 2).trans (((dat5 (V15 m ρ) c).arrAt_in 2 rfl _).trans (A_eq5 (V15 m ρ) c 2))
  ) b hb

/-- Segment 17 (a host stretch) writes none of these. -/
theorem keep17 {b : Ref sig .tc} (hb : b ∈ args ++ [main_v1, main_v3, main_v39_2]) :
    W17 m ρ c (Proc.devRef .tc b) = W16 m ρ c (Proc.devRef .tc b) :=
  List.forall_iff_forall_mem.mp (show (args ++ [main_v1, main_v3, main_v39_2]).Forall (fun b => W17 m ρ c (Proc.devRef .tc b) = W16 m ρ c (Proc.devRef .tc b)) from by
    simp only [args, List.cons_append, List.nil_append, List.Forall]
    repeat' apply And.intro
    all_goals (show StableHlo.after hostOps6 (W16 m ρ c) _ = _; keep_host hostOps6)) b hb

/-- Segment 18 (region 6) changes only its output arrays. -/
theorem keep18 {b : Ref sig .tc} (hb : b ∈ args ++ [main_v1, main_v3]) :
    W18 m ρ c (Proc.devRef .tc b) = W17 m ρ c (Proc.devRef .tc b) :=
  List.forall_iff_forall_mem.mp (show (args ++ [main_v1, main_v3]).Forall (fun b => W18 m ρ c (Proc.devRef .tc b) = W17 m ρ c (Proc.devRef .tc b)) from by
    simp only [args, List.cons_append, List.nil_append, List.Forall]
    repeat' apply And.intro
    all_goals first
      | exact W18_of_ne m ρ c _ (by decide)
      | exact (W18_arr m ρ c 0).trans (((dat6 (V17 m ρ) c).arrAt_in 0 rfl _).trans (A_eq6 (V17 m ρ) c 0))
      | exact (W18_arr m ρ c 1).trans (((dat6 (V17 m ρ) c).arrAt_in 1 rfl _).trans (A_eq6 (V17 m ρ) c 1))
  ) b hb

/-- Segment 19 (a host stretch) writes none of these. -/
theorem keep19 {b : Ref sig .tc} (hb : b ∈ args) :
    W19 m ρ c (Proc.devRef .tc b) = W18 m ρ c (Proc.devRef .tc b) :=
  List.forall_iff_forall_mem.mp (show (args).Forall (fun b => W19 m ρ c (Proc.devRef .tc b) = W18 m ρ c (Proc.devRef .tc b)) from by
    simp only [args, List.cons_append, List.nil_append, List.Forall]
    repeat' apply And.intro
    all_goals (show StableHlo.after hostOps7 (W18 m ρ c) _ = _; keep_host hostOps7)) b hb

/-! ## The arguments at every boundary -/

theorem argAt0 {b : Ref sig .tc} (hb : b ∈ args) : W0 m ρ c (Proc.devRef .tc b) = m ((c : Thread nD τ).loc b) := rfl
theorem argAt1 {b : Ref sig .tc} (hb : b ∈ args) : W1 m ρ c (Proc.devRef .tc b) = m ((c : Thread nD τ).loc b) :=
  (keep1 m ρ c hb).trans (argAt0 m ρ c hb)
theorem argAt2 {b : Ref sig .tc} (hb : b ∈ args) : W2 m ρ c (Proc.devRef .tc b) = m ((c : Thread nD τ).loc b) :=
  (keep2 m ρ c (List.mem_append_left _ hb)).trans (argAt1 m ρ c hb)
theorem argAt3 {b : Ref sig .tc} (hb : b ∈ args) : W3 m ρ c (Proc.devRef .tc b) = m ((c : Thread nD τ).loc b) :=
  (keep3 m ρ c (List.mem_append_left _ hb)).trans (argAt2 m ρ c hb)
theorem argAt4 {b : Ref sig .tc} (hb : b ∈ args) : W4 m ρ c (Proc.devRef .tc b) = m ((c : Thread nD τ).loc b) :=
  (keep4 m ρ c (List.mem_append_left _ hb)).trans (argAt3 m ρ c hb)
theorem argAt5 {b : Ref sig .tc} (hb : b ∈ args) : W5 m ρ c (Proc.devRef .tc b) = m ((c : Thread nD τ).loc b) :=
  (keep5 m ρ c (List.mem_append_left _ hb)).trans (argAt4 m ρ c hb)
theorem argAt6 {b : Ref sig .tc} (hb : b ∈ args) : W6 m ρ c (Proc.devRef .tc b) = m ((c : Thread nD τ).loc b) :=
  (keep6 m ρ c (List.mem_append_left _ hb)).trans (argAt5 m ρ c hb)
theorem argAt7 {b : Ref sig .tc} (hb : b ∈ args) : W7 m ρ c (Proc.devRef .tc b) = m ((c : Thread nD τ).loc b) :=
  (keep7 m ρ c (List.mem_append_left _ hb)).trans (argAt6 m ρ c hb)
theorem argAt8 {b : Ref sig .tc} (hb : b ∈ args) : W8 m ρ c (Proc.devRef .tc b) = m ((c : Thread nD τ).loc b) :=
  (keep8 m ρ c (List.mem_append_left _ hb)).trans (argAt7 m ρ c hb)
theorem argAt9 {b : Ref sig .tc} (hb : b ∈ args) : W9 m ρ c (Proc.devRef .tc b) = m ((c : Thread nD τ).loc b) :=
  (keep9 m ρ c (List.mem_append_left _ hb)).trans (argAt8 m ρ c hb)
theorem argAt10 {b : Ref sig .tc} (hb : b ∈ args) : W10 m ρ c (Proc.devRef .tc b) = m ((c : Thread nD τ).loc b) :=
  (keep10 m ρ c (List.mem_append_left _ hb)).trans (argAt9 m ρ c hb)
theorem argAt11 {b : Ref sig .tc} (hb : b ∈ args) : W11 m ρ c (Proc.devRef .tc b) = m ((c : Thread nD τ).loc b) :=
  (keep11 m ρ c (List.mem_append_left _ hb)).trans (argAt10 m ρ c hb)
theorem argAt12 {b : Ref sig .tc} (hb : b ∈ args) : W12 m ρ c (Proc.devRef .tc b) = m ((c : Thread nD τ).loc b) :=
  (keep12 m ρ c (List.mem_append_left _ hb)).trans (argAt11 m ρ c hb)
theorem argAt13 {b : Ref sig .tc} (hb : b ∈ args) : W13 m ρ c (Proc.devRef .tc b) = m ((c : Thread nD τ).loc b) :=
  (keep13 m ρ c (List.mem_append_left _ hb)).trans (argAt12 m ρ c hb)
theorem argAt14 {b : Ref sig .tc} (hb : b ∈ args) : W14 m ρ c (Proc.devRef .tc b) = m ((c : Thread nD τ).loc b) :=
  (keep14 m ρ c (List.mem_append_left _ hb)).trans (argAt13 m ρ c hb)
theorem argAt15 {b : Ref sig .tc} (hb : b ∈ args) : W15 m ρ c (Proc.devRef .tc b) = m ((c : Thread nD τ).loc b) :=
  (keep15 m ρ c (List.mem_append_left _ hb)).trans (argAt14 m ρ c hb)
theorem argAt16 {b : Ref sig .tc} (hb : b ∈ args) : W16 m ρ c (Proc.devRef .tc b) = m ((c : Thread nD τ).loc b) :=
  (keep16 m ρ c (List.mem_append_left _ hb)).trans (argAt15 m ρ c hb)
theorem argAt17 {b : Ref sig .tc} (hb : b ∈ args) : W17 m ρ c (Proc.devRef .tc b) = m ((c : Thread nD τ).loc b) :=
  (keep17 m ρ c (List.mem_append_left _ hb)).trans (argAt16 m ρ c hb)
theorem argAt18 {b : Ref sig .tc} (hb : b ∈ args) : W18 m ρ c (Proc.devRef .tc b) = m ((c : Thread nD τ).loc b) :=
  (keep18 m ρ c (List.mem_append_left _ hb)).trans (argAt17 m ρ c hb)
theorem argAt19 {b : Ref sig .tc} (hb : b ∈ args) : W19 m ρ c (Proc.devRef .tc b) = m ((c : Thread nD τ).loc b) :=
  (keep19 m ρ c hb).trans (argAt18 m ρ c hb)

end Cert.KernelIdeal.Fold

end
-- ==== Proof.Reg0.lean ====
/-
  Region 0 (the embedding): its output array after the run is the node features times the embedding weights plus
  the one-row bias, as the region finds those three arrays.  Point t reads block t of the features (rows 5000 t …
  5000 t + 4999), the whole weights and the whole bias row, and writes block t of the output; the twenty blocks
  tile the array.
-/
import proofs.«421567_j10007273799859_2_alg».proof.Proof.Gen.KernelIdeal.Frame
import proofs.«421567_j10007273799859_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Reg0

open Idealize.ShloMosaic Idealize.ShloMosaic.TcCoe Idealize.ShloMosaic.ValueIdx
open Idealize.ShloMosaic.Pipeline (Dat Cfg Window)
open Cert.KernelIdeal Cert.KernelIdeal.Gen Cert.Spec

variable (V : (c : Dev nD) → (b : Ref sig .tc) → Buf (Elt Ideal) ((c : Thread nD τ).loc b))

/-- The three input arrays as the region finds them, at their literal types. -/
abbrev X0 (c : Dev nD) : Arr2 100000 4 := V c main_arg0
abbrev X1 (c : Dev nD) : Arr2 4 64 := V c main_arg4
abbrev X2 (c : Dev nD) : Arr2 1 64 := V c main_v4

theorem hz : (![0, 0] : Fin 2 → Nat) = fun _ => 0 := funext fun a => by fin_cases a <;> rfl

/-- The body's arithmetic at an entry: the product of the block and the weights there, plus the bias row's entry
    in that column (the operands' passage through the narrower format changes nothing at the ideal values). -/
theorem pay_eq (x0 : Vec Ideal S5000x4 .f32) (x1 : Vec Ideal S4x64 .f32) (x2 : Vec Ideal S1x64 .f32) (j : S5000x64.Idx) :
    k0_pay1 (F := Ideal) x0 x1 x2 j = Cert.Lib.dense x0 x1 j + x2 (ix2 (0 : Fin 1) (j 1)) := by
  unfold k0_pay1
  simp only [shapeCast_self]
  rw [addf_apply]
  refine congrArg₂ (· + ·) (congrFun (Cert.Lib.matmul_truncf_eq_dense dot_S5000x4_S4x64_S5000x64_1_0_0_1_n_n rfl rfl rfl rfl rfl rfl none x0 x1 _ _) j) ?_
  refine broadcastTo_apply x2 _ j (ix2 (0 : Fin 1) (j 1)) (fun a => ?_)
  match a with
  | ⟨0, _⟩ => rfl
  | ⟨1, _⟩ => rfl

/-- The printed index maps over the grid: the features' block and the output's block at point t are both block
    (t, 0); the weights' and the bias row's block is block (0, 0) at every point. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of the whole-array dense layer of the three input arrays: a row of the
    product depends on that row of the features alone, and the weights' and bias row's blocks are the arrays. -/
theorem flushed_eq (c : Dev nD) (t : Fin cfg0.N) :
    (dat0 (F := Ideal) V c).flushed 3 t
      = ((cfg0.win 3).blk t).view.read (Elt Ideal) (affineRow (X0 V c) (X1 V c) (X2 V c)) := by
  show (cfg0.win 3).cut (grid0.coords t) ((dat0 (F := Ideal) V c).after 3 t) = _
  rw [after0_3]
  unfold out0_3
  rw [View.canon_unit_zero hz]
  simp only [View.ld_unit_zero (S := S5000x4) hz, View.ld_unit_zero (S := S4x64) hz, View.ld_unit_zero (S := S1x64) hz]
  obtain ⟨e00, e01, e10, e11, e20, e21, e30, e31⟩ := idx_facts t
  funext j
  show k0_pay1 (F := Ideal) (iblk0 V c 0 t) (iblk0 V c 1 t) (iblk0 V c 2 t) j
     = affineRow (X0 V c) (X1 V c) (X2 V c) (((cfg0.win 3).blk t).view.emb j)
  refine (pay_eq (iblk0 V c 0 t) (iblk0 V c 1 t) (iblk0 V c 2 t) j).trans ?_

  unfold affineRow
  have hrow : ∀ k : Fin 4, iblk0 V c 0 t (ix2 (j 0) k) = X0 V c (ix2 ((((cfg0.win 3).blk t).view.emb j) 0) k) := fun k => by
    show X0 V c (((cfg0.win 0).blk t).view.emb (ix2 (j 0) k)) = _
    refine congrArg (X0 V c) (funext fun a => Fin.ext ?_)
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 4 + 1 * k.val = k.val; omega
  have hw : ∀ i, iblk0 V c 1 t i = X1 V c i := fun i => by
    show X1 V c (((cfg0.win 1).blk t).view.emb i) = _
    refine congrArg (X1 V c) (funext fun a => Fin.ext ?_)
    match a with
    | ⟨0, _⟩ => show win0_1.index t (0 : Fin 2) * 4 + 1 * (i 0).val = (i 0).val; omega
    | ⟨1, _⟩ => show win0_1.index t (1 : Fin 2) * 64 + 1 * (i 1).val = (i 1).val; omega
  have hb : iblk0 V c 2 t (ix2 (0 : Fin 1) (j 1)) = X2 V c (ix2 (0 : Fin 1) ((((cfg0.win 3).blk t).view.emb j) 1)) := by
    show X2 V c (((cfg0.win 2).blk t).view.emb (ix2 (0 : Fin 1) (j 1))) = _
    refine congrArg (X2 V c) (funext fun a => Fin.ext ?_)
    match a with
    | ⟨0, _⟩ => show win0_2.index t (0 : Fin 2) * 1 + 1 * 0 = 0; omega
    | ⟨1, _⟩ => show win0_2.index t (1 : Fin 2) * 64 + 1 * (j 1).val = win0_3.index t (1 : Fin 2) * 64 + 1 * (j 1).val; omega
  refine congrArg₂ (· + ·) ?_ hb
  have hd := Cert.Lib.dense_row (X0 V c) (iblk0 V c 0 t) (X1 V c) (iblk0 V c 1 t) ((((cfg0.win 3).blk t).view.emb j) 0) (j 0) hrow hw (j 1)
  have hj : j = ix2 (n0 := 5000) (n1 := 64) (j 0) (j 1) := funext fun a => by
    match a with
    | ⟨0, _⟩ => rfl
    | ⟨1, _⟩ => rfl
  have hi : ix2 (n0 := 100000) (n1 := 64) ((((cfg0.win 3).blk t).view.emb j) 0) (j 1) = ((cfg0.win 3).blk t).view.emb j := funext fun a => Fin.ext (by
    match a with
    | ⟨0, _⟩ => rfl
    | ⟨1, _⟩ => show (j 1).val = win0_3.index t (1 : Fin 2) * 64 + 1 * (j 1).val; omega)
  exact (congrArg (Cert.Lib.dense (iblk0 V c 0 t) (iblk0 V c 1 t)) hj).trans (hd.trans (congrArg (Cert.Lib.dense (X0 V c) (X1 V c)) hi))

/-- An index of the output array lies in point t's block iff each coordinate lies in the block's range. -/
theorem mem_blk (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v5).slice (win0_3.rect t)).set ↔ _
  rw [View.set_slice_whole, Rect.mem_set_unit]
  exact Iff.rfl

/-- Row r of the output lies in the block of point r / 5000: the twenty blocks tile the array. -/
theorem cover (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 20 := N_0
  let t : Fin cfg0.N := ⟨(i 0).val / 5000, by rw [hN]; omega⟩
  obtain ⟨e00, e01, e10, e11, e20, e21, e30, e31⟩ := idx_facts t
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; rw [e30]; show (i 0).val / 5000 * 5000 ≤ (i 0).val ∧ (i 0).val < (i 0).val / 5000 * 5000 + 5000; omega
  | ⟨1, _⟩ => show win0_3.index t (1 : Fin 2) * 64 ≤ (i 1).val ∧ (i 1).val < win0_3.index t (1 : Fin 2) * 64 + 64; rw [e31]; omega

/-- The output array after the region. -/
theorem val (c : Dev nD) :
    ((dat0 (F := Ideal) V c).arrAt 3 cfg0.N : Arr2 100000 64)
      = affineRow (V c main_arg0 : Arr2 100000 4) (V c main_arg4 : Arr2 4 64) (V c main_v4 : Arr2 1 64) :=
  (dat0 (F := Ideal) V c).arrAt_eq_of_cover 3 _ (fun t _ => flushed_eq V c t) (cover)

end Cert.KernelIdeal.Reg0

end
-- ==== Proof.FoldE.lean ====
/-
  The embedding: what the kernel program holds after its segments 1 and 2.  Segment 1 cuts the two rows out of the edge
  list and lays the embedding bias out as one row; region 0 then leaves the embedded node features.
-/
import proofs.«421567_j10007273799859_2_alg».proof.Proof.FoldKeep
import proofs.«421567_j10007273799859_2_alg».proof.Proof.Reg0
import Idealize.ShloMosaic.Lib.Pipeline.Value
import Idealize.ShloMosaic.Lib.ValueIdx
import Idealize.ShloMosaic.PureOps.Ideal.Laws

set_option maxRecDepth 16384

noncomputable section

namespace Cert.KernelIdeal.Fold

open Idealize.ShloMosaic Idealize.ShloMosaic.TcCoe Idealize.ShloMosaic.ValueIdx Idealize.ShloMosaic.StableHlo
open Cert.KernelIdeal Cert.KernelIdeal.Gen Cert.KernelIdeal.Host Cert.KernelIdeal.Stage Cert.Spec

variable (m : (ℓ : Loc nD τ sig) → Buf (Elt Ideal) ℓ) (ρ : Dev nD → PrngReg) (c : Dev nD)

/-! ## After segment 1: the host operations before the embedding -/

theorem at1_src : (W1 m ρ c (Proc.devRef .tc main_v1) : IVec S1600000 32) = src (A1 m c) := by
  show StableHlo.after hostOps0 (W0 m ρ c) (Proc.devRef .tc main_v1) = _
  after_results
  rfl

theorem at1_dst : (W1 m ρ c (Proc.devRef .tc main_v3) : IVec S1600000 32) = dst (A1 m c) := by
  show StableHlo.after hostOps0 (W0 m ρ c) (Proc.devRef .tc main_v3) = _
  after_results
  rfl

theorem at1_bias : (W1 m ρ c (Proc.devRef .tc main_v4) : Arr2 1 64) = shapeCast S1x64 (A5 m c) shapeCasts_S64_S1x64 := by
  show StableHlo.after hostOps0 (W0 m ρ c) (Proc.devRef .tc main_v4) = _
  after_results
  rfl

/-! ## After segment 2: the embedding -/

/-- (The hypothesis on the edge list is not used here; it is taken so that this fact has the shape of the
    corresponding fact about the node features after a layer, which needs it.) -/
theorem at2_h (hidx : EdgesInRange m c) : (W2 m ρ c (Proc.devRef .tc main_v5) : Arr2 100000 64) = h0 m c := by
  refine (W2_arr m ρ c 3).trans ((Reg0.val (V1 m ρ) c).trans ?_)
  have e0 : (V1 m ρ c main_arg0 : Arr2 100000 4) = A0 m c := argAt1 m ρ c (b := main_arg0) (by decide)
  have e1 : (V1 m ρ c main_arg4 : Arr2 4 64) = A4 m c := argAt1 m ρ c (b := main_arg4) (by decide)
  have e2 : (V1 m ρ c main_v4 : Arr2 1 64) = shapeCast S1x64 (A5 m c) shapeCasts_S64_S1x64 := at1_bias m ρ c
  rw [e0, e1, e2]
  exact affineRow_eq_affine _ _ _ _ (row_read (A5 m c) shapeCasts_S64_S1x64)

theorem at2_src : (W2 m ρ c (Proc.devRef .tc main_v1) : IVec S1600000 32) = src (A1 m c) :=
  (keep2 m ρ c (b := main_v1) (by decide)).trans (at1_src m ρ c)
theorem at2_dst : (W2 m ρ c (Proc.devRef .tc main_v3) : IVec S1600000 32) = dst (A1 m c) :=
  (keep2 m ρ c (b := main_v3) (by decide)).trans (at1_dst m ρ c)

end Cert.KernelIdeal.Fold

end
-- ==== Proof.Reg1.lean ====
/-
  Region 1 (a layer's three dense layers of the node features): its three output arrays after the run are
  x · w1 + b1, x · w2 and x · w3 + b3 of the arrays the region finds, the biases one-row arrays.  Point t reads
  block t of the features (rows 5000 t … 5000 t + 4999), the three whole weight arrays and the two whole bias rows,
  and writes block t of each output; the twenty blocks tile each output array.
-/
import proofs.«421567_j10007273799859_2_alg».proof.Proof.Gen.KernelIdeal.Frame
import proofs.«421567_j10007273799859_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Reg1

open Idealize.ShloMosaic Idealize.ShloMosaic.TcCoe Idealize.ShloMosaic.ValueIdx
open Idealize.ShloMosaic.Pipeline (Dat Cfg Window)
open Cert.KernelIdeal Cert.KernelIdeal.Gen Cert.Spec

variable (V : (c : Dev nD) → (b : Ref sig .tc) → Buf (Elt Ideal) ((c : Thread nD τ).loc b))

/-- The six input arrays as the region finds them, at their literal types, by window number. -/
abbrev X0 (c : Dev nD) : Arr2 100000 64 := V c main_v5
abbrev X1 (c : Dev nD) : Arr2 64 64 := V c main_v7
abbrev X2 (c : Dev nD) : Arr2 1 64 := V c main_v16
abbrev X3 (c : Dev nD) : Arr2 64 64 := V c main_v11
abbrev X4 (c : Dev nD) : Arr2 64 64 := V c main_v13
abbrev X5 (c : Dev nD) : Arr2 1 64 := V c main_v17

theorem hz : (![0, 0] : Fin 2 → Nat) = fun _ => 0 := funext fun a => by fin_cases a <;> rfl

/-- The one-row bias broadcast down the rows, read at an entry, is the row's entry in that column. -/
theorem bias_bcast (x : Vec Ideal S1x64 .f32) (j : S5000x64.Idx) :
    broadcastTo S5000x64 x broadcasts_S1x64_S5000x64 j = x (ix2 (0 : Fin 1) (j 1)) := by
  refine broadcastTo_apply x _ j (ix2 (0 : Fin 1) (j 1)) (fun a => ?_)
  match a with
  | ⟨0, _⟩ => rfl
  | ⟨1, _⟩ => rfl

/-- The first body's arithmetic at an entry: the product of the block and the weights there, plus the bias row's
    entry in that column (the operands' passage through the narrower format changes nothing at the ideal values). -/
theorem pay2_eq (x0 : Vec Ideal S5000x64 .f32) (x1 : Vec Ideal S64x64 .f32) (x2 : Vec Ideal S1x64 .f32) (j : S5000x64.Idx) :
    k1_pay2 (F := Ideal) x0 x1 x2 j = Cert.Lib.dense x0 x1 j + x2 (ix2 (0 : Fin 1) (j 1)) := by
  unfold k1_pay2 k1_pay1
  simp only [shapeCast_self]
  rw [addf_apply]
  exact congrArg₂ (· + ·) (congrFun (Cert.Lib.matmul_truncf_eq_dense dot_S5000x64_S64x64_S5000x64_1_0_0_1_n_n rfl rfl rfl rfl rfl rfl none x0 x1 _ _) j) (bias_bcast x2 j)

/-- The second body's arithmetic at an entry: the product of the block and the weights there. -/
theorem pay3_eq (x0 : Vec Ideal S5000x64 .f32) (x3 : Vec Ideal S64x64 .f32) (j : S5000x64.Idx) :
    k1_pay3 (F := Ideal) x0 x3 j = Cert.Lib.dense x0 x3 j := by
  unfold k1_pay3 k1_pay1
  simp only [shapeCast_self]
  exact congrFun (Cert.Lib.matmul_truncf_eq_dense dot_S5000x64_S64x64_S5000x64_1_0_0_1_n_n rfl rfl rfl rfl rfl rfl none x0 x3 _ _) j

/-- The third body's arithmetic at an entry: as the first's. -/
theorem pay4_eq (x0 : Vec Ideal S5000x64 .f32) (x4 : Vec Ideal S64x64 .f32) (x5 : Vec Ideal S1x64 .f32) (j : S5000x64.Idx) :
    k1_pay4 (F := Ideal) x0 x4 x5 j = Cert.Lib.dense x0 x4 j + x5 (ix2 (0 : Fin 1) (j 1)) := by
  unfold k1_pay4 k1_pay1
  simp only [shapeCast_self]
  rw [addf_apply]
  exact congrArg₂ (· + ·) (congrFun (Cert.Lib.matmul_truncf_eq_dense dot_S5000x64_S64x64_S5000x64_1_0_0_1_n_n rfl rfl rfl rfl rfl rfl none x0 x4 _ _) j) (bias_bcast x5 j)

/-- The printed index maps over the grid: the features' block and each output's block at point t are block (t, 0);
    the weights' and the bias rows' block is block (0, 0) at every point. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0
    ∧ win1_7.index t (0 : Fin 2) = t.val ∧ win1_7.index t (1 : Fin 2) = 0
    ∧ win1_8.index t (0 : Fin 2) = t.val ∧ win1_8.index t (1 : Fin 2) = 0 :=
  (by decide +kernel : ∀ t : Fin grid1.N, _)

/-- Row p of the features' block at point t is row 5000 t + p of the features' array. -/
theorem row_read (c : Dev nD) (t : Fin cfg1.N) (p : Fin 5000) (r : Fin 100000) (hr : r.val = t.val * 5000 + p.val) (k : Fin 64) :
    iblk1 V c 0 t (ix2 p k) = X0 V c (ix2 r k) := by
  obtain ⟨e00, e01, -⟩ := idx_facts t
  show X0 V c (((cfg1.win 0).blk t).view.emb (ix2 p k)) = _
  refine congrArg (X0 V c) (funext fun a => Fin.ext ?_)
  match a with
  | ⟨0, _⟩ => show win1_0.index t (0 : Fin 2) * 5000 + 1 * p.val = r.val; omega
  | ⟨1, _⟩ => show win1_0.index t (1 : Fin 2) * 64 + 1 * k.val = k.val; omega

/-- The weights' and the bias rows' blocks at any point are the arrays themselves. -/
theorem whole_read1 (c : Dev nD) (t : Fin cfg1.N) (i : S64x64.Idx) : iblk1 V c 1 t i = X1 V c i := by
  obtain ⟨-, -, e10, e11, -⟩ := idx_facts t
  show X1 V c (((cfg1.win 1).blk t).view.emb i) = _
  refine congrArg (X1 V c) (funext fun a => Fin.ext ?_)
  match a with
  | ⟨0, _⟩ => show win1_1.index t (0 : Fin 2) * 64 + 1 * (i 0).val = (i 0).val; omega
  | ⟨1, _⟩ => show win1_1.index t (1 : Fin 2) * 64 + 1 * (i 1).val = (i 1).val; omega

theorem whole_read2 (c : Dev nD) (t : Fin cfg1.N) (i : S1x64.Idx) : iblk1 V c 2 t i = X2 V c i := by
  obtain ⟨-, -, -, -, e20, e21, -⟩ := idx_facts t
  show X2 V c (((cfg1.win 2).blk t).view.emb i) = _
  refine congrArg (X2 V c) (funext fun a => Fin.ext ?_)
  match a with
  | ⟨0, _⟩ => show win1_2.index t (0 : Fin 2) * 1 + 1 * (i 0).val = (i 0).val; omega
  | ⟨1, _⟩ => show win1_2.index t (1 : Fin 2) * 64 + 1 * (i 1).val = (i 1).val; omega

theorem whole_read3 (c : Dev nD) (t : Fin cfg1.N) (i : S64x64.Idx) : iblk1 V c 3 t i = X3 V c i := by
  obtain ⟨-, -, -, -, -, -, e30, e31, -⟩ := idx_facts t
  show X3 V c (((cfg1.win 3).blk t).view.emb i) = _
  refine congrArg (X3 V c) (funext fun a => Fin.ext ?_)
  match a with
  | ⟨0, _⟩ => show win1_3.index t (0 : Fin 2) * 64 + 1 * (i 0).val = (i 0).val; omega
  | ⟨1, _⟩ => show win1_3.index t (1 : Fin 2) * 64 + 1 * (i 1).val = (i 1).val; omega

theorem whole_read4 (c : Dev nD) (t : Fin cfg1.N) (i : S64x64.Idx) : iblk1 V c 4 t i = X4 V c i := by
  obtain ⟨-, -, -, -, -, -, -, -, e40, e41, -⟩ := idx_facts t
  show X4 V c (((cfg1.win 4).blk t).view.emb i) = _
  refine congrArg (X4 V c) (funext fun a => Fin.ext ?_)
  match a with
  | ⟨0, _⟩ => show win1_4.index t (0 : Fin 2) * 64 + 1 * (i 0).val = (i 0).val; omega
  | ⟨1, _⟩ => show win1_4.index t (1 : Fin 2) * 64 + 1 * (i 1).val = (i 1).val; omega

theorem whole_read5 (c : Dev nD) (t : Fin cfg1.N) (i : S1x64.Idx) : iblk1 V c 5 t i = X5 V c i := by
  obtain ⟨-, -, -, -, -, -, -, -, -, -, e50, e51, -⟩ := idx_facts t
  show X5 V c (((cfg1.win 5).blk t).view.emb i) = _
  refine congrArg (X5 V c) (funext fun a => Fin.ext ?_)
  match a with
  | ⟨0, _⟩ => show win1_5.index t (0 : Fin 2) * 1 + 1 * (i 0).val = (i 0).val; omega
  | ⟨1, _⟩ => show win1_5.index t (1 : Fin 2) * 64 + 1 * (i 1).val = (i 1).val; omega

/-- The product of the features' block at point t with a weights' block that is the whole weights' array, at entry
    j of the block, is the whole-array product at the entry i with row 5000 t + (row of j) and j's column: a row
    of the product depends on that row of the features alone. -/
theorem dense_blk (c : Dev nD) (t : Fin cfg1.N) (w : Arr2 64 64) (wblk : Vec Ideal S64x64 .f32) (hw : ∀ i, wblk i = w i)
    (j : S5000x64.Idx) (i : S100000x64.Idx) (h0 : (i 0).val = t.val * 5000 + (j 0).val) (h1 : (i 1).val = (j 1).val) :
    Cert.Lib.dense (iblk1 V c 0 t) wblk j = Cert.Lib.dense (X0 V c) w i := by
  have hd := Cert.Lib.dense_row (X0 V c) (iblk1 V c 0 t) w wblk (i 0) (j 0) (fun k => row_read V c t (j 0) (i 0) h0 k) hw (j 1)
  have hj : j = ix2 (n0 := 5000) (n1 := 64) (j 0) (j 1) := funext fun a => by
    match a with
    | ⟨0, _⟩ => rfl
    | ⟨1, _⟩ => rfl
  have hi : ix2 (n0 := 100000) (n1 := 64) (i 0) (j 1) = i := funext fun a => Fin.ext (by
    match a with
    | ⟨0, _⟩ => rfl
    | ⟨1, _⟩ => exact h1.symm)
  exact (congrArg (Cert.Lib.dense (iblk1 V c 0 t) wblk) hj).trans (hd.trans (congrArg (Cert.Lib.dense (X0 V c) w) hi))

/-- A bias row's block that is the whole row, read in j's column, is the row read in i's column when the two
    columns are the same. -/
theorem bias_blk (b : Arr2 1 64) (bblk : Vec Ideal S1x64 .f32) (hb : ∀ i, bblk i = b i)
    (j : S5000x64.Idx) (i : S100000x64.Idx) (h1 : (i 1).val = (j 1).val) :
    bblk (ix2 (0 : Fin 1) (j 1)) = b (ix2 (0 : Fin 1) (i 1)) :=
  (hb _).trans (congrArg b (funext fun a => Fin.ext (by
    match a with
    | ⟨0, _⟩ => rfl
    | ⟨1, _⟩ => exact h1.symm)))

/-! ## Output window 6 -/

/-- What point t writes back to output window 6 is block t of the whole-array function of the input arrays. -/
theorem flushed6_eq (c : Dev nD) (t : Fin cfg1.N) :
    (dat1 (F := Ideal) V c).flushed 6 t
      = ((cfg1.win 6).blk t).view.read (Elt Ideal) (affineRow (X0 V c) (X1 V c) (X2 V c)) := by
  show (cfg1.win 6).cut (grid1.coords t) ((dat1 (F := Ideal) V c).after 6 t) = _
  rw [after1_6]
  unfold out1_6
  rw [View.canon_unit_zero hz]
  simp only [View.ld_unit_zero (S := S5000x64) hz, View.ld_unit_zero (S := S64x64) hz, View.ld_unit_zero (S := S1x64) hz]
  obtain ⟨-, -, -, -, -, -, -, -, -, -, -, -, e60, e61, e70, e71, e80, e81⟩ := idx_facts t
  funext j
  show k1_pay2 (F := Ideal) (iblk1 V c 0 t) (iblk1 V c 1 t) (iblk1 V c 2 t) j
     = (affineRow (X0 V c) (X1 V c) (X2 V c)) (((cfg1.win 6).blk t).view.emb j)
  refine (pay2_eq (iblk1 V c 0 t) (iblk1 V c 1 t) (iblk1 V c 2 t) j).trans ?_
  have h0 : ((((cfg1.win 6).blk t).view.emb j) 0).val = t.val * 5000 + (j 0).val := by
    show win1_6.index t (0 : Fin 2) * 5000 + 1 * (j 0).val = _; omega
  have h1 : ((((cfg1.win 6).blk t).view.emb j) 1).val = (j 1).val := by
    show win1_6.index t (1 : Fin 2) * 64 + 1 * (j 1).val = _; omega
  unfold affineRow
  exact congrArg₂ (· + ·) (dense_blk V c t (X1 V c) (iblk1 V c 1 t) (whole_read1 V c t) j _ h0 h1)
    (bias_blk (X2 V c) (iblk1 V c 2 t) (whole_read2 V c t) j _ h1)

/-- An index of output window 6's array lies in point t's block iff each coordinate lies in the block's range. -/
theorem mem_blk6 (t : Fin cfg1.N) (i : S100000x64.Idx) :
    i ∈ ((cfg1.win 6).blk t).view.set ↔ ∀ a : Fin 2, win1_6.index t a * S5000x64.size a ≤ (i a).val ∧ (i a).val < win1_6.index t a * S5000x64.size a + S5000x64.size a := by
  show i ∈ ((View.whole main_v18_0).slice (win1_6.rect t)).set ↔ _
  rw [View.set_slice_whole, Rect.mem_set_unit]
  exact Iff.rfl

/-- Row r of output window 6's array lies in the block of point r / 5000: the twenty blocks tile the array. -/
theorem cover6 (i : S100000x64.Idx) : ∃ t : Fin cfg1.N, (cfg1.win 6).flush t = true ∧ i ∈ ((cfg1.win 6).blk t).view.set := by
  have hi0 : (i 0).val < 100000 := (i 0).isLt
  have hi1 : (i 1).val < 64 := (i 1).isLt
  have hN : cfg1.N = 20 := N_1
  let t : Fin cfg1.N := ⟨(i 0).val / 5000, by rw [hN]; omega⟩
  obtain ⟨-, -, -, -, -, -, -, -, -, -, -, -, e60, e61, e70, e71, e80, e81⟩ := idx_facts t
  refine ⟨t, flush1_6 t, ?_⟩
  rw [mem_blk6]
  intro a
  match a with
  | ⟨0, _⟩ => show win1_6.index t (0 : Fin 2) * 5000 ≤ (i 0).val ∧ (i 0).val < win1_6.index t (0 : Fin 2) * 5000 + 5000; rw [e60]; show (i 0).val / 5000 * 5000 ≤ (i 0).val ∧ (i 0).val < (i 0).val / 5000 * 5000 + 5000; omega
  | ⟨1, _⟩ => show win1_6.index t (1 : Fin 2) * 64 ≤ (i 1).val ∧ (i 1).val < win1_6.index t (1 : Fin 2) * 64 + 64; rw [e61]; omega

/-- The first output array after the region: x · w1 + b1. -/
theorem val6 (c : Dev nD) :
    ((dat1 (F := Ideal) V c).arrAt 6 cfg1.N : Arr2 100000 64)
      = affineRow (V c main_v5 : Arr2 100000 64) (V c main_v7 : Arr2 64 64) (V c main_v16 : Arr2 1 64) :=
  (dat1 (F := Ideal) V c).arrAt_eq_of_cover 6 _ (fun t _ => flushed6_eq V c t) (cover6)

/-! ## Output window 7 -/

/-- What point t writes back to output window 7 is block t of the whole-array function of the input arrays. -/
theorem flushed7_eq (c : Dev nD) (t : Fin cfg1.N) :
    (dat1 (F := Ideal) V c).flushed 7 t
      = ((cfg1.win 7).blk t).view.read (Elt Ideal) (Cert.Lib.dense (X0 V c) (X3 V c)) := by
  show (cfg1.win 7).cut (grid1.coords t) ((dat1 (F := Ideal) V c).after 7 t) = _
  rw [after1_7]
  unfold out1_7
  rw [View.canon_unit_zero hz]
  simp only [View.ld_unit_zero (S := S5000x64) hz, View.ld_unit_zero (S := S64x64) hz]
  obtain ⟨-, -, -, -, -, -, -, -, -, -, -, -, e60, e61, e70, e71, e80, e81⟩ := idx_facts t
  funext j
  show k1_pay3 (F := Ideal) (iblk1 V c 0 t) (iblk1 V c 3 t) j
     = (Cert.Lib.dense (X0 V c) (X3 V c)) (((cfg1.win 7).blk t).view.emb j)
  refine (pay3_eq (iblk1 V c 0 t) (iblk1 V c 3 t) j).trans ?_
  have h0 : ((((cfg1.win 7).blk t).view.emb j) 0).val = t.val * 5000 + (j 0).val := by
    show win1_7.index t (0 : Fin 2) * 5000 + 1 * (j 0).val = _; omega
  have h1 : ((((cfg1.win 7).blk t).view.emb j) 1).val = (j 1).val := by
    show win1_7.index t (1 : Fin 2) * 64 + 1 * (j 1).val = _; omega
  exact dense_blk V c t (X3 V c) (iblk1 V c 3 t) (whole_read3 V c t) j _ h0 h1

/-- An index of output window 7's array lies in point t's block iff each coordinate lies in the block's range. -/
theorem mem_blk7 (t : Fin cfg1.N) (i : S100000x64.Idx) :
    i ∈ ((cfg1.win 7).blk t).view.set ↔ ∀ a : Fin 2, win1_7.index t a * S5000x64.size a ≤ (i a).val ∧ (i a).val < win1_7.index t a * S5000x64.size a + S5000x64.size a := by
  show i ∈ ((View.whole main_v18_1).slice (win1_7.rect t)).set ↔ _
  rw [View.set_slice_whole, Rect.mem_set_unit]
  exact Iff.rfl

/-- Row r of output window 7's array lies in the block of point r / 5000: the twenty blocks tile the array. -/
theorem cover7 (i : S100000x64.Idx) : ∃ t : Fin cfg1.N, (cfg1.win 7).flush t = true ∧ i ∈ ((cfg1.win 7).blk t).view.set := by
  have hi0 : (i 0).val < 100000 := (i 0).isLt
  have hi1 : (i 1).val < 64 := (i 1).isLt
  have hN : cfg1.N = 20 := N_1
  let t : Fin cfg1.N := ⟨(i 0).val / 5000, by rw [hN]; omega⟩
  obtain ⟨-, -, -, -, -, -, -, -, -, -, -, -, e60, e61, e70, e71, e80, e81⟩ := idx_facts t
  refine ⟨t, flush1_7 t, ?_⟩
  rw [mem_blk7]
  intro a
  match a with
  | ⟨0, _⟩ => show win1_7.index t (0 : Fin 2) * 5000 ≤ (i 0).val ∧ (i 0).val < win1_7.index t (0 : Fin 2) * 5000 + 5000; rw [e70]; show (i 0).val / 5000 * 5000 ≤ (i 0).val ∧ (i 0).val < (i 0).val / 5000 * 5000 + 5000; omega
  | ⟨1, _⟩ => show win1_7.index t (1 : Fin 2) * 64 ≤ (i 1).val ∧ (i 1).val < win1_7.index t (1 : Fin 2) * 64 + 64; rw [e71]; omega

/-- The second: x · w2. -/
theorem val7 (c : Dev nD) :
    ((dat1 (F := Ideal) V c).arrAt 7 cfg1.N : Arr2 100000 64)
      = Cert.Lib.dense (V c main_v5 : Arr2 100000 64) (V c main_v11 : Arr2 64 64) :=
  (dat1 (F := Ideal) V c).arrAt_eq_of_cover 7 _ (fun t _ => flushed7_eq V c t) (cover7)

/-! ## Output window 8 -/

/-- What point t writes back to output window 8 is block t of the whole-array function of the input arrays. -/
theorem flushed8_eq (c : Dev nD) (t : Fin cfg1.N) :
    (dat1 (F := Ideal) V c).flushed 8 t
      = ((cfg1.win 8).blk t).view.read (Elt Ideal) (affineRow (X0 V c) (X4 V c) (X5 V c)) := by
  show (cfg1.win 8).cut (grid1.coords t) ((dat1 (F := Ideal) V c).after 8 t) = _
  rw [after1_8]
  unfold out1_8
  rw [View.canon_unit_zero hz]
  simp only [View.ld_unit_zero (S := S5000x64) hz, View.ld_unit_zero (S := S64x64) hz, View.ld_unit_zero (S := S1x64) hz]
  obtain ⟨-, -, -, -, -, -, -, -, -, -, -, -, e60, e61, e70, e71, e80, e81⟩ := idx_facts t
  funext j
  show k1_pay4 (F := Ideal) (iblk1 V c 0 t) (iblk1 V c 4 t) (iblk1 V c 5 t) j
     = (affineRow (X0 V c) (X4 V c) (X5 V c)) (((cfg1.win 8).blk t).view.emb j)
  refine (pay4_eq (iblk1 V c 0 t) (iblk1 V c 4 t) (iblk1 V c 5 t) j).trans ?_
  have h0 : ((((cfg1.win 8).blk t).view.emb j) 0).val = t.val * 5000 + (j 0).val := by
    show win1_8.index t (0 : Fin 2) * 5000 + 1 * (j 0).val = _; omega
  have h1 : ((((cfg1.win 8).blk t).view.emb j) 1).val = (j 1).val := by
    show win1_8.index t (1 : Fin 2) * 64 + 1 * (j 1).val = _; omega
  unfold affineRow
  exact congrArg₂ (· + ·) (dense_blk V c t (X4 V c) (iblk1 V c 4 t) (whole_read4 V c t) j _ h0 h1)
    (bias_blk (X5 V c) (iblk1 V c 5 t) (whole_read5 V c t) j _ h1)

/-- An index of output window 8's array lies in point t's block iff each coordinate lies in the block's range. -/
theorem mem_blk8 (t : Fin cfg1.N) (i : S100000x64.Idx) :
    i ∈ ((cfg1.win 8).blk t).view.set ↔ ∀ a : Fin 2, win1_8.index t a * S5000x64.size a ≤ (i a).val ∧ (i a).val < win1_8.index t a * S5000x64.size a + S5000x64.size a := by
  show i ∈ ((View.whole main_v18_2).slice (win1_8.rect t)).set ↔ _
  rw [View.set_slice_whole, Rect.mem_set_unit]
  exact Iff.rfl

/-- Row r of output window 8's array lies in the block of point r / 5000: the twenty blocks tile the array. -/
theorem cover8 (i : S100000x64.Idx) : ∃ t : Fin cfg1.N, (cfg1.win 8).flush t = true ∧ i ∈ ((cfg1.win 8).blk t).view.set := by
  have hi0 : (i 0).val < 100000 := (i 0).isLt
  have hi1 : (i 1).val < 64 := (i 1).isLt
  have hN : cfg1.N = 20 := N_1
  let t : Fin cfg1.N := ⟨(i 0).val / 5000, by rw [hN]; omega⟩
  obtain ⟨-, -, -, -, -, -, -, -, -, -, -, -, e60, e61, e70, e71, e80, e81⟩ := idx_facts t
  refine ⟨t, flush1_8 t, ?_⟩
  rw [mem_blk8]
  intro a
  match a with
  | ⟨0, _⟩ => show win1_8.index t (0 : Fin 2) * 5000 ≤ (i 0).val ∧ (i 0).val < win1_8.index t (0 : Fin 2) * 5000 + 5000; rw [e80]; show (i 0).val / 5000 * 5000 ≤ (i 0).val ∧ (i 0).val < (i 0).val / 5000 * 5000 + 5000; omega
  | ⟨1, _⟩ => show win1_8.index t (1 : Fin 2) * 64 ≤ (i 1).val ∧ (i 1).val < win1_8.index t (1 : Fin 2) * 64 + 64; rw [e81]; omega

/-- The third: x · w3 + b3. -/
theorem val8 (c : Dev nD) :
    ((dat1 (F := Ideal) V c).arrAt 8 cfg1.N : Arr2 100000 64)
      = affineRow (V c main_v5 : Arr2 100000 64) (V c main_v13 : Arr2 64 64) (V c main_v17 : Arr2 1 64) :=
  (dat1 (F := Ideal) V c).arrAt_eq_of_cover 8 _ (fun t _ => flushed8_eq V c t) (cover8)

end Cert.KernelIdeal.Reg1

end
-- ==== Proof.Reg2.lean ====
/-
  Region 2 (the messages): its output array after the run is, on each edge, the difference of the two gathered
  rows scaled by that edge's weight, the weights a one-column array, as the region finds the three arrays.
  Point t reads block t of each input (rows 8000 t … 8000 t + 7999) and writes block t of the output; the two
  hundred blocks tile the array.
-/
import proofs.«421567_j10007273799859_2_alg».proof.Proof.Gen.KernelIdeal.Frame
import proofs.«421567_j10007273799859_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Reg2

open Idealize.ShloMosaic Idealize.ShloMosaic.TcCoe Idealize.ShloMosaic.ValueIdx
open Idealize.ShloMosaic.Pipeline (Dat Cfg Window)
open Cert.KernelIdeal Cert.KernelIdeal.Gen Cert.Spec

variable (V : (c : Dev nD) → (b : Ref sig .tc) → Buf (Elt Ideal) ((c : Thread nD τ).loc b))

/-- The three input arrays as the region finds them, at their literal type. -/
abbrev X0 (c : Dev nD) : Arr2 1600000 64 := V c main_v19
abbrev X1 (c : Dev nD) : Arr2 1600000 64 := V c main_v20
abbrev X2 (c : Dev nD) : Arr2 1600000 1 := V c main_v21

theorem hz : (![0, 0] : Fin 2 → Nat) = fun _ => 0 := funext fun a => by fin_cases a <;> rfl

/-- The one-column block spread along the rows: at an entry it is the column's value on that row. -/
theorem spread_eq (x2 : Vec Ideal S8000x1 .f32) (j : S8000x64.Idx) :
    broadcastTo S8000x64 x2 broadcasts_S8000x1_S8000x64 j = x2 (ix2 (j 0) (0 : Fin 1)) := by
  refine broadcastTo_apply x2 broadcasts_S8000x1_S8000x64 j (ix2 (j 0) (0 : Fin 1)) ?_
  intro a
  match a with
  | ⟨0, _⟩ => rfl
  | ⟨1, _⟩ => rfl

/-- The body's arithmetic at an entry: the difference of the two blocks' entries times the weight of that row. -/
theorem pay_eq (x0 x1 : Vec Ideal S8000x64 .f32) (x2 : Vec Ideal S8000x1 .f32) (j : S8000x64.Idx) :
    k2_pay1 (F := Ideal) x0 x1 x2 j = (x0 j - x1 j) * x2 (ix2 (j 0) (0 : Fin 1)) := by
  unfold k2_pay1
  simp only [shapeCast_self]
  show (x0 j - x1 j) * broadcastTo S8000x64 x2 broadcasts_S8000x1_S8000x64 j = _
  rw [spread_eq]

/-- The four windows move together: block t of each is rows 8000 t … 8000 t + 7999, all of its columns. -/
theorem idx_facts : ∀ t : Fin cfg2.N, win2_0.index t (0 : Fin 2) = win2_3.index t (0 : Fin 2)
    ∧ win2_0.index t (1 : Fin 2) = win2_3.index t (1 : Fin 2)
    ∧ win2_1.index t (0 : Fin 2) = win2_3.index t (0 : Fin 2)
    ∧ win2_1.index t (1 : Fin 2) = win2_3.index t (1 : Fin 2)
    ∧ win2_2.index t (0 : Fin 2) = win2_3.index t (0 : Fin 2)
    ∧ win2_2.index t (1 : Fin 2) = 0
    ∧ win2_3.index t (0 : Fin 2) = t.val ∧ win2_3.index t (1 : Fin 2) = 0 :=
  (by decide +kernel : ∀ t : Fin grid2.N, _)

/-- What point t writes back is block t of the whole-array messages of the three input arrays. -/
theorem flushed_eq (c : Dev nD) (t : Fin cfg2.N) :
    (dat2 (F := Ideal) V c).flushed 3 t = ((cfg2.win 3).blk t).view.read (Elt Ideal) (msgCol (X0 V c) (X1 V c) (X2 V c)) := by
  show (cfg2.win 3).cut (grid2.coords t) ((dat2 (F := Ideal) V c).after 3 t) = _
  rw [after2_3]
  unfold out2_3
  rw [View.canon_unit_zero hz]
  simp only [View.ld_unit_zero (S := S8000x64) hz, View.ld_unit_zero (S := S8000x1) hz]
  obtain ⟨e0, e1, e2, e3, e4, e5, e6, e7⟩ := idx_facts t
  funext j
  show k2_pay1 (F := Ideal) (iblk2 V c 0 t) (iblk2 V c 1 t) (iblk2 V c 2 t) j
     = msgCol (X0 V c) (X1 V c) (X2 V c) (((cfg2.win 3).blk t).view.emb j)
  refine (pay_eq (iblk2 V c 0 t) (iblk2 V c 1 t) (iblk2 V c 2 t) j).trans ?_
  show (X0 V c (((cfg2.win 0).blk t).view.emb j) - X1 V c (((cfg2.win 1).blk t).view.emb j))
         * X2 V c (((cfg2.win 2).blk t).view.emb (ix2 (j 0) (0 : Fin 1)))
     = (X0 V c (((cfg2.win 3).blk t).view.emb j) - X1 V c (((cfg2.win 3).blk t).view.emb j))
         * X2 V c (ix2 ((((cfg2.win 3).blk t).view.emb j) 0) (0 : Fin 1))
  have h0 : ((cfg2.win 0).blk t).view.emb j = ((cfg2.win 3).blk t).view.emb j := by
    funext a; apply Fin.ext
    match a with
    | ⟨0, _⟩ => show win2_0.index t (0 : Fin 2) * 8000 + 1 * (j 0).val = win2_3.index t (0 : Fin 2) * 8000 + 1 * (j 0).val; omega
    | ⟨1, _⟩ => show win2_0.index t (1 : Fin 2) * 64 + 1 * (j 1).val = win2_3.index t (1 : Fin 2) * 64 + 1 * (j 1).val; omega
  have h1 : ((cfg2.win 1).blk t).view.emb j = ((cfg2.win 3).blk t).view.emb j := by
    funext a; apply Fin.ext
    match a with
    | ⟨0, _⟩ => show win2_1.index t (0 : Fin 2) * 8000 + 1 * (j 0).val = win2_3.index t (0 : Fin 2) * 8000 + 1 * (j 0).val; omega
    | ⟨1, _⟩ => show win2_1.index t (1 : Fin 2) * 64 + 1 * (j 1).val = win2_3.index t (1 : Fin 2) * 64 + 1 * (j 1).val; omega
  have h2 : ((cfg2.win 2).blk t).view.emb (ix2 (j 0) (0 : Fin 1)) = ix2 ((((cfg2.win 3).blk t).view.emb j) 0) (0 : Fin 1) := by
    funext a; apply Fin.ext
    match a with
    | ⟨0, _⟩ => show win2_2.index t (0 : Fin 2) * 8000 + 1 * (j 0).val = win2_3.index t (0 : Fin 2) * 8000 + 1 * (j 0).val; omega
    | ⟨1, _⟩ => show win2_2.index t (1 : Fin 2) * 1 + 1 * 0 = 0; omega
  rw [h0, h1, h2]
  rfl

/-- An index of the output array lies in point t's block iff each coordinate lies in the block's range. -/
theorem mem_blk (t : Fin cfg2.N) (i : S1600000x64.Idx) :
    i ∈ ((cfg2.win 3).blk t).view.set ↔ ∀ a : Fin 2, win2_3.index t a * S8000x64.size a ≤ (i a).val ∧ (i a).val < win2_3.index t a * S8000x64.size a + S8000x64.size a := by
  show i ∈ ((View.whole main_v22).slice (win2_3.rect t)).set ↔ _
  rw [View.set_slice_whole, Rect.mem_set_unit]
  exact Iff.rfl

/-- Row r of the output lies in the block of point r / 8000: the two hundred blocks tile the array. -/
theorem cover (i : S1600000x64.Idx) : ∃ t : Fin cfg2.N, (cfg2.win 3).flush t = true ∧ i ∈ ((cfg2.win 3).blk t).view.set := by
  have hi0 : (i 0).val < 1600000 := (i 0).isLt
  have hi1 : (i 1).val < 64 := (i 1).isLt
  have hN : cfg2.N = 200 := N_2
  let t : Fin cfg2.N := ⟨(i 0).val / 8000, by rw [hN]; omega⟩
  obtain ⟨e0, e1, e2, e3, e4, e5, e6, e7⟩ := idx_facts t
  refine ⟨t, flush2_3 t, ?_⟩
  rw [mem_blk]
  intro a
  match a with
  | ⟨0, _⟩ => show win2_3.index t (0 : Fin 2) * 8000 ≤ (i 0).val ∧ (i 0).val < win2_3.index t (0 : Fin 2) * 8000 + 8000; rw [e6]; show (i 0).val / 8000 * 8000 ≤ (i 0).val ∧ (i 0).val < (i 0).val / 8000 * 8000 + 8000; omega
  | ⟨1, _⟩ => show win2_3.index t (1 : Fin 2) * 64 ≤ (i 1).val ∧ (i 1).val < win2_3.index t (1 : Fin 2) * 64 + 64; rw [e7]; omega

/-- The output array after the region. -/
theorem val (c : Dev nD) :
    ((dat2 (F := Ideal) V c).arrAt 3 cfg2.N : Arr2 1600000 64)
      = msgCol (V c main_v19 : Arr2 1600000 64) (V c main_v20 : Arr2 1600000 64) (V c main_v21 : Arr2 1600000 1) :=
  (dat2 (F := Ideal) V c).arrAt_eq_of_cover 3 _ (fun t _ => flushed_eq V c t) (cover)

end Cert.KernelIdeal.Reg2

end
-- ==== Proof.Reg3.lean ====
/-
  Region 3 (the node update): its output array after the run is, entry by entry, the positive part of the sum of
  its two input arrays as the region finds them.  Point t reads block t of each input (rows 5000 t … 5000 t + 4999)
  and writes block t of the output; the twenty blocks tile the array.
-/
import proofs.«421567_j10007273799859_2_alg».proof.Proof.Gen.KernelIdeal.Frame
import proofs.«421567_j10007273799859_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Reg3

open Idealize.ShloMosaic Idealize.ShloMosaic.TcCoe Idealize.ShloMosaic.ValueIdx
open Idealize.ShloMosaic.Pipeline (Dat Cfg Window)
open Cert.KernelIdeal Cert.KernelIdeal.Gen Cert.Spec

variable (V : (c : Dev nD) → (b : Ref sig .tc) → Buf (Elt Ideal) ((c : Thread nD τ).loc b))

/-- The two input arrays as the region finds them, at their literal type. -/
abbrev X0 (c : Dev nD) : Arr2 100000 64 := V c main_v25
abbrev X1 (c : Dev nD) : Arr2 100000 64 := V c main_v18_2

theorem hz : (![0, 0] : Fin 2 → Nat) = fun _ => 0 := funext fun a => by fin_cases a <;> rfl

/-- The body's arithmetic at an entry: the positive part of the sum of the two blocks' entries. -/
theorem pay_eq (x0 x1 : Vec Ideal S5000x64 .f32) (j : S5000x64.Idx) :
    k3_pay1 (F := Ideal) x0 x1 j = max (x0 j + x1 j) 0 := by
  unfold k3_pay1
  simp only [shapeCast_self]
  show max (x0 j + x1 j) (Ideal.ofBits .f32 0x00000000#32) = _
  rw [Ideal.ofBits_zero_f32]

/-- The three windows move together: block t of each is rows 5000 t … 5000 t + 4999, all 64 columns. -/
theorem idx_facts : ∀ t : Fin cfg3.N, win3_0.index t (0 : Fin 2) = win3_2.index t (0 : Fin 2)
    ∧ win3_0.index t (1 : Fin 2) = win3_2.index t (1 : Fin 2)
    ∧ win3_1.index t (0 : Fin 2) = win3_2.index t (0 : Fin 2)
    ∧ win3_1.index t (1 : Fin 2) = win3_2.index t (1 : Fin 2)
    ∧ win3_2.index t (0 : Fin 2) = t.val ∧ win3_2.index t (1 : Fin 2) = 0 :=
  (by decide +kernel : ∀ t : Fin grid3.N, _)

/-- What point t writes back is block t of the whole-array update of the two input arrays. -/
theorem flushed_eq (c : Dev nD) (t : Fin cfg3.N) :
    (dat3 (F := Ideal) V c).flushed 2 t = ((cfg3.win 2).blk t).view.read (Elt Ideal) (combine (X0 V c) (X1 V c)) := by
  show (cfg3.win 2).cut (grid3.coords t) ((dat3 (F := Ideal) V c).after 2 t) = _
  rw [after3_2]
  unfold out3_2
  rw [View.canon_unit_zero hz]
  simp only [View.ld_unit_zero (S := S5000x64) hz]
  obtain ⟨e0, e1, e2, e3, e4, e5⟩ := idx_facts t
  funext j
  show k3_pay1 (F := Ideal) (iblk3 V c 0 t) (iblk3 V c 1 t) j = combine (X0 V c) (X1 V c) (((cfg3.win 2).blk t).view.emb j)
  refine (pay_eq (iblk3 V c 0 t) (iblk3 V c 1 t) j).trans ?_
  show max (X0 V c (((cfg3.win 0).blk t).view.emb j) + X1 V c (((cfg3.win 1).blk t).view.emb j)) 0
     = max (X0 V c (((cfg3.win 2).blk t).view.emb j) + X1 V c (((cfg3.win 2).blk t).view.emb j)) 0
  have h0 : ((cfg3.win 0).blk t).view.emb j = ((cfg3.win 2).blk t).view.emb j := by
    funext a; apply Fin.ext
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 64 + 1 * (j 1).val = win3_2.index t (1 : Fin 2) * 64 + 1 * (j 1).val; omega
  have h1 : ((cfg3.win 1).blk t).view.emb j = ((cfg3.win 2).blk t).view.emb j := by
    funext a; apply Fin.ext
    match a with
    | ⟨0, _⟩ => show win3_1.index t (0 : Fin 2) * 5000 + 1 * (j 0).val = win3_2.index t (0 : Fin 2) * 5000 + 1 * (j 0).val; omega
    | ⟨1, _⟩ => show win3_1.index t (1 : Fin 2) * 64 + 1 * (j 1).val = win3_2.index t (1 : Fin 2) * 64 + 1 * (j 1).val; omega
  rw [h0, h1]

/-- An index of the output array lies in point t's block iff each coordinate lies in the block's range. -/
theorem mem_blk (t : Fin cfg3.N) (i : S100000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v26).slice (win3_2.rect t)).set ↔ _
  rw [View.set_slice_whole, Rect.mem_set_unit]
  exact Iff.rfl

/-- Row r of the output lies in the block of point r / 5000: the twenty blocks tile the array. -/
theorem cover (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  have hN : cfg3.N = 20 := N_3
  let t : Fin cfg3.N := ⟨(i 0).val / 5000, by rw [hN]; omega⟩
  obtain ⟨e0, e1, e2, e3, e4, e5⟩ := idx_facts t
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; rw [e4]; show (i 0).val / 5000 * 5000 ≤ (i 0).val ∧ (i 0).val < (i 0).val / 5000 * 5000 + 5000; omega
  | ⟨1, _⟩ => show win3_2.index t (1 : Fin 2) * 64 ≤ (i 1).val ∧ (i 1).val < win3_2.index t (1 : Fin 2) * 64 + 64; rw [e5]; omega

/-- The output array after the region: the node update of the two input arrays as the region finds them. -/
theorem val (c : Dev nD) :
    ((dat3 (F := Ideal) V c).arrAt 2 cfg3.N : Arr2 100000 64) = combine (V c main_v25 : Arr2 100000 64) (V c main_v18_2 : Arr2 100000 64) :=
  (dat3 (F := Ideal) V c).arrAt_eq_of_cover 2 _ (fun t _ => flushed_eq V c t) (cover)

end Cert.KernelIdeal.Reg3

end
-- ==== Proof.Take.lean ====
/-
  A row gather with out-of-range reads filled: when every index is a node number (0 ≤ idx < 100000) the fill never
  happens.  The index is first moved up by 100000 where negative and laid out as a column; the mask says, per edge,
  that the moved index lies in 0 … 99999; rows where the mask is off are replaced by a fill value.  For indices in
  range nothing is moved, every mask bit is on, and the result is the gathered array itself, whatever it is.
-/
import Idealize.ShloMosaic.PureOps.Ideal
import Idealize.ShloMosaic.PureOps.Reduce
import Idealize.ShloMosaic.Lib.ValueIdx
import Idealize.ShloMosaic.Lib.Pipeline.Value
import Idealize.ShloMosaic.Lib.ReduceAll
import Idealize.ShloMosaic.Lib.StableHlo.Predicate

noncomputable section

namespace Cert.Take

open Idealize.ShloMosaic Idealize.ShloMosaic.ValueIdx

abbrev S0 : Shape := ⟨0, ![]⟩
abbrev SOne : Shape := ⟨1, ![1]⟩
abbrev SOneOne : Shape := ⟨2, ![1, 1]⟩
abbrev SE : Shape := ⟨1, ![1600000]⟩
abbrev SECol : Shape := ⟨2, ![1600000, 1]⟩
abbrev SEH : Shape := ⟨2, ![1600000, 64]⟩

/-- The index moved up by 100000 where negative, as a one-column array. -/
def wrapCol (hb0 : S0.BroadcastsInDim SE ![]) (hb1 : SE.BroadcastsInDim SECol ![0]) (idx : IVec SE 32) : IVec SECol 32 :=
  broadcastInDim SECol ![0] hb1
    (select (cmpi .slt idx (broadcastInDim SE ![] hb0 (constantI S0 32 0#32)))
      (addi idx (broadcastInDim SE ![] hb0 (constantI S0 32 100000#32))) idx)

/-- Per edge: the moved index lies in 0 … 99999. -/
def inRange (hb0 : S0.BroadcastsInDim SE ![]) (hb1 : SE.BroadcastsInDim SECol ![0]) (hb2 : S0.BroadcastsInDim SECol ![])
    (hb3 : SOne.BroadcastsInDim SOneOne ![1]) (hb4 : SOneOne.BroadcastsInDim SECol ![0, 1]) (hr : SECol.ReducesTo [1] SE)
    (h0 : 0 < S0.numel) (idx : IVec SE 32) : IVec SE 1 :=
  Host.reduce IntOp.andi
    (andi (cmpi .sge (wrapCol hb0 hb1 idx) (broadcastInDim SECol ![] hb2 (constantI S0 32 0#32)))
      (cmpi .sle (wrapCol hb0 hb1 idx) (broadcastInDim SECol ![0, 1] hb4 (broadcastInDim SOneOne ![1] hb3 (constantI SOne 32 99999#32)))))
    (constantI S0 1 1#1) hr h0

/-- A left fold by `and` from 1 over one-bit words that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    have h1 : IntOp.andi 1#1 1#1 = 1#1 := by decide
    rw [List.foldl_cons, hf a, h1]
    exact foldl_andi_ones f hf l

/-- A reduce by `and` from 1 of an array of ones is 1 at every result index. -/
theorem reduce_andi_ones {s t u : Shape} {axes : List (Fin s.rank)} (x : s.Idx → BitVec 1) (init : u.Idx → BitVec 1)
    (h : s.ReducesTo axes t) (hu : 0 < u.numel) (hx : ∀ i, x i = 1#1) (hinit : ∀ k, init k = 1#1) (j : t.Idx) :
    Host.reduce IntOp.andi x init h hu j = 1#1 := by
  rw [Host.reduce_eq_foldl, hinit]
  exact foldl_andi_ones x hx _

/-- A word that is non-negative when read signed is not below zero. -/
theorem slt_zero_of_nonneg (w : BitVec 32) (h : 0 ≤ w.toInt) : IntOp.cmpi .slt w 0#32 = 0#1 := by
  have h0 : (0#32 : BitVec 32).toInt = 0 := by decide
  have hb : w.slt 0#32 = false := by
    simp only [BitVec.slt, h0]
    exact decide_eq_false (by omega)
  show BitVec.ofBool (w.slt 0#32) = 0#1
  rw [hb]; rfl

/-- … and is at least zero. -/
theorem sge_zero_of_nonneg (w : BitVec 32) (h : 0 ≤ w.toInt) : IntOp.cmpi .sge w 0#32 = 1#1 := by
  have h0 : (0#32 : BitVec 32).toInt = 0 := by decide
  have hb : (0#32 : BitVec 32).sle w = true := by
    simp only [BitVec.sle, h0]
    exact decide_eq_true h
  show BitVec.ofBool ((0#32 : BitVec 32).sle w) = 1#1
  rw [hb]; rfl

/-- A word below 100000 when read signed is at most 99999. -/
theorem sle_of_lt (w : BitVec 32) (h : w.toInt < 100000) : IntOp.cmpi .sle w 99999#32 = 1#1 := by
  have h0 : (99999#32 : BitVec 32).toInt = 99999 := by decide
  have hb : w.sle 99999#32 = true := by
    simp only [BitVec.sle, h0]
    exact decide_eq_true (by omega)
  show BitVec.ofBool (w.sle 99999#32) = 1#1
  rw [hb]; rfl

/-- A broadcast read at an index is its operand read at some index. -/
theorem bcast_exists {α : Type} {s t : Shape} (dims : Fin s.rank → Fin t.rank) (h : s.BroadcastsInDim t dims) (x : s.Idx → α)
    (j : t.Idx) : ∃ k : s.Idx, broadcastInDim t dims h x j = x k := ⟨_, rfl⟩

/-- For node numbers nothing is moved: every entry of the column is a node number too. -/
theorem wrapCol_inRange (hb0 : S0.BroadcastsInDim SE ![]) (hb1 : SE.BroadcastsInDim SECol ![0]) (idx : IVec SE 32)
    (hidx : ∀ e : SE.Idx, 0 ≤ (idx e).toInt ∧ (idx e).toInt < 100000) (i : SECol.Idx) :
    0 ≤ (wrapCol hb0 hb1 idx i).toInt ∧ (wrapCol hb0 hb1 idx i).toInt < 100000 := by
  have key : ∀ k : SE.Idx,
      select (cmpi .slt idx (broadcastInDim SE ![] hb0 (constantI S0 32 0#32)))
        (addi idx (broadcastInDim SE ![] hb0 (constantI S0 32 100000#32))) idx k = idx k := by
    intro k
    rw [select_apply]
    have hc : cmpi .slt idx (broadcastInDim SE ![] hb0 (constantI S0 32 0#32)) k = 0#1 :=
      slt_zero_of_nonneg _ (hidx k).1
    rw [hc]; exact select_zero _ _
  unfold wrapCol
  obtain ⟨k, hk⟩ := bcast_exists ![0] hb1
    (select (cmpi .slt idx (broadcastInDim SE ![] hb0 (constantI S0 32 0#32)))
      (addi idx (broadcastInDim SE ![] hb0 (constantI S0 32 100000#32))) idx) i
  rw [hk, key]
  exact hidx k

/-- For node numbers every mask bit is on. -/
theorem inRange_eq_one (hb0 : S0.BroadcastsInDim SE ![]) (hb1 : SE.BroadcastsInDim SECol ![0]) (hb2 : S0.BroadcastsInDim SECol ![])
    (hb3 : SOne.BroadcastsInDim SOneOne ![1]) (hb4 : SOneOne.BroadcastsInDim SECol ![0, 1]) (hr : SECol.ReducesTo [1] SE)
    (h0 : 0 < S0.numel) (idx : IVec SE 32) (hidx : ∀ e : SE.Idx, 0 ≤ (idx e).toInt ∧ (idx e).toInt < 100000) (e : SE.Idx) :
    inRange hb0 hb1 hb2 hb3 hb4 hr h0 idx e = 1#1 := by
  unfold inRange
  refine reduce_andi_ones _ _ hr h0 (fun i => ?_) (fun _ => rfl) e
  have hw := wrapCol_inRange hb0 hb1 idx hidx i
  show IntOp.andi (IntOp.cmpi .sge (wrapCol hb0 hb1 idx i) 0#32) (IntOp.cmpi .sle (wrapCol hb0 hb1 idx i) 99999#32) = 1#1
  rw [sge_zero_of_nonneg _ hw.1, sle_of_lt _ hw.2]
  decide

/-- For indices that are node numbers, filling the rows whose index is out of range changes nothing. -/
theorem fill_eq (hb0 : S0.BroadcastsInDim SE ![]) (hb1 : SE.BroadcastsInDim SECol ![0]) (hb2 : S0.BroadcastsInDim SECol ![])
    (hb3 : SOne.BroadcastsInDim SOneOne ![1]) (hb4 : SOneOne.BroadcastsInDim SECol ![0, 1]) (hr : SECol.ReducesTo [1] SE)
    (h0 : 0 < S0.numel) (hb5 : SE.BroadcastsInDim SEH ![0]) (hb6 : S0.BroadcastsInDim SEH ![])
    (idx : IVec SE 32) (hidx : ∀ e : SE.Idx, 0 ≤ (idx e).toInt ∧ (idx e).toInt < 100000)
    (g : SEH.Idx → EReal) (fill : BitVec 32) :
    select (broadcastInDim SEH ![0] hb5 (inRange hb0 hb1 hb2 hb3 hb4 hr h0 idx)) g
      (broadcastInDim SEH ![] hb6 (constant (F := Ideal) S0 .f32 fill)) = g := by
  funext j
  rw [select_apply]
  have hm : broadcastInDim SEH ![0] hb5 (inRange hb0 hb1 hb2 hb3 hb4 hr h0 idx) j = 1#1 := by
    obtain ⟨k, hk⟩ := bcast_exists ![0] hb5 (inRange hb0 hb1 hb2 hb3 hb4 hr h0 idx) j
    rw [hk]
    exact inRange_eq_one hb0 hb1 hb2 hb3 hb4 hr h0 idx hidx k
  rw [hm]
  exact select_one _ _

end Cert.Take

end
-- ==== Proof.Edges.lean ====
/-
  From the precondition to the edge list: the precondition's last conjunct says every entry of the edge list is a
  node number (0 ≤ entry < 100000, read as signed 32-bit words), and so is every entry of either of its rows.
-/
import proofs.«421567_j10007273799859_2_alg».proof.Defs
import proofs.«421567_j10007273799859_2_alg».proof.Proof.KStages
import proofs.«421567_j10007273799859_2_alg».proof.Proof.Gen.Pre_finite_inputs
import Idealize.ShloMosaic.Lib.ReduceAll
import Idealize.ShloMosaic.Lib.StableHlo.Predicate
import Idealize.ShloMosaic.Lib.Pipeline.Value
import Idealize.ShloMosaic.Lib.ValueIdx

noncomputable section

namespace Cert.KernelIdeal.Edges

open Idealize.ShloMosaic Idealize.ShloMosaic.TcCoe Idealize.ShloMosaic.ValueIdx
open Cert.KernelIdeal Cert.KernelIdeal.Host Cert.KernelIdeal.Stage

variable (m : (ℓ : Loc nD τ sig) → Buf (Elt Ideal) ℓ) (c : Dev nD)

/-- A signed comparison "at least zero" that came out 1 says the word is non-negative. -/
theorem nonneg_of_sge (w : BitVec 32) (h : IntOp.cmpi .sge w 0#32 = 1#1) : 0 ≤ w.toInt := by
  have h0 : (0#32 : BitVec 32).toInt = 0 := by decide
  unfold IntOp.cmpi at h
  rw [StableHlo.Predicate.ofBool_eq_one_iff] at h
  simp only [BitVec.sle, h0, decide_eq_true_eq] at h
  exact h

/-- A signed comparison "below 100000" that came out 1 says the word is below 100000. -/
theorem lt_of_slt (w : BitVec 32) (h : IntOp.cmpi .slt w 100000#32 = 1#1) : w.toInt < 100000 := by
  have h0 : (100000#32 : BitVec 32).toInt = 100000 := by decide
  unfold IntOp.cmpi at h
  rw [StableHlo.Predicate.ofBool_eq_one_iff] at h
  simp only [BitVec.slt, h0, decide_eq_true_eq] at h
  exact h

/-- Under the precondition every entry of the edge list is a node number. -/
theorem inRange_of_pre (hpre : Cert.Pre_KernelIdeal m) : EdgesInRange m c := by
  intro i
  haveI : Subsingleton Cert.Pre_finite_inputs.S_.Idx := ⟨fun a b => funext fun d => d.elim0⟩
  have e := congrFun (hpre c) ValueIdx.ix0
  change IntOp.andi _ (Host.reduce IntOp.andi _ _ _ _ _) = 1#1 at e
  obtain ⟨-, e2⟩ := IntOp.andi_eq_one.1 e
  have e3 := Host.reduce_andi_all _ _ _ _ _ e2 i
  change IntOp.andi (IntOp.cmpi .sge (A1 m c i) 0#32) (IntOp.cmpi .slt (A1 m c i) 100000#32) = 1#1 at e3
  obtain ⟨e4, e5⟩ := IntOp.andi_eq_one.1 e3
  exact ⟨nonneg_of_sge _ e4, lt_of_slt _ e5⟩

/-- Then so is every entry of its first row … -/
theorem src_inRange (h : EdgesInRange m c) (e : S1600000.Idx) :
    0 ≤ (src (A1 m c) e).toInt ∧ (src (A1 m c) e).toInt < 100000 := by
  obtain ⟨k, hk⟩ : ∃ k : S2x1600000.Idx, src (A1 m c) e = A1 m c k := ⟨_, rfl⟩
  rw [hk]
  exact h k

/-- … and of its second. -/
theorem dst_inRange (h : EdgesInRange m c) (e : S1600000.Idx) :
    0 ≤ (dst (A1 m c) e).toInt ∧ (dst (A1 m c) e).toInt < 100000 := by
  obtain ⟨k, hk⟩ : ∃ k : S2x1600000.Idx, dst (A1 m c) e = A1 m c k := ⟨_, rfl⟩
  rw [hk]
  exact h k

end Cert.KernelIdeal.Edges

end
-- ==== Proof.FoldL0.lean ====
/-
  (In layer 0 the facts about the node features and their dense layers do not use the hypothesis on the edge list;
  they take it so that every fact has the shape the same fact has in a later layer, where the features do depend on it.)
  Layer 0: what the kernel program holds after its segments 3 to 10, given the node features h at boundary 2.
  Segment 3 cuts the layer's weight matrices and bias rows out of the stacked arguments; region 1 leaves the three
  dense layers a, b, c of h; segments 5 and 6 gather the rows of a at the source nodes and of b at the target nodes
  (for node numbers in range the out-of-range fill never happens); segment 7 lays the edge weights out as a column;
  region 2 leaves the messages; segment 9 adds them into their target nodes; region 3 leaves the updated features.
-/
import proofs.«421567_j10007273799859_2_alg».proof.Proof.FoldE
import proofs.«421567_j10007273799859_2_alg».proof.Proof.Reg1
import proofs.«421567_j10007273799859_2_alg».proof.Proof.Reg2
import proofs.«421567_j10007273799859_2_alg».proof.Proof.Reg3
import proofs.«421567_j10007273799859_2_alg».proof.Proof.Take
import proofs.«421567_j10007273799859_2_alg».proof.Proof.Edges
import Idealize.ShloMosaic.Lib.Pipeline.Value
import Idealize.ShloMosaic.Lib.ValueIdx
import Idealize.ShloMosaic.PureOps.Ideal.Laws

set_option maxRecDepth 16384

noncomputable section

namespace Cert.KernelIdeal.Fold

open Idealize.ShloMosaic Idealize.ShloMosaic.TcCoe Idealize.ShloMosaic.ValueIdx Idealize.ShloMosaic.StableHlo
open Cert.KernelIdeal Cert.KernelIdeal.Gen Cert.KernelIdeal.Host Cert.KernelIdeal.Stage Cert.Spec

variable (m : (ℓ : Loc nD τ sig) → Buf (Elt Ideal) ℓ) (ρ : Dev nD → PrngReg) (c : Dev nD)

/-! ## After segment 3: the layer's weights and biases -/

theorem at3_h (hidx : EdgesInRange m c) : (W3 m ρ c (Proc.devRef .tc main_v5) : Arr2 100000 64) = h0 m c :=
  (keep3 m ρ c (b := main_v5) (by decide)).trans (at2_h m ρ c hidx)
theorem at3_src : (W3 m ρ c (Proc.devRef .tc main_v1) : IVec S1600000 32) = src (A1 m c) :=
  (keep3 m ρ c (b := main_v1) (by decide)).trans (at2_src m ρ c)
theorem at3_dst : (W3 m ρ c (Proc.devRef .tc main_v3) : IVec S1600000 32) = dst (A1 m c) :=
  (keep3 m ρ c (b := main_v3) (by decide)).trans (at2_dst m ρ c)

theorem at3_w1 : (W3 m ρ c (Proc.devRef .tc main_v7) : Arr2 64 64) = mat0 (A6 m c) := by
  show StableHlo.after hostOps1 (W2 m ρ c) (Proc.devRef .tc main_v7) = _
  after_results
  rw [show W2 m ρ c (Proc.devRef .tc main_arg6) = m ((c : Thread nD τ).loc main_arg6) from argAt2 m ρ c (b := main_arg6) (by decide)]
  rfl

theorem at3_w2 : (W3 m ρ c (Proc.devRef .tc main_v11) : Arr2 64 64) = mat0 (A8 m c) := by
  show StableHlo.after hostOps1 (W2 m ρ c) (Proc.devRef .tc main_v11) = _
  after_results
  rw [show W2 m ρ c (Proc.devRef .tc main_arg8) = m ((c : Thread nD τ).loc main_arg8) from argAt2 m ρ c (b := main_arg8) (by decide)]
  rfl

theorem at3_w3 : (W3 m ρ c (Proc.devRef .tc main_v13) : Arr2 64 64) = mat0 (A9 m c) := by
  show StableHlo.after hostOps1 (W2 m ρ c) (Proc.devRef .tc main_v13) = _
  after_results
  rw [show W2 m ρ c (Proc.devRef .tc main_arg9) = m ((c : Thread nD τ).loc main_arg9) from argAt2 m ρ c (b := main_arg9) (by decide)]
  rfl

theorem at3_b1 : (W3 m ρ c (Proc.devRef .tc main_v16) : Arr2 1 64) = shapeCast S1x64 (vec0 (A7 m c)) shapeCasts_S64_S1x64 := by
  show StableHlo.after hostOps1 (W2 m ρ c) (Proc.devRef .tc main_v16) = _
  after_results
  rw [show W2 m ρ c (Proc.devRef .tc main_arg7) = m ((c : Thread nD τ).loc main_arg7) from argAt2 m ρ c (b := main_arg7) (by decide)]
  rfl

theorem at3_b3 : (W3 m ρ c (Proc.devRef .tc main_v17) : Arr2 1 64) = shapeCast S1x64 (vec0 (A10 m c)) shapeCasts_S64_S1x64 := by
  show StableHlo.after hostOps1 (W2 m ρ c) (Proc.devRef .tc main_v17) = _
  after_results
  rw [show W2 m ρ c (Proc.devRef .tc main_arg10) = m ((c : Thread nD τ).loc main_arg10) from argAt2 m ρ c (b := main_arg10) (by decide)]
  rfl

/-! ## After segment 4: the three dense layers of the node features -/

theorem at4_a (hidx : EdgesInRange m c) : (W4 m ρ c (Proc.devRef .tc main_v18_0) : Arr2 100000 64) = a0 m c := by
  refine (W4_arr m ρ c 6).trans ((Reg1.val6 (V3 m ρ) c).trans ?_)
  have e0 : (V3 m ρ c main_v5 : Arr2 100000 64) = h0 m c := at3_h m ρ c hidx
  have e1 : (V3 m ρ c main_v7 : Arr2 64 64) = mat0 (A6 m c) := at3_w1 m ρ c
  have e2 : (V3 m ρ c main_v16 : Arr2 1 64) = shapeCast S1x64 (vec0 (A7 m c)) shapeCasts_S64_S1x64 := at3_b1 m ρ c
  rw [e0, e1, e2]
  exact affineRow_eq_affine _ _ _ _ (row_read (vec0 (A7 m c)) shapeCasts_S64_S1x64)

theorem at4_b (hidx : EdgesInRange m c) : (W4 m ρ c (Proc.devRef .tc main_v18_1) : Arr2 100000 64) = b0 m c := by
  refine (W4_arr m ρ c 7).trans ((Reg1.val7 (V3 m ρ) c).trans ?_)
  have e0 : (V3 m ρ c main_v5 : Arr2 100000 64) = h0 m c := at3_h m ρ c hidx
  have e1 : (V3 m ρ c main_v11 : Arr2 64 64) = mat0 (A8 m c) := at3_w2 m ρ c
  rw [e0, e1]
  rfl

theorem at4_c (hidx : EdgesInRange m c) : (W4 m ρ c (Proc.devRef .tc main_v18_2) : Arr2 100000 64) = c0 m c := by
  refine (W4_arr m ρ c 8).trans ((Reg1.val8 (V3 m ρ) c).trans ?_)
  have e0 : (V3 m ρ c main_v5 : Arr2 100000 64) = h0 m c := at3_h m ρ c hidx
  have e1 : (V3 m ρ c main_v13 : Arr2 64 64) = mat0 (A9 m c) := at3_w3 m ρ c
  have e2 : (V3 m ρ c main_v17 : Arr2 1 64) = shapeCast S1x64 (vec0 (A10 m c)) shapeCasts_S64_S1x64 := at3_b3 m ρ c
  rw [e0, e1, e2]
  exact affineRow_eq_affine _ _ _ _ (row_read (vec0 (A10 m c)) shapeCasts_S64_S1x64)

theorem at4_src : (W4 m ρ c (Proc.devRef .tc main_v1) : IVec S1600000 32) = src (A1 m c) :=
  (keep4 m ρ c (b := main_v1) (by decide)).trans (at3_src m ρ c)
theorem at4_dst : (W4 m ρ c (Proc.devRef .tc main_v3) : IVec S1600000 32) = dst (A1 m c) :=
  (keep4 m ρ c (b := main_v3) (by decide)).trans (at3_dst m ρ c)

/-! ## After segment 5: the rows of a at the source nodes -/

set_option maxHeartbeats 1000000 in
theorem at5_as (hidx : EdgesInRange m c) : (W5 m ρ c (Proc.devRef .tc main_v19) : Arr2 1600000 64) = as0 m c := by
  show StableHlo.after hostOps2 (W4 m ρ c) (Proc.devRef .tc main_v19) = _
  after_results
  simp only [TRef.toBuf, TRef.ofBuf, HostCalls.cast_round]
  refine eq_of_heq ((cast_heq _ _).trans (heq_of_eq ?_))
  show select (broadcastInDim S1600000x64 ![0] bcast_S1600000_S1600000x64_0
        (Cert.Take.inRange bcast_S_S1600000 bcast_S1600000_S1600000x1_0 bcast_S_S1600000x1 bcast_S1_S1x1_1 bcast_S1x1_S1600000x1_0_1
          reducesTo_S1600000x1_S1600000_d1 h_S_ (W4 m ρ c (Proc.devRef .tc main_v1) : IVec S1600000 32)))
      (gatherRows (W4 m ρ c (Proc.devRef .tc main_v1) : IVec S1600000 32) (W4 m ρ c (Proc.devRef .tc main_v18_0) : Arr2 100000 64))
      (broadcastInDim S1600000x64 ![] bcast_S_S1600000x64 (constant (F := Ideal) S_ .f32 0x7FC00000#32)) = as0 m c
  rw [at4_src m ρ c, at4_a m ρ c hidx]
  exact Cert.Take.fill_eq _ _ _ _ _ _ _ _ _ (src (A1 m c)) (Edges.src_inRange m c hidx) _ _

theorem at5_b (hidx : EdgesInRange m c) : (W5 m ρ c (Proc.devRef .tc main_v18_1) : Arr2 100000 64) = b0 m c :=
  (keep5 m ρ c (b := main_v18_1) (by decide)).trans (at4_b m ρ c hidx)
theorem at5_c (hidx : EdgesInRange m c) : (W5 m ρ c (Proc.devRef .tc main_v18_2) : Arr2 100000 64) = c0 m c :=
  (keep5 m ρ c (b := main_v18_2) (by decide)).trans (at4_c m ρ c hidx)
theorem at5_src : (W5 m ρ c (Proc.devRef .tc main_v1) : IVec S1600000 32) = src (A1 m c) :=
  (keep5 m ρ c (b := main_v1) (by decide)).trans (at4_src m ρ c)
theorem at5_dst : (W5 m ρ c (Proc.devRef .tc main_v3) : IVec S1600000 32) = dst (A1 m c) :=
  (keep5 m ρ c (b := main_v3) (by decide)).trans (at4_dst m ρ c)

/-! ## After segment 6: the rows of b at the target nodes -/

set_option maxHeartbeats 1000000 in
theorem at6_bd (hidx : EdgesInRange m c) : (W6 m ρ c (Proc.devRef .tc main_v20) : Arr2 1600000 64) = bd0 m c := by
  show StableHlo.after hostOps2_1 (W5 m ρ c) (Proc.devRef .tc main_v20) = _
  after_results
  simp only [TRef.toBuf, TRef.ofBuf, HostCalls.cast_round]
  refine eq_of_heq ((cast_heq _ _).trans (heq_of_eq ?_))
  show select (broadcastInDim S1600000x64 ![0] bcast_S1600000_S1600000x64_0
        (Cert.Take.inRange bcast_S_S1600000 bcast_S1600000_S1600000x1_0 bcast_S_S1600000x1 bcast_S1_S1x1_1 bcast_S1x1_S1600000x1_0_1
          reducesTo_S1600000x1_S1600000_d1 h_S_ (W4 m ρ c (Proc.devRef .tc main_v3) : IVec S1600000 32)))
      (gatherRows (W4 m ρ c (Proc.devRef .tc main_v3) : IVec S1600000 32) (W4 m ρ c (Proc.devRef .tc main_v18_1) : Arr2 100000 64))
      (broadcastInDim S1600000x64 ![] bcast_S_S1600000x64 (constant (F := Ideal) S_ .f32 0x7FC00000#32)) = bd0 m c
  rw [at4_dst m ρ c, at4_b m ρ c hidx]
  exact Cert.Take.fill_eq _ _ _ _ _ _ _ _ _ (dst (A1 m c)) (Edges.dst_inRange m c hidx) _ _

theorem at6_as (hidx : EdgesInRange m c) : (W6 m ρ c (Proc.devRef .tc main_v19) : Arr2 1600000 64) = as0 m c :=
  (keep6 m ρ c (b := main_v19) (by decide)).trans (at5_as m ρ c hidx)
theorem at6_c (hidx : EdgesInRange m c) : (W6 m ρ c (Proc.devRef .tc main_v18_2) : Arr2 100000 64) = c0 m c :=
  (keep6 m ρ c (b := main_v18_2) (by decide)).trans (at5_c m ρ c hidx)
theorem at6_src : (W6 m ρ c (Proc.devRef .tc main_v1) : IVec S1600000 32) = src (A1 m c) :=
  (keep6 m ρ c (b := main_v1) (by decide)).trans (at5_src m ρ c)
theorem at6_dst : (W6 m ρ c (Proc.devRef .tc main_v3) : IVec S1600000 32) = dst (A1 m c) :=
  (keep6 m ρ c (b := main_v3) (by decide)).trans (at5_dst m ρ c)

/-! ## After segment 7: the edge weights as a column -/

theorem at7_ea : (W7 m ρ c (Proc.devRef .tc main_v21) : Arr2 1600000 1) = shapeCast S1600000x1 (A2 m c) shapeCasts_S1600000_S1600000x1 := by
  show StableHlo.after hostOps2_2 (W6 m ρ c) (Proc.devRef .tc main_v21) = _
  after_results
  rw [show W4 m ρ c (Proc.devRef .tc main_arg2) = m ((c : Thread nD τ).loc main_arg2) from argAt4 m ρ c (b := main_arg2) (by decide)]
  rfl

theorem at7_as (hidx : EdgesInRange m c) : (W7 m ρ c (Proc.devRef .tc main_v19) : Arr2 1600000 64) = as0 m c :=
  (keep7 m ρ c (b := main_v19) (by decide)).trans (at6_as m ρ c hidx)
theorem at7_bd (hidx : EdgesInRange m c) : (W7 m ρ c (Proc.devRef .tc main_v20) : Arr2 1600000 64) = bd0 m c :=
  (keep7 m ρ c (b := main_v20) (by decide)).trans (at6_bd m ρ c hidx)
theorem at7_c (hidx : EdgesInRange m c) : (W7 m ρ c (Proc.devRef .tc main_v18_2) : Arr2 100000 64) = c0 m c :=
  (keep7 m ρ c (b := main_v18_2) (by decide)).trans (at6_c m ρ c hidx)
theorem at7_src : (W7 m ρ c (Proc.devRef .tc main_v1) : IVec S1600000 32) = src (A1 m c) :=
  (keep7 m ρ c (b := main_v1) (by decide)).trans (at6_src m ρ c)
theorem at7_dst : (W7 m ρ c (Proc.devRef .tc main_v3) : IVec S1600000 32) = dst (A1 m c) :=
  (keep7 m ρ c (b := main_v3) (by decide)).trans (at6_dst m ρ c)

/-! ## After segment 8: the messages -/

theorem at8_ms (hidx : EdgesInRange m c) : (W8 m ρ c (Proc.devRef .tc main_v22) : Arr2 1600000 64) = ms0 m c := by
  refine (W8_arr m ρ c 3).trans ((Reg2.val (V7 m ρ) c).trans ?_)
  have e0 : (V7 m ρ c main_v19 : Arr2 1600000 64) = as0 m c := at7_as m ρ c hidx
  have e1 : (V7 m ρ c main_v20 : Arr2 1600000 64) = bd0 m c := at7_bd m ρ c hidx
  have e2 : (V7 m ρ c main_v21 : Arr2 1600000 1) = shapeCast S1600000x1 (A2 m c) shapeCasts_S1600000_S1600000x1 := at7_ea m ρ c
  rw [e0, e1, e2]
  exact msgCol_eq_msg _ _ _ _ (col_read (A2 m c) shapeCasts_S1600000_S1600000x1)

theorem at8_c (hidx : EdgesInRange m c) : (W8 m ρ c (Proc.devRef .tc main_v18_2) : Arr2 100000 64) = c0 m c :=
  (keep8 m ρ c (b := main_v18_2) (by decide)).trans (at7_c m ρ c hidx)
theorem at8_src : (W8 m ρ c (Proc.devRef .tc main_v1) : IVec S1600000 32) = src (A1 m c) :=
  (keep8 m ρ c (b := main_v1) (by decide)).trans (at7_src m ρ c)
theorem at8_dst : (W8 m ρ c (Proc.devRef .tc main_v3) : IVec S1600000 32) = dst (A1 m c) :=
  (keep8 m ρ c (b := main_v3) (by decide)).trans (at7_dst m ρ c)

/-! ## After segment 9: the messages summed into their target nodes -/

theorem at9_ag (hidx : EdgesInRange m c) : (W9 m ρ c (Proc.devRef .tc main_v25) : Arr2 100000 64) = ag0 m c := by
  show StableHlo.after hostOps3 (W8 m ρ c) (Proc.devRef .tc main_v25) = _
  after_results
  rw [show (W8 m ρ c (Proc.devRef .tc main_v3) : IVec S1600000 32) = dst (A1 m c) from at8_dst m ρ c,
    show (W8 m ρ c (Proc.devRef .tc main_v22) : Arr2 1600000 64) = ms0 m c from at8_ms m ρ c hidx]
  rfl

theorem at9_c (hidx : EdgesInRange m c) : (W9 m ρ c (Proc.devRef .tc main_v18_2) : Arr2 100000 64) = c0 m c :=
  (keep9 m ρ c (b := main_v18_2) (by decide)).trans (at8_c m ρ c hidx)
theorem at9_src : (W9 m ρ c (Proc.devRef .tc main_v1) : IVec S1600000 32) = src (A1 m c) :=
  (keep9 m ρ c (b := main_v1) (by decide)).trans (at8_src m ρ c)
theorem at9_dst : (W9 m ρ c (Proc.devRef .tc main_v3) : IVec S1600000 32) = dst (A1 m c) :=
  (keep9 m ρ c (b := main_v3) (by decide)).trans (at8_dst m ρ c)

/-! ## After segment 10: the updated node features -/

theorem at10_h (hidx : EdgesInRange m c) : (W10 m ρ c (Proc.devRef .tc main_v26) : Arr2 100000 64) = h1 m c := by
  refine (W10_arr m ρ c 2).trans ((Reg3.val (V9 m ρ) c).trans ?_)
  have e0 : (V9 m ρ c main_v25 : Arr2 100000 64) = ag0 m c := at9_ag m ρ c hidx
  have e1 : (V9 m ρ c main_v18_2 : Arr2 100000 64) = c0 m c := at9_c m ρ c hidx
  rw [e0, e1]
  rfl

theorem at10_src : (W10 m ρ c (Proc.devRef .tc main_v1) : IVec S1600000 32) = src (A1 m c) :=
  (keep10 m ρ c (b := main_v1) (by decide)).trans (at9_src m ρ c)
theorem at10_dst : (W10 m ρ c (Proc.devRef .tc main_v3) : IVec S1600000 32) = dst (A1 m c) :=
  (keep10 m ρ c (b := main_v3) (by decide)).trans (at9_dst m ρ c)

end Cert.KernelIdeal.Fold

end
-- ==== Proof.Reg4.lean ====
/-
  Region 4 (a layer's three dense layers of the node features): its three output arrays after the run are
  x · w1 + b1, x · w2 and x · w3 + b3 of the arrays the region finds, the biases one-row arrays.  Point t reads
  block t of the features (rows 5000 t … 5000 t + 4999), the three whole weight arrays and the two whole bias rows,
  and writes block t of each output; the twenty blocks tile each output array.
-/
import proofs.«421567_j10007273799859_2_alg».proof.Proof.Gen.KernelIdeal.Frame
import proofs.«421567_j10007273799859_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Reg4

open Idealize.ShloMosaic Idealize.ShloMosaic.TcCoe Idealize.ShloMosaic.ValueIdx
open Idealize.ShloMosaic.Pipeline (Dat Cfg Window)
open Cert.KernelIdeal Cert.KernelIdeal.Gen Cert.Spec

variable (V : (c : Dev nD) → (b : Ref sig .tc) → Buf (Elt Ideal) ((c : Thread nD τ).loc b))

/-- The six input arrays as the region finds them, at their literal types, by window number. -/
abbrev X0 (c : Dev nD) : Arr2 100000 64 := V c main_v26
abbrev X1 (c : Dev nD) : Arr2 64 64 := V c main_v28
abbrev X2 (c : Dev nD) : Arr2 1 64 := V c main_v37
abbrev X3 (c : Dev nD) : Arr2 64 64 := V c main_v32
abbrev X4 (c : Dev nD) : Arr2 64 64 := V c main_v34
abbrev X5 (c : Dev nD) : Arr2 1 64 := V c main_v38

theorem hz : (![0, 0] : Fin 2 → Nat) = fun _ => 0 := funext fun a => by fin_cases a <;> rfl

/-- The one-row bias broadcast down the rows, read at an entry, is the row's entry in that column. -/
theorem bias_bcast (x : Vec Ideal S1x64 .f32) (j : S5000x64.Idx) :
    broadcastTo S5000x64 x broadcasts_S1x64_S5000x64 j = x (ix2 (0 : Fin 1) (j 1)) := by
  refine broadcastTo_apply x _ j (ix2 (0 : Fin 1) (j 1)) (fun a => ?_)
  match a with
  | ⟨0, _⟩ => rfl
  | ⟨1, _⟩ => rfl

/-- The first body's arithmetic at an entry: the product of the block and the weights there, plus the bias row's
    entry in that column (the operands' passage through the narrower format changes nothing at the ideal values). -/
theorem pay2_eq (x0 : Vec Ideal S5000x64 .f32) (x1 : Vec Ideal S64x64 .f32) (x2 : Vec Ideal S1x64 .f32) (j : S5000x64.Idx) :
    k4_pay2 (F := Ideal) x0 x1 x2 j = Cert.Lib.dense x0 x1 j + x2 (ix2 (0 : Fin 1) (j 1)) := by
  unfold k4_pay2 k4_pay1
  simp only [shapeCast_self]
  rw [addf_apply]
  exact congrArg₂ (· + ·) (congrFun (Cert.Lib.matmul_truncf_eq_dense dot_S5000x64_S64x64_S5000x64_1_0_0_1_n_n rfl rfl rfl rfl rfl rfl none x0 x1 _ _) j) (bias_bcast x2 j)

/-- The second body's arithmetic at an entry: the product of the block and the weights there. -/
theorem pay3_eq (x0 : Vec Ideal S5000x64 .f32) (x3 : Vec Ideal S64x64 .f32) (j : S5000x64.Idx) :
    k4_pay3 (F := Ideal) x0 x3 j = Cert.Lib.dense x0 x3 j := by
  unfold k4_pay3 k4_pay1
  simp only [shapeCast_self]
  exact congrFun (Cert.Lib.matmul_truncf_eq_dense dot_S5000x64_S64x64_S5000x64_1_0_0_1_n_n rfl rfl rfl rfl rfl rfl none x0 x3 _ _) j

/-- The third body's arithmetic at an entry: as the first's. -/
theorem pay4_eq (x0 : Vec Ideal S5000x64 .f32) (x4 : Vec Ideal S64x64 .f32) (x5 : Vec Ideal S1x64 .f32) (j : S5000x64.Idx) :
    k4_pay4 (F := Ideal) x0 x4 x5 j = Cert.Lib.dense x0 x4 j + x5 (ix2 (0 : Fin 1) (j 1)) := by
  unfold k4_pay4 k4_pay1
  simp only [shapeCast_self]
  rw [addf_apply]
  exact congrArg₂ (· + ·) (congrFun (Cert.Lib.matmul_truncf_eq_dense dot_S5000x64_S64x64_S5000x64_1_0_0_1_n_n rfl rfl rfl rfl rfl rfl none x0 x4 _ _) j) (bias_bcast x5 j)

/-- The printed index maps over the grid: the features' block and each output's block at point t are block (t, 0);
    the weights' and the bias rows' block is block (0, 0) at every point. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0
    ∧ win4_7.index t (0 : Fin 2) = t.val ∧ win4_7.index t (1 : Fin 2) = 0
    ∧ win4_8.index t (0 : Fin 2) = t.val ∧ win4_8.index t (1 : Fin 2) = 0 :=
  (by decide +kernel : ∀ t : Fin grid4.N, _)

/-- Row p of the features' block at point t is row 5000 t + p of the features' array. -/
theorem row_read (c : Dev nD) (t : Fin cfg4.N) (p : Fin 5000) (r : Fin 100000) (hr : r.val = t.val * 5000 + p.val) (k : Fin 64) :
    iblk4 V c 0 t (ix2 p k) = X0 V c (ix2 r k) := by
  obtain ⟨e00, e01, -⟩ := idx_facts t
  show X0 V c (((cfg4.win 0).blk t).view.emb (ix2 p k)) = _
  refine congrArg (X0 V c) (funext fun a => Fin.ext ?_)
  match a with
  | ⟨0, _⟩ => show win4_0.index t (0 : Fin 2) * 5000 + 1 * p.val = r.val; omega
  | ⟨1, _⟩ => show win4_0.index t (1 : Fin 2) * 64 + 1 * k.val = k.val; omega

/-- The weights' and the bias rows' blocks at any point are the arrays themselves. -/
theorem whole_read1 (c : Dev nD) (t : Fin cfg4.N) (i : S64x64.Idx) : iblk4 V c 1 t i = X1 V c i := by
  obtain ⟨-, -, e10, e11, -⟩ := idx_facts t
  show X1 V c (((cfg4.win 1).blk t).view.emb i) = _
  refine congrArg (X1 V c) (funext fun a => Fin.ext ?_)
  match a with
  | ⟨0, _⟩ => show win4_1.index t (0 : Fin 2) * 64 + 1 * (i 0).val = (i 0).val; omega
  | ⟨1, _⟩ => show win4_1.index t (1 : Fin 2) * 64 + 1 * (i 1).val = (i 1).val; omega

theorem whole_read2 (c : Dev nD) (t : Fin cfg4.N) (i : S1x64.Idx) : iblk4 V c 2 t i = X2 V c i := by
  obtain ⟨-, -, -, -, e20, e21, -⟩ := idx_facts t
  show X2 V c (((cfg4.win 2).blk t).view.emb i) = _
  refine congrArg (X2 V c) (funext fun a => Fin.ext ?_)
  match a with
  | ⟨0, _⟩ => show win4_2.index t (0 : Fin 2) * 1 + 1 * (i 0).val = (i 0).val; omega
  | ⟨1, _⟩ => show win4_2.index t (1 : Fin 2) * 64 + 1 * (i 1).val = (i 1).val; omega

theorem whole_read3 (c : Dev nD) (t : Fin cfg4.N) (i : S64x64.Idx) : iblk4 V c 3 t i = X3 V c i := by
  obtain ⟨-, -, -, -, -, -, e30, e31, -⟩ := idx_facts t
  show X3 V c (((cfg4.win 3).blk t).view.emb i) = _
  refine congrArg (X3 V c) (funext fun a => Fin.ext ?_)
  match a with
  | ⟨0, _⟩ => show win4_3.index t (0 : Fin 2) * 64 + 1 * (i 0).val = (i 0).val; omega
  | ⟨1, _⟩ => show win4_3.index t (1 : Fin 2) * 64 + 1 * (i 1).val = (i 1).val; omega

theorem whole_read4 (c : Dev nD) (t : Fin cfg4.N) (i : S64x64.Idx) : iblk4 V c 4 t i = X4 V c i := by
  obtain ⟨-, -, -, -, -, -, -, -, e40, e41, -⟩ := idx_facts t
  show X4 V c (((cfg4.win 4).blk t).view.emb i) = _
  refine congrArg (X4 V c) (funext fun a => Fin.ext ?_)
  match a with
  | ⟨0, _⟩ => show win4_4.index t (0 : Fin 2) * 64 + 1 * (i 0).val = (i 0).val; omega
  | ⟨1, _⟩ => show win4_4.index t (1 : Fin 2) * 64 + 1 * (i 1).val = (i 1).val; omega

theorem whole_read5 (c : Dev nD) (t : Fin cfg4.N) (i : S1x64.Idx) : iblk4 V c 5 t i = X5 V c i := by
  obtain ⟨-, -, -, -, -, -, -, -, -, -, e50, e51, -⟩ := idx_facts t
  show X5 V c (((cfg4.win 5).blk t).view.emb i) = _
  refine congrArg (X5 V c) (funext fun a => Fin.ext ?_)
  match a with
  | ⟨0, _⟩ => show win4_5.index t (0 : Fin 2) * 1 + 1 * (i 0).val = (i 0).val; omega
  | ⟨1, _⟩ => show win4_5.index t (1 : Fin 2) * 64 + 1 * (i 1).val = (i 1).val; omega

/-- The product of the features' block at point t with a weights' block that is the whole weights' array, at entry
    j of the block, is the whole-array product at the entry i with row 5000 t + (row of j) and j's column: a row
    of the product depends on that row of the features alone. -/
theorem dense_blk (c : Dev nD) (t : Fin cfg4.N) (w : Arr2 64 64) (wblk : Vec Ideal S64x64 .f32) (hw : ∀ i, wblk i = w i)
    (j : S5000x64.Idx) (i : S100000x64.Idx) (h0 : (i 0).val = t.val * 5000 + (j 0).val) (h1 : (i 1).val = (j 1).val) :
    Cert.Lib.dense (iblk4 V c 0 t) wblk j = Cert.Lib.dense (X0 V c) w i := by
  have hd := Cert.Lib.dense_row (X0 V c) (iblk4 V c 0 t) w wblk (i 0) (j 0) (fun k => row_read V c t (j 0) (i 0) h0 k) hw (j 1)
  have hj : j = ix2 (n0 := 5000) (n1 := 64) (j 0) (j 1) := funext fun a => by
    match a with
    | ⟨0, _⟩ => rfl
    | ⟨1, _⟩ => rfl
  have hi : ix2 (n0 := 100000) (n1 := 64) (i 0) (j 1) = i := funext fun a => Fin.ext (by
    match a with
    | ⟨0, _⟩ => rfl
    | ⟨1, _⟩ => exact h1.symm)
  exact (congrArg (Cert.Lib.dense (iblk4 V c 0 t) wblk) hj).trans (hd.trans (congrArg (Cert.Lib.dense (X0 V c) w) hi))

/-- A bias row's block that is the whole row, read in j's column, is the row read in i's column when the two
    columns are the same. -/
theorem bias_blk (b : Arr2 1 64) (bblk : Vec Ideal S1x64 .f32) (hb : ∀ i, bblk i = b i)
    (j : S5000x64.Idx) (i : S100000x64.Idx) (h1 : (i 1).val = (j 1).val) :
    bblk (ix2 (0 : Fin 1) (j 1)) = b (ix2 (0 : Fin 1) (i 1)) :=
  (hb _).trans (congrArg b (funext fun a => Fin.ext (by
    match a with
    | ⟨0, _⟩ => rfl
    | ⟨1, _⟩ => exact h1.symm)))

/-! ## Output window 6 -/

/-- What point t writes back to output window 6 is block t of the whole-array function of the input arrays. -/
theorem flushed6_eq (c : Dev nD) (t : Fin cfg4.N) :
    (dat4 (F := Ideal) V c).flushed 6 t
      = ((cfg4.win 6).blk t).view.read (Elt Ideal) (affineRow (X0 V c) (X1 V c) (X2 V c)) := by
  show (cfg4.win 6).cut (grid4.coords t) ((dat4 (F := Ideal) V c).after 6 t) = _
  rw [after4_6]
  unfold out4_6
  rw [View.canon_unit_zero hz]
  simp only [View.ld_unit_zero (S := S5000x64) hz, View.ld_unit_zero (S := S64x64) hz, View.ld_unit_zero (S := S1x64) hz]
  obtain ⟨-, -, -, -, -, -, -, -, -, -, -, -, e60, e61, e70, e71, e80, e81⟩ := idx_facts t
  funext j
  show k4_pay2 (F := Ideal) (iblk4 V c 0 t) (iblk4 V c 1 t) (iblk4 V c 2 t) j
     = (affineRow (X0 V c) (X1 V c) (X2 V c)) (((cfg4.win 6).blk t).view.emb j)
  refine (pay2_eq (iblk4 V c 0 t) (iblk4 V c 1 t) (iblk4 V c 2 t) j).trans ?_
  have h0 : ((((cfg4.win 6).blk t).view.emb j) 0).val = t.val * 5000 + (j 0).val := by
    show win4_6.index t (0 : Fin 2) * 5000 + 1 * (j 0).val = _; omega
  have h1 : ((((cfg4.win 6).blk t).view.emb j) 1).val = (j 1).val := by
    show win4_6.index t (1 : Fin 2) * 64 + 1 * (j 1).val = _; omega
  unfold affineRow
  exact congrArg₂ (· + ·) (dense_blk V c t (X1 V c) (iblk4 V c 1 t) (whole_read1 V c t) j _ h0 h1)
    (bias_blk (X2 V c) (iblk4 V c 2 t) (whole_read2 V c t) j _ h1)

/-- An index of output window 6's array lies in point t's block iff each coordinate lies in the block's range. -/
theorem mem_blk6 (t : Fin cfg4.N) (i : S100000x64.Idx) :
    i ∈ ((cfg4.win 6).blk t).view.set ↔ ∀ a : Fin 2, win4_6.index t a * S5000x64.size a ≤ (i a).val ∧ (i a).val < win4_6.index t a * S5000x64.size a + S5000x64.size a := by
  show i ∈ ((View.whole main_v39_0).slice (win4_6.rect t)).set ↔ _
  rw [View.set_slice_whole, Rect.mem_set_unit]
  exact Iff.rfl

/-- Row r of output window 6's array lies in the block of point r / 5000: the twenty blocks tile the array. -/
theorem cover6 (i : S100000x64.Idx) : ∃ t : Fin cfg4.N, (cfg4.win 6).flush t = true ∧ i ∈ ((cfg4.win 6).blk t).view.set := by
  have hi0 : (i 0).val < 100000 := (i 0).isLt
  have hi1 : (i 1).val < 64 := (i 1).isLt
  have hN : cfg4.N = 20 := N_4
  let t : Fin cfg4.N := ⟨(i 0).val / 5000, by rw [hN]; omega⟩
  obtain ⟨-, -, -, -, -, -, -, -, -, -, -, -, e60, e61, e70, e71, e80, e81⟩ := idx_facts t
  refine ⟨t, flush4_6 t, ?_⟩
  rw [mem_blk6]
  intro a
  match a with
  | ⟨0, _⟩ => show win4_6.index t (0 : Fin 2) * 5000 ≤ (i 0).val ∧ (i 0).val < win4_6.index t (0 : Fin 2) * 5000 + 5000; rw [e60]; show (i 0).val / 5000 * 5000 ≤ (i 0).val ∧ (i 0).val < (i 0).val / 5000 * 5000 + 5000; omega
  | ⟨1, _⟩ => show win4_6.index t (1 : Fin 2) * 64 ≤ (i 1).val ∧ (i 1).val < win4_6.index t (1 : Fin 2) * 64 + 64; rw [e61]; omega

/-- The first output array after the region: x · w1 + b1. -/
theorem val6 (c : Dev nD) :
    ((dat4 (F := Ideal) V c).arrAt 6 cfg4.N : Arr2 100000 64)
      = affineRow (V c main_v26 : Arr2 100000 64) (V c main_v28 : Arr2 64 64) (V c main_v37 : Arr2 1 64) :=
  (dat4 (F := Ideal) V c).arrAt_eq_of_cover 6 _ (fun t _ => flushed6_eq V c t) (cover6)

/-! ## Output window 7 -/

/-- What point t writes back to output window 7 is block t of the whole-array function of the input arrays. -/
theorem flushed7_eq (c : Dev nD) (t : Fin cfg4.N) :
    (dat4 (F := Ideal) V c).flushed 7 t
      = ((cfg4.win 7).blk t).view.read (Elt Ideal) (Cert.Lib.dense (X0 V c) (X3 V c)) := by
  show (cfg4.win 7).cut (grid4.coords t) ((dat4 (F := Ideal) V c).after 7 t) = _
  rw [after4_7]
  unfold out4_7
  rw [View.canon_unit_zero hz]
  simp only [View.ld_unit_zero (S := S5000x64) hz, View.ld_unit_zero (S := S64x64) hz]
  obtain ⟨-, -, -, -, -, -, -, -, -, -, -, -, e60, e61, e70, e71, e80, e81⟩ := idx_facts t
  funext j
  show k4_pay3 (F := Ideal) (iblk4 V c 0 t) (iblk4 V c 3 t) j
     = (Cert.Lib.dense (X0 V c) (X3 V c)) (((cfg4.win 7).blk t).view.emb j)
  refine (pay3_eq (iblk4 V c 0 t) (iblk4 V c 3 t) j).trans ?_
  have h0 : ((((cfg4.win 7).blk t).view.emb j) 0).val = t.val * 5000 + (j 0).val := by
    show win4_7.index t (0 : Fin 2) * 5000 + 1 * (j 0).val = _; omega
  have h1 : ((((cfg4.win 7).blk t).view.emb j) 1).val = (j 1).val := by
    show win4_7.index t (1 : Fin 2) * 64 + 1 * (j 1).val = _; omega
  exact dense_blk V c t (X3 V c) (iblk4 V c 3 t) (whole_read3 V c t) j _ h0 h1

/-- An index of output window 7's array lies in point t's block iff each coordinate lies in the block's range. -/
theorem mem_blk7 (t : Fin cfg4.N) (i : S100000x64.Idx) :
    i ∈ ((cfg4.win 7).blk t).view.set ↔ ∀ a : Fin 2, win4_7.index t a * S5000x64.size a ≤ (i a).val ∧ (i a).val < win4_7.index t a * S5000x64.size a + S5000x64.size a := by
  show i ∈ ((View.whole main_v39_1).slice (win4_7.rect t)).set ↔ _
  rw [View.set_slice_whole, Rect.mem_set_unit]
  exact Iff.rfl

/-- Row r of output window 7's array lies in the block of point r / 5000: the twenty blocks tile the array. -/
theorem cover7 (i : S100000x64.Idx) : ∃ t : Fin cfg4.N, (cfg4.win 7).flush t = true ∧ i ∈ ((cfg4.win 7).blk t).view.set := by
  have hi0 : (i 0).val < 100000 := (i 0).isLt
  have hi1 : (i 1).val < 64 := (i 1).isLt
  have hN : cfg4.N = 20 := N_4
  let t : Fin cfg4.N := ⟨(i 0).val / 5000, by rw [hN]; omega⟩
  obtain ⟨-, -, -, -, -, -, -, -, -, -, -, -, e60, e61, e70, e71, e80, e81⟩ := idx_facts t
  refine ⟨t, flush4_7 t, ?_⟩
  rw [mem_blk7]
  intro a
  match a with
  | ⟨0, _⟩ => show win4_7.index t (0 : Fin 2) * 5000 ≤ (i 0).val ∧ (i 0).val < win4_7.index t (0 : Fin 2) * 5000 + 5000; rw [e70]; show (i 0).val / 5000 * 5000 ≤ (i 0).val ∧ (i 0).val < (i 0).val / 5000 * 5000 + 5000; omega
  | ⟨1, _⟩ => show win4_7.index t (1 : Fin 2) * 64 ≤ (i 1).val ∧ (i 1).val < win4_7.index t (1 : Fin 2) * 64 + 64; rw [e71]; omega

/-- The second: x · w2. -/
theorem val7 (c : Dev nD) :
    ((dat4 (F := Ideal) V c).arrAt 7 cfg4.N : Arr2 100000 64)
      = Cert.Lib.dense (V c main_v26 : Arr2 100000 64) (V c main_v32 : Arr2 64 64) :=
  (dat4 (F := Ideal) V c).arrAt_eq_of_cover 7 _ (fun t _ => flushed7_eq V c t) (cover7)

/-! ## Output window 8 -/

/-- What point t writes back to output window 8 is block t of the whole-array function of the input arrays. -/
theorem flushed8_eq (c : Dev nD) (t : Fin cfg4.N) :
    (dat4 (F := Ideal) V c).flushed 8 t
      = ((cfg4.win 8).blk t).view.read (Elt Ideal) (affineRow (X0 V c) (X4 V c) (X5 V c)) := by
  show (cfg4.win 8).cut (grid4.coords t) ((dat4 (F := Ideal) V c).after 8 t) = _
  rw [after4_8]
  unfold out4_8
  rw [View.canon_unit_zero hz]
  simp only [View.ld_unit_zero (S := S5000x64) hz, View.ld_unit_zero (S := S64x64) hz, View.ld_unit_zero (S := S1x64) hz]
  obtain ⟨-, -, -, -, -, -, -, -, -, -, -, -, e60, e61, e70, e71, e80, e81⟩ := idx_facts t
  funext j
  show k4_pay4 (F := Ideal) (iblk4 V c 0 t) (iblk4 V c 4 t) (iblk4 V c 5 t) j
     = (affineRow (X0 V c) (X4 V c) (X5 V c)) (((cfg4.win 8).blk t).view.emb j)
  refine (pay4_eq (iblk4 V c 0 t) (iblk4 V c 4 t) (iblk4 V c 5 t) j).trans ?_
  have h0 : ((((cfg4.win 8).blk t).view.emb j) 0).val = t.val * 5000 + (j 0).val := by
    show win4_8.index t (0 : Fin 2) * 5000 + 1 * (j 0).val = _; omega
  have h1 : ((((cfg4.win 8).blk t).view.emb j) 1).val = (j 1).val := by
    show win4_8.index t (1 : Fin 2) * 64 + 1 * (j 1).val = _; omega
  unfold affineRow
  exact congrArg₂ (· + ·) (dense_blk V c t (X4 V c) (iblk4 V c 4 t) (whole_read4 V c t) j _ h0 h1)
    (bias_blk (X5 V c) (iblk4 V c 5 t) (whole_read5 V c t) j _ h1)

/-- An index of output window 8's array lies in point t's block iff each coordinate lies in the block's range. -/
theorem mem_blk8 (t : Fin cfg4.N) (i : S100000x64.Idx) :
    i ∈ ((cfg4.win 8).blk t).view.set ↔ ∀ a : Fin 2, win4_8.index t a * S5000x64.size a ≤ (i a).val ∧ (i a).val < win4_8.index t a * S5000x64.size a + S5000x64.size a := by
  show i ∈ ((View.whole main_v39_2).slice (win4_8.rect t)).set ↔ _
  rw [View.set_slice_whole, Rect.mem_set_unit]
  exact Iff.rfl

/-- Row r of output window 8's array lies in the block of point r / 5000: the twenty blocks tile the array. -/
theorem cover8 (i : S100000x64.Idx) : ∃ t : Fin cfg4.N, (cfg4.win 8).flush t = true ∧ i ∈ ((cfg4.win 8).blk t).view.set := by
  have hi0 : (i 0).val < 100000 := (i 0).isLt
  have hi1 : (i 1).val < 64 := (i 1).isLt
  have hN : cfg4.N = 20 := N_4
  let t : Fin cfg4.N := ⟨(i 0).val / 5000, by rw [hN]; omega⟩
  obtain ⟨-, -, -, -, -, -, -, -, -, -, -, -, e60, e61, e70, e71, e80, e81⟩ := idx_facts t
  refine ⟨t, flush4_8 t, ?_⟩
  rw [mem_blk8]
  intro a
  match a with
  | ⟨0, _⟩ => show win4_8.index t (0 : Fin 2) * 5000 ≤ (i 0).val ∧ (i 0).val < win4_8.index t (0 : Fin 2) * 5000 + 5000; rw [e80]; show (i 0).val / 5000 * 5000 ≤ (i 0).val ∧ (i 0).val < (i 0).val / 5000 * 5000 + 5000; omega
  | ⟨1, _⟩ => show win4_8.index t (1 : Fin 2) * 64 ≤ (i 1).val ∧ (i 1).val < win4_8.index t (1 : Fin 2) * 64 + 64; rw [e81]; omega

/-- The third: x · w3 + b3. -/
theorem val8 (c : Dev nD) :
    ((dat4 (F := Ideal) V c).arrAt 8 cfg4.N : Arr2 100000 64)
      = affineRow (V c main_v26 : Arr2 100000 64) (V c main_v34 : Arr2 64 64) (V c main_v38 : Arr2 1 64) :=
  (dat4 (F := Ideal) V c).arrAt_eq_of_cover 8 _ (fun t _ => flushed8_eq V c t) (cover8)

end Cert.KernelIdeal.Reg4

end
-- ==== Proof.Reg5.lean ====
/-
  Region 5 (the messages): its output array after the run is, on each edge, the difference of the two gathered
  rows scaled by that edge's weight, the weights a one-column array, as the region finds the three arrays.
  Point t reads block t of each input (rows 8000 t … 8000 t + 7999) and writes block t of the output; the two
  hundred blocks tile the array.
-/
import proofs.«421567_j10007273799859_2_alg».proof.Proof.Gen.KernelIdeal.Frame
import proofs.«421567_j10007273799859_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Reg5

open Idealize.ShloMosaic Idealize.ShloMosaic.TcCoe Idealize.ShloMosaic.ValueIdx
open Idealize.ShloMosaic.Pipeline (Dat Cfg Window)
open Cert.KernelIdeal Cert.KernelIdeal.Gen Cert.Spec

variable (V : (c : Dev nD) → (b : Ref sig .tc) → Buf (Elt Ideal) ((c : Thread nD τ).loc b))

/-- The three input arrays as the region finds them, at their literal type. -/
abbrev X0 (c : Dev nD) : Arr2 1600000 64 := V c main_v40
abbrev X1 (c : Dev nD) : Arr2 1600000 64 := V c main_v41
abbrev X2 (c : Dev nD) : Arr2 1600000 1 := V c main_v42

theorem hz : (![0, 0] : Fin 2 → Nat) = fun _ => 0 := funext fun a => by fin_cases a <;> rfl

/-- The one-column block spread along the rows: at an entry it is the column's value on that row. -/
theorem spread_eq (x2 : Vec Ideal S8000x1 .f32) (j : S8000x64.Idx) :
    broadcastTo S8000x64 x2 broadcasts_S8000x1_S8000x64 j = x2 (ix2 (j 0) (0 : Fin 1)) := by
  refine broadcastTo_apply x2 broadcasts_S8000x1_S8000x64 j (ix2 (j 0) (0 : Fin 1)) ?_
  intro a
  match a with
  | ⟨0, _⟩ => rfl
  | ⟨1, _⟩ => rfl

/-- The body's arithmetic at an entry: the difference of the two blocks' entries times the weight of that row. -/
theorem pay_eq (x0 x1 : Vec Ideal S8000x64 .f32) (x2 : Vec Ideal S8000x1 .f32) (j : S8000x64.Idx) :
    k5_pay1 (F := Ideal) x0 x1 x2 j = (x0 j - x1 j) * x2 (ix2 (j 0) (0 : Fin 1)) := by
  unfold k5_pay1
  simp only [shapeCast_self]
  show (x0 j - x1 j) * broadcastTo S8000x64 x2 broadcasts_S8000x1_S8000x64 j = _
  rw [spread_eq]

/-- The four windows move together: block t of each is rows 8000 t … 8000 t + 7999, all of its columns. -/
theorem idx_facts : ∀ t : Fin cfg5.N, win5_0.index t (0 : Fin 2) = win5_3.index t (0 : Fin 2)
    ∧ win5_0.index t (1 : Fin 2) = win5_3.index t (1 : Fin 2)
    ∧ win5_1.index t (0 : Fin 2) = win5_3.index t (0 : Fin 2)
    ∧ win5_1.index t (1 : Fin 2) = win5_3.index t (1 : Fin 2)
    ∧ win5_2.index t (0 : Fin 2) = win5_3.index t (0 : Fin 2)
    ∧ win5_2.index t (1 : Fin 2) = 0
    ∧ win5_3.index t (0 : Fin 2) = t.val ∧ win5_3.index t (1 : Fin 2) = 0 :=
  (by decide +kernel : ∀ t : Fin grid5.N, _)

/-- What point t writes back is block t of the whole-array messages of the three input arrays. -/
theorem flushed_eq (c : Dev nD) (t : Fin cfg5.N) :
    (dat5 (F := Ideal) V c).flushed 3 t = ((cfg5.win 3).blk t).view.read (Elt Ideal) (msgCol (X0 V c) (X1 V c) (X2 V c)) := by
  show (cfg5.win 3).cut (grid5.coords t) ((dat5 (F := Ideal) V c).after 3 t) = _
  rw [after5_3]
  unfold out5_3
  rw [View.canon_unit_zero hz]
  simp only [View.ld_unit_zero (S := S8000x64) hz, View.ld_unit_zero (S := S8000x1) hz]
  obtain ⟨e0, e1, e2, e3, e4, e5, e6, e7⟩ := idx_facts t
  funext j
  show k5_pay1 (F := Ideal) (iblk5 V c 0 t) (iblk5 V c 1 t) (iblk5 V c 2 t) j
     = msgCol (X0 V c) (X1 V c) (X2 V c) (((cfg5.win 3).blk t).view.emb j)
  refine (pay_eq (iblk5 V c 0 t) (iblk5 V c 1 t) (iblk5 V c 2 t) j).trans ?_
  show (X0 V c (((cfg5.win 0).blk t).view.emb j) - X1 V c (((cfg5.win 1).blk t).view.emb j))
         * X2 V c (((cfg5.win 2).blk t).view.emb (ix2 (j 0) (0 : Fin 1)))
     = (X0 V c (((cfg5.win 3).blk t).view.emb j) - X1 V c (((cfg5.win 3).blk t).view.emb j))
         * X2 V c (ix2 ((((cfg5.win 3).blk t).view.emb j) 0) (0 : Fin 1))
  have h0 : ((cfg5.win 0).blk t).view.emb j = ((cfg5.win 3).blk t).view.emb j := by
    funext a; apply Fin.ext
    match a with
    | ⟨0, _⟩ => show win5_0.index t (0 : Fin 2) * 8000 + 1 * (j 0).val = win5_3.index t (0 : Fin 2) * 8000 + 1 * (j 0).val; omega
    | ⟨1, _⟩ => show win5_0.index t (1 : Fin 2) * 64 + 1 * (j 1).val = win5_3.index t (1 : Fin 2) * 64 + 1 * (j 1).val; omega
  have h1 : ((cfg5.win 1).blk t).view.emb j = ((cfg5.win 3).blk t).view.emb j := by
    funext a; apply Fin.ext
    match a with
    | ⟨0, _⟩ => show win5_1.index t (0 : Fin 2) * 8000 + 1 * (j 0).val = win5_3.index t (0 : Fin 2) * 8000 + 1 * (j 0).val; omega
    | ⟨1, _⟩ => show win5_1.index t (1 : Fin 2) * 64 + 1 * (j 1).val = win5_3.index t (1 : Fin 2) * 64 + 1 * (j 1).val; omega
  have h2 : ((cfg5.win 2).blk t).view.emb (ix2 (j 0) (0 : Fin 1)) = ix2 ((((cfg5.win 3).blk t).view.emb j) 0) (0 : Fin 1) := by
    funext a; apply Fin.ext
    match a with
    | ⟨0, _⟩ => show win5_2.index t (0 : Fin 2) * 8000 + 1 * (j 0).val = win5_3.index t (0 : Fin 2) * 8000 + 1 * (j 0).val; omega
    | ⟨1, _⟩ => show win5_2.index t (1 : Fin 2) * 1 + 1 * 0 = 0; omega
  rw [h0, h1, h2]
  rfl

/-- An index of the output array lies in point t's block iff each coordinate lies in the block's range. -/
theorem mem_blk (t : Fin cfg5.N) (i : S1600000x64.Idx) :
    i ∈ ((cfg5.win 3).blk t).view.set ↔ ∀ a : Fin 2, win5_3.index t a * S8000x64.size a ≤ (i a).val ∧ (i a).val < win5_3.index t a * S8000x64.size a + S8000x64.size a := by
  show i ∈ ((View.whole main_v43).slice (win5_3.rect t)).set ↔ _
  rw [View.set_slice_whole, Rect.mem_set_unit]
  exact Iff.rfl

/-- Row r of the output lies in the block of point r / 8000: the two hundred blocks tile the array. -/
theorem cover (i : S1600000x64.Idx) : ∃ t : Fin cfg5.N, (cfg5.win 3).flush t = true ∧ i ∈ ((cfg5.win 3).blk t).view.set := by
  have hi0 : (i 0).val < 1600000 := (i 0).isLt
  have hi1 : (i 1).val < 64 := (i 1).isLt
  have hN : cfg5.N = 200 := N_5
  let t : Fin cfg5.N := ⟨(i 0).val / 8000, by rw [hN]; omega⟩
  obtain ⟨e0, e1, e2, e3, e4, e5, e6, e7⟩ := idx_facts t
  refine ⟨t, flush5_3 t, ?_⟩
  rw [mem_blk]
  intro a
  match a with
  | ⟨0, _⟩ => show win5_3.index t (0 : Fin 2) * 8000 ≤ (i 0).val ∧ (i 0).val < win5_3.index t (0 : Fin 2) * 8000 + 8000; rw [e6]; show (i 0).val / 8000 * 8000 ≤ (i 0).val ∧ (i 0).val < (i 0).val / 8000 * 8000 + 8000; omega
  | ⟨1, _⟩ => show win5_3.index t (1 : Fin 2) * 64 ≤ (i 1).val ∧ (i 1).val < win5_3.index t (1 : Fin 2) * 64 + 64; rw [e7]; omega

/-- The output array after the region. -/
theorem val (c : Dev nD) :
    ((dat5 (F := Ideal) V c).arrAt 3 cfg5.N : Arr2 1600000 64)
      = msgCol (V c main_v40 : Arr2 1600000 64) (V c main_v41 : Arr2 1600000 64) (V c main_v42 : Arr2 1600000 1) :=
  (dat5 (F := Ideal) V c).arrAt_eq_of_cover 3 _ (fun t _ => flushed_eq V c t) (cover)

end Cert.KernelIdeal.Reg5

end
-- ==== Proof.Reg6.lean ====
/-
  Region 6 (the node update): its output array after the run is, entry by entry, the positive part of the sum of
  its two input arrays as the region finds them.  Point t reads block t of each input (rows 5000 t … 5000 t + 4999)
  and writes block t of the output; the twenty blocks tile the array.
-/
import proofs.«421567_j10007273799859_2_alg».proof.Proof.Gen.KernelIdeal.Frame
import proofs.«421567_j10007273799859_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Reg6

open Idealize.ShloMosaic Idealize.ShloMosaic.TcCoe Idealize.ShloMosaic.ValueIdx
open Idealize.ShloMosaic.Pipeline (Dat Cfg Window)
open Cert.KernelIdeal Cert.KernelIdeal.Gen Cert.Spec

variable (V : (c : Dev nD) → (b : Ref sig .tc) → Buf (Elt Ideal) ((c : Thread nD τ).loc b))

/-- The two input arrays as the region finds them, at their literal type. -/
abbrev X0 (c : Dev nD) : Arr2 100000 64 := V c main_v46
abbrev X1 (c : Dev nD) : Arr2 100000 64 := V c main_v39_2

theorem hz : (![0, 0] : Fin 2 → Nat) = fun _ => 0 := funext fun a => by fin_cases a <;> rfl

/-- The body's arithmetic at an entry: the positive part of the sum of the two blocks' entries. -/
theorem pay_eq (x0 x1 : Vec Ideal S5000x64 .f32) (j : S5000x64.Idx) :
    k6_pay1 (F := Ideal) x0 x1 j = max (x0 j + x1 j) 0 := by
  unfold k6_pay1
  simp only [shapeCast_self]
  show max (x0 j + x1 j) (Ideal.ofBits .f32 0x00000000#32) = _
  rw [Ideal.ofBits_zero_f32]

/-- The three windows move together: block t of each is rows 5000 t … 5000 t + 4999, all 64 columns. -/
theorem idx_facts : ∀ t : Fin cfg6.N, win6_0.index t (0 : Fin 2) = win6_2.index t (0 : Fin 2)
    ∧ win6_0.index t (1 : Fin 2) = win6_2.index t (1 : Fin 2)
    ∧ win6_1.index t (0 : Fin 2) = win6_2.index t (0 : Fin 2)
    ∧ win6_1.index t (1 : Fin 2) = win6_2.index t (1 : Fin 2)
    ∧ win6_2.index t (0 : Fin 2) = t.val ∧ win6_2.index t (1 : Fin 2) = 0 :=
  (by decide +kernel : ∀ t : Fin grid6.N, _)

/-- What point t writes back is block t of the whole-array update of the two input arrays. -/
theorem flushed_eq (c : Dev nD) (t : Fin cfg6.N) :
    (dat6 (F := Ideal) V c).flushed 2 t = ((cfg6.win 2).blk t).view.read (Elt Ideal) (combine (X0 V c) (X1 V c)) := by
  show (cfg6.win 2).cut (grid6.coords t) ((dat6 (F := Ideal) V c).after 2 t) = _
  rw [after6_2]
  unfold out6_2
  rw [View.canon_unit_zero hz]
  simp only [View.ld_unit_zero (S := S5000x64) hz]
  obtain ⟨e0, e1, e2, e3, e4, e5⟩ := idx_facts t
  funext j
  show k6_pay1 (F := Ideal) (iblk6 V c 0 t) (iblk6 V c 1 t) j = combine (X0 V c) (X1 V c) (((cfg6.win 2).blk t).view.emb j)
  refine (pay_eq (iblk6 V c 0 t) (iblk6 V c 1 t) j).trans ?_
  show max (X0 V c (((cfg6.win 0).blk t).view.emb j) + X1 V c (((cfg6.win 1).blk t).view.emb j)) 0
     = max (X0 V c (((cfg6.win 2).blk t).view.emb j) + X1 V c (((cfg6.win 2).blk t).view.emb j)) 0
  have h0 : ((cfg6.win 0).blk t).view.emb j = ((cfg6.win 2).blk t).view.emb j := by
    funext a; apply Fin.ext
    match a with
    | ⟨0, _⟩ => show win6_0.index t (0 : Fin 2) * 5000 + 1 * (j 0).val = win6_2.index t (0 : Fin 2) * 5000 + 1 * (j 0).val; omega
    | ⟨1, _⟩ => show win6_0.index t (1 : Fin 2) * 64 + 1 * (j 1).val = win6_2.index t (1 : Fin 2) * 64 + 1 * (j 1).val; omega
  have h1 : ((cfg6.win 1).blk t).view.emb j = ((cfg6.win 2).blk t).view.emb j := by
    funext a; apply Fin.ext
    match a with
    | ⟨0, _⟩ => show win6_1.index t (0 : Fin 2) * 5000 + 1 * (j 0).val = win6_2.index t (0 : Fin 2) * 5000 + 1 * (j 0).val; omega
    | ⟨1, _⟩ => show win6_1.index t (1 : Fin 2) * 64 + 1 * (j 1).val = win6_2.index t (1 : Fin 2) * 64 + 1 * (j 1).val; omega
  rw [h0, h1]

/-- An index of the output array lies in point t's block iff each coordinate lies in the block's range. -/
theorem mem_blk (t : Fin cfg6.N) (i : S100000x64.Idx) :
    i ∈ ((cfg6.win 2).blk t).view.set ↔ ∀ a : Fin 2, win6_2.index t a * S5000x64.size a ≤ (i a).val ∧ (i a).val < win6_2.index t a * S5000x64.size a + S5000x64.size a := by
  show i ∈ ((View.whole main_v47).slice (win6_2.rect t)).set ↔ _
  rw [View.set_slice_whole, Rect.mem_set_unit]
  exact Iff.rfl

/-- Row r of the output lies in the block of point r / 5000: the twenty blocks tile the array. -/
theorem cover (i : S100000x64.Idx) : ∃ t : Fin cfg6.N, (cfg6.win 2).flush t = true ∧ i ∈ ((cfg6.win 2).blk t).view.set := by
  have hi0 : (i 0).val < 100000 := (i 0).isLt
  have hi1 : (i 1).val < 64 := (i 1).isLt
  have hN : cfg6.N = 20 := N_6
  let t : Fin cfg6.N := ⟨(i 0).val / 5000, by rw [hN]; omega⟩
  obtain ⟨e0, e1, e2, e3, e4, e5⟩ := idx_facts t
  refine ⟨t, flush6_2 t, ?_⟩
  rw [mem_blk]
  intro a
  match a with
  | ⟨0, _⟩ => show win6_2.index t (0 : Fin 2) * 5000 ≤ (i 0).val ∧ (i 0).val < win6_2.index t (0 : Fin 2) * 5000 + 5000; rw [e4]; show (i 0).val / 5000 * 5000 ≤ (i 0).val ∧ (i 0).val < (i 0).val / 5000 * 5000 + 5000; omega
  | ⟨1, _⟩ => show win6_2.index t (1 : Fin 2) * 64 ≤ (i 1).val ∧ (i 1).val < win6_2.index t (1 : Fin 2) * 64 + 64; rw [e5]; omega

/-- The output array after the region: the node update of the two input arrays as the region finds them. -/
theorem val (c : Dev nD) :
    ((dat6 (F := Ideal) V c).arrAt 2 cfg6.N : Arr2 100000 64) = combine (V c main_v46 : Arr2 100000 64) (V c main_v39_2 : Arr2 100000 64) :=
  (dat6 (F := Ideal) V c).arrAt_eq_of_cover 2 _ (fun t _ => flushed_eq V c t) (cover)

end Cert.KernelIdeal.Reg6

end
-- ==== Proof.FoldL1.lean ====
/-
  (In layer 0 the facts about the node features and their dense layers do not use the hypothesis on the edge list;
  they take it so that every fact has the shape the same fact has in a later layer, where the features do depend on it.)
  Layer 1: what the kernel program holds after its segments 11 to 18, given the node features h at boundary 10.
  Segment 11 cuts the layer's weight matrices and bias rows out of the stacked arguments; region 4 leaves the three
  dense layers a, b, c of h; segments 13 and 14 gather the rows of a at the source nodes and of b at the target nodes
  (for node numbers in range the out-of-range fill never happens); segment 15 lays the edge weights out as a column;
  region 5 leaves the messages; segment 17 adds them into their target nodes; region 6 leaves the updated features.
-/
import proofs.«421567_j10007273799859_2_alg».proof.Proof.FoldL0
import proofs.«421567_j10007273799859_2_alg».proof.Proof.Reg4
import proofs.«421567_j10007273799859_2_alg».proof.Proof.Reg5
import proofs.«421567_j10007273799859_2_alg».proof.Proof.Reg6
import proofs.«421567_j10007273799859_2_alg».proof.Proof.Take
import proofs.«421567_j10007273799859_2_alg».proof.Proof.Edges
import Idealize.ShloMosaic.Lib.Pipeline.Value
import Idealize.ShloMosaic.Lib.ValueIdx
import Idealize.ShloMosaic.PureOps.Ideal.Laws

set_option maxRecDepth 16384

noncomputable section

namespace Cert.KernelIdeal.Fold

open Idealize.ShloMosaic Idealize.ShloMosaic.TcCoe Idealize.ShloMosaic.ValueIdx Idealize.ShloMosaic.StableHlo
open Cert.KernelIdeal Cert.KernelIdeal.Gen Cert.KernelIdeal.Host Cert.KernelIdeal.Stage Cert.Spec

variable (m : (ℓ : Loc nD τ sig) → Buf (Elt Ideal) ℓ) (ρ : Dev nD → PrngReg) (c : Dev nD)

/-! ## After segment 11: the layer's weights and biases -/

theorem at11_h (hidx : EdgesInRange m c) : (W11 m ρ c (Proc.devRef .tc main_v26) : Arr2 100000 64) = h1 m c :=
  (keep11 m ρ c (b := main_v26) (by decide)).trans (at10_h m ρ c hidx)
theorem at11_src : (W11 m ρ c (Proc.devRef .tc main_v1) : IVec S1600000 32) = src (A1 m c) :=
  (keep11 m ρ c (b := main_v1) (by decide)).trans (at10_src m ρ c)
theorem at11_dst : (W11 m ρ c (Proc.devRef .tc main_v3) : IVec S1600000 32) = dst (A1 m c) :=
  (keep11 m ρ c (b := main_v3) (by decide)).trans (at10_dst m ρ c)

theorem at11_w1 : (W11 m ρ c (Proc.devRef .tc main_v28) : Arr2 64 64) = mat1 (A6 m c) := by
  show StableHlo.after hostOps4 (W10 m ρ c) (Proc.devRef .tc main_v28) = _
  after_results
  rw [show W10 m ρ c (Proc.devRef .tc main_arg6) = m ((c : Thread nD τ).loc main_arg6) from argAt10 m ρ c (b := main_arg6) (by decide)]
  rfl

theorem at11_w2 : (W11 m ρ c (Proc.devRef .tc main_v32) : Arr2 64 64) = mat1 (A8 m c) := by
  show StableHlo.after hostOps4 (W10 m ρ c) (Proc.devRef .tc main_v32) = _
  after_results
  rw [show W10 m ρ c (Proc.devRef .tc main_arg8) = m ((c : Thread nD τ).loc main_arg8) from argAt10 m ρ c (b := main_arg8) (by decide)]
  rfl

theorem at11_w3 : (W11 m ρ c (Proc.devRef .tc main_v34) : Arr2 64 64) = mat1 (A9 m c) := by
  show StableHlo.after hostOps4 (W10 m ρ c) (Proc.devRef .tc main_v34) = _
  after_results
  rw [show W10 m ρ c (Proc.devRef .tc main_arg9) = m ((c : Thread nD τ).loc main_arg9) from argAt10 m ρ c (b := main_arg9) (by decide)]
  rfl

theorem at11_b1 : (W11 m ρ c (Proc.devRef .tc main_v37) : Arr2 1 64) = shapeCast S1x64 (vec1 (A7 m c)) shapeCasts_S64_S1x64 := by
  show StableHlo.after hostOps4 (W10 m ρ c) (Proc.devRef .tc main_v37) = _
  after_results
  rw [show W10 m ρ c (Proc.devRef .tc main_arg7) = m ((c : Thread nD τ).loc main_arg7) from argAt10 m ρ c (b := main_arg7) (by decide)]
  rfl

theorem at11_b3 : (W11 m ρ c (Proc.devRef .tc main_v38) : Arr2 1 64) = shapeCast S1x64 (vec1 (A10 m c)) shapeCasts_S64_S1x64 := by
  show StableHlo.after hostOps4 (W10 m ρ c) (Proc.devRef .tc main_v38) = _
  after_results
  rw [show W10 m ρ c (Proc.devRef .tc main_arg10) = m ((c : Thread nD τ).loc main_arg10) from argAt10 m ρ c (b := main_arg10) (by decide)]
  rfl

/-! ## After segment 12: the three dense layers of the node features -/

theorem at12_a (hidx : EdgesInRange m c) : (W12 m ρ c (Proc.devRef .tc main_v39_0) : Arr2 100000 64) = a1 m c := by
  refine (W12_arr m ρ c 6).trans ((Reg4.val6 (V11 m ρ) c).trans ?_)
  have e0 : (V11 m ρ c main_v26 : Arr2 100000 64) = h1 m c := at11_h m ρ c hidx
  have e1 : (V11 m ρ c main_v28 : Arr2 64 64) = mat1 (A6 m c) := at11_w1 m ρ c
  have e2 : (V11 m ρ c main_v37 : Arr2 1 64) = shapeCast S1x64 (vec1 (A7 m c)) shapeCasts_S64_S1x64 := at11_b1 m ρ c
  rw [e0, e1, e2]
  exact affineRow_eq_affine _ _ _ _ (row_read (vec1 (A7 m c)) shapeCasts_S64_S1x64)

theorem at12_b (hidx : EdgesInRange m c) : (W12 m ρ c (Proc.devRef .tc main_v39_1) : Arr2 100000 64) = b1 m c := by
  refine (W12_arr m ρ c 7).trans ((Reg4.val7 (V11 m ρ) c).trans ?_)
  have e0 : (V11 m ρ c main_v26 : Arr2 100000 64) = h1 m c := at11_h m ρ c hidx
  have e1 : (V11 m ρ c main_v32 : Arr2 64 64) = mat1 (A8 m c) := at11_w2 m ρ c
  rw [e0, e1]
  rfl

theorem at12_c (hidx : EdgesInRange m c) : (W12 m ρ c (Proc.devRef .tc main_v39_2) : Arr2 100000 64) = c1 m c := by
  refine (W12_arr m ρ c 8).trans ((Reg4.val8 (V11 m ρ) c).trans ?_)
  have e0 : (V11 m ρ c main_v26 : Arr2 100000 64) = h1 m c := at11_h m ρ c hidx
  have e1 : (V11 m ρ c main_v34 : Arr2 64 64) = mat1 (A9 m c) := at11_w3 m ρ c
  have e2 : (V11 m ρ c main_v38 : Arr2 1 64) = shapeCast S1x64 (vec1 (A10 m c)) shapeCasts_S64_S1x64 := at11_b3 m ρ c
  rw [e0, e1, e2]
  exact affineRow_eq_affine _ _ _ _ (row_read (vec1 (A10 m c)) shapeCasts_S64_S1x64)

theorem at12_src : (W12 m ρ c (Proc.devRef .tc main_v1) : IVec S1600000 32) = src (A1 m c) :=
  (keep12 m ρ c (b := main_v1) (by decide)).trans (at11_src m ρ c)
theorem at12_dst : (W12 m ρ c (Proc.devRef .tc main_v3) : IVec S1600000 32) = dst (A1 m c) :=
  (keep12 m ρ c (b := main_v3) (by decide)).trans (at11_dst m ρ c)

/-! ## After segment 13: the rows of a at the source nodes -/

set_option maxHeartbeats 1000000 in
theorem at13_as (hidx : EdgesInRange m c) : (W13 m ρ c (Proc.devRef .tc main_v40) : Arr2 1600000 64) = as1 m c := by
  show StableHlo.after hostOps5 (W12 m ρ c) (Proc.devRef .tc main_v40) = _
  after_results
  simp only [TRef.toBuf, TRef.ofBuf, HostCalls.cast_round]
  refine eq_of_heq ((cast_heq _ _).trans (heq_of_eq ?_))
  show select (broadcastInDim S1600000x64 ![0] bcast_S1600000_S1600000x64_0
        (Cert.Take.inRange bcast_S_S1600000 bcast_S1600000_S1600000x1_0 bcast_S_S1600000x1 bcast_S1_S1x1_1 bcast_S1x1_S1600000x1_0_1
          reducesTo_S1600000x1_S1600000_d1 h_S_ (W12 m ρ c (Proc.devRef .tc main_v1) : IVec S1600000 32)))
      (gatherRows (W12 m ρ c (Proc.devRef .tc main_v1) : IVec S1600000 32) (W12 m ρ c (Proc.devRef .tc main_v39_0) : Arr2 100000 64))
      (broadcastInDim S1600000x64 ![] bcast_S_S1600000x64 (constant (F := Ideal) S_ .f32 0x7FC00000#32)) = as1 m c
  rw [at12_src m ρ c, at12_a m ρ c hidx]
  exact Cert.Take.fill_eq _ _ _ _ _ _ _ _ _ (src (A1 m c)) (Edges.src_inRange m c hidx) _ _

theorem at13_b (hidx : EdgesInRange m c) : (W13 m ρ c (Proc.devRef .tc main_v39_1) : Arr2 100000 64) = b1 m c :=
  (keep13 m ρ c (b := main_v39_1) (by decide)).trans (at12_b m ρ c hidx)
theorem at13_c (hidx : EdgesInRange m c) : (W13 m ρ c (Proc.devRef .tc main_v39_2) : Arr2 100000 64) = c1 m c :=
  (keep13 m ρ c (b := main_v39_2) (by decide)).trans (at12_c m ρ c hidx)
theorem at13_src : (W13 m ρ c (Proc.devRef .tc main_v1) : IVec S1600000 32) = src (A1 m c) :=
  (keep13 m ρ c (b := main_v1) (by decide)).trans (at12_src m ρ c)
theorem at13_dst : (W13 m ρ c (Proc.devRef .tc main_v3) : IVec S1600000 32) = dst (A1 m c) :=
  (keep13 m ρ c (b := main_v3) (by decide)).trans (at12_dst m ρ c)

/-! ## After segment 14: the rows of b at the target nodes -/

set_option maxHeartbeats 1000000 in
theorem at14_bd (hidx : EdgesInRange m c) : (W14 m ρ c (Proc.devRef .tc main_v41) : Arr2 1600000 64) = bd1 m c := by
  show StableHlo.after hostOps5_1 (W13 m ρ c) (Proc.devRef .tc main_v41) = _
  after_results
  simp only [TRef.toBuf, TRef.ofBuf, HostCalls.cast_round]
  refine eq_of_heq ((cast_heq _ _).trans (heq_of_eq ?_))
  show select (broadcastInDim S1600000x64 ![0] bcast_S1600000_S1600000x64_0
        (Cert.Take.inRange bcast_S_S1600000 bcast_S1600000_S1600000x1_0 bcast_S_S1600000x1 bcast_S1_S1x1_1 bcast_S1x1_S1600000x1_0_1
          reducesTo_S1600000x1_S1600000_d1 h_S_ (W12 m ρ c (Proc.devRef .tc main_v3) : IVec S1600000 32)))
      (gatherRows (W12 m ρ c (Proc.devRef .tc main_v3) : IVec S1600000 32) (W12 m ρ c (Proc.devRef .tc main_v39_1) : Arr2 100000 64))
      (broadcastInDim S1600000x64 ![] bcast_S_S1600000x64 (constant (F := Ideal) S_ .f32 0x7FC00000#32)) = bd1 m c
  rw [at12_dst m ρ c, at12_b m ρ c hidx]
  exact Cert.Take.fill_eq _ _ _ _ _ _ _ _ _ (dst (A1 m c)) (Edges.dst_inRange m c hidx) _ _

theorem at14_as (hidx : EdgesInRange m c) : (W14 m ρ c (Proc.devRef .tc main_v40) : Arr2 1600000 64) = as1 m c :=
  (keep14 m ρ c (b := main_v40) (by decide)).trans (at13_as m ρ c hidx)
theorem at14_c (hidx : EdgesInRange m c) : (W14 m ρ c (Proc.devRef .tc main_v39_2) : Arr2 100000 64) = c1 m c :=
  (keep14 m ρ c (b := main_v39_2) (by decide)).trans (at13_c m ρ c hidx)
theorem at14_src : (W14 m ρ c (Proc.devRef .tc main_v1) : IVec S1600000 32) = src (A1 m c) :=
  (keep14 m ρ c (b := main_v1) (by decide)).trans (at13_src m ρ c)
theorem at14_dst : (W14 m ρ c (Proc.devRef .tc main_v3) : IVec S1600000 32) = dst (A1 m c) :=
  (keep14 m ρ c (b := main_v3) (by decide)).trans (at13_dst m ρ c)

/-! ## After segment 15: the edge weights as a column -/

theorem at15_ea : (W15 m ρ c (Proc.devRef .tc main_v42) : Arr2 1600000 1) = shapeCast S1600000x1 (A2 m c) shapeCasts_S1600000_S1600000x1 := by
  show StableHlo.after hostOps5_2 (W14 m ρ c) (Proc.devRef .tc main_v42) = _
  after_results
  rw [show W12 m ρ c (Proc.devRef .tc main_arg2) = m ((c : Thread nD τ).loc main_arg2) from argAt12 m ρ c (b := main_arg2) (by decide)]
  rfl

theorem at15_as (hidx : EdgesInRange m c) : (W15 m ρ c (Proc.devRef .tc main_v40) : Arr2 1600000 64) = as1 m c :=
  (keep15 m ρ c (b := main_v40) (by decide)).trans (at14_as m ρ c hidx)
theorem at15_bd (hidx : EdgesInRange m c) : (W15 m ρ c (Proc.devRef .tc main_v41) : Arr2 1600000 64) = bd1 m c :=
  (keep15 m ρ c (b := main_v41) (by decide)).trans (at14_bd m ρ c hidx)
theorem at15_c (hidx : EdgesInRange m c) : (W15 m ρ c (Proc.devRef .tc main_v39_2) : Arr2 100000 64) = c1 m c :=
  (keep15 m ρ c (b := main_v39_2) (by decide)).trans (at14_c m ρ c hidx)
theorem at15_src : (W15 m ρ c (Proc.devRef .tc main_v1) : IVec S1600000 32) = src (A1 m c) :=
  (keep15 m ρ c (b := main_v1) (by decide)).trans (at14_src m ρ c)
theorem at15_dst : (W15 m ρ c (Proc.devRef .tc main_v3) : IVec S1600000 32) = dst (A1 m c) :=
  (keep15 m ρ c (b := main_v3) (by decide)).trans (at14_dst m ρ c)

/-! ## After segment 16: the messages -/

theorem at16_ms (hidx : EdgesInRange m c) : (W16 m ρ c (Proc.devRef .tc main_v43) : Arr2 1600000 64) = ms1 m c := by
  refine (W16_arr m ρ c 3).trans ((Reg5.val (V15 m ρ) c).trans ?_)
  have e0 : (V15 m ρ c main_v40 : Arr2 1600000 64) = as1 m c := at15_as m ρ c hidx
  have e1 : (V15 m ρ c main_v41 : Arr2 1600000 64) = bd1 m c := at15_bd m ρ c hidx
  have e2 : (V15 m ρ c main_v42 : Arr2 1600000 1) = shapeCast S1600000x1 (A2 m c) shapeCasts_S1600000_S1600000x1 := at15_ea m ρ c
  rw [e0, e1, e2]
  exact msgCol_eq_msg _ _ _ _ (col_read (A2 m c) shapeCasts_S1600000_S1600000x1)

theorem at16_c (hidx : EdgesInRange m c) : (W16 m ρ c (Proc.devRef .tc main_v39_2) : Arr2 100000 64) = c1 m c :=
  (keep16 m ρ c (b := main_v39_2) (by decide)).trans (at15_c m ρ c hidx)
theorem at16_src : (W16 m ρ c (Proc.devRef .tc main_v1) : IVec S1600000 32) = src (A1 m c) :=
  (keep16 m ρ c (b := main_v1) (by decide)).trans (at15_src m ρ c)
theorem at16_dst : (W16 m ρ c (Proc.devRef .tc main_v3) : IVec S1600000 32) = dst (A1 m c) :=
  (keep16 m ρ c (b := main_v3) (by decide)).trans (at15_dst m ρ c)

/-! ## After segment 17: the messages summed into their target nodes -/

theorem at17_ag (hidx : EdgesInRange m c) : (W17 m ρ c (Proc.devRef .tc main_v46) : Arr2 100000 64) = ag1 m c := by
  show StableHlo.after hostOps6 (W16 m ρ c) (Proc.devRef .tc main_v46) = _
  after_results
  rw [show (W16 m ρ c (Proc.devRef .tc main_v3) : IVec S1600000 32) = dst (A1 m c) from at16_dst m ρ c,
    show (W16 m ρ c (Proc.devRef .tc main_v43) : Arr2 1600000 64) = ms1 m c from at16_ms m ρ c hidx]
  rfl

theorem at17_c (hidx : EdgesInRange m c) : (W17 m ρ c (Proc.devRef .tc main_v39_2) : Arr2 100000 64) = c1 m c :=
  (keep17 m ρ c (b := main_v39_2) (by decide)).trans (at16_c m ρ c hidx)
theorem at17_src : (W17 m ρ c (Proc.devRef .tc main_v1) : IVec S1600000 32) = src (A1 m c) :=
  (keep17 m ρ c (b := main_v1) (by decide)).trans (at16_src m ρ c)
theorem at17_dst : (W17 m ρ c (Proc.devRef .tc main_v3) : IVec S1600000 32) = dst (A1 m c) :=
  (keep17 m ρ c (b := main_v3) (by decide)).trans (at16_dst m ρ c)

/-! ## After segment 18: the updated node features -/

theorem at18_h (hidx : EdgesInRange m c) : (W18 m ρ c (Proc.devRef .tc main_v47) : Arr2 100000 64) = h2 m c := by
  refine (W18_arr m ρ c 2).trans ((Reg6.val (V17 m ρ) c).trans ?_)
  have e0 : (V17 m ρ c main_v46 : Arr2 100000 64) = ag1 m c := at17_ag m ρ c hidx
  have e1 : (V17 m ρ c main_v39_2 : Arr2 100000 64) = c1 m c := at17_c m ρ c hidx
  rw [e0, e1]
  rfl

theorem at18_src : (W18 m ρ c (Proc.devRef .tc main_v1) : IVec S1600000 32) = src (A1 m c) :=
  (keep18 m ρ c (b := main_v1) (by decide)).trans (at17_src m ρ c)
theorem at18_dst : (W18 m ρ c (Proc.devRef .tc main_v3) : IVec S1600000 32) = dst (A1 m c) :=
  (keep18 m ρ c (b := main_v3) (by decide)).trans (at17_dst m ρ c)

end Cert.KernelIdeal.Fold

end
-- ==== Proof.Reg7.lean ====
/-
  Region 7 (the head): its output array after the run is the two dense layers, a positive part between them, of the
  pooled graph features, as the region finds its five arrays; the biases are one-row arrays.
-/
import proofs.«421567_j10007273799859_2_alg».proof.Proof.Gen.KernelIdeal.Frame
import proofs.«421567_j10007273799859_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Reg7

open Idealize.ShloMosaic Idealize.ShloMosaic.TcCoe Idealize.ShloMosaic.ValueIdx
open Idealize.ShloMosaic.Pipeline (Dat Cfg Window)
open Cert.KernelIdeal Cert.KernelIdeal.Gen Cert.Spec
open Cert.Lib

variable (V : (c : Dev nD) → (b : Ref sig .tc) → Buf (Elt Ideal) ((c : Thread nD τ).loc b))

theorem hz : (![0, 0] : Fin 2 → Nat) = fun _ => 0 := funext fun a => by fin_cases a <;> rfl

/-- A one-row array broadcast down the rows reads, at (p, q), the row's entry q. -/
theorem bias_apply {M N : Nat} (b : FVec Ideal ⟨2, ![1, N]⟩ .f32) (hb : (⟨2, ![1, N]⟩ : Shape).Broadcasts ⟨2, ![M, N]⟩)
    (j : (⟨2, ![M, N]⟩ : Shape).Idx) : broadcastTo ⟨2, ![M, N]⟩ b hb j = b (ix2 (0 : Fin 1) (j 1)) := by
  refine broadcastTo_apply b hb j (ix2 (0 : Fin 1) (j 1)) ?_
  intro a
  match a with
  | ⟨0, _⟩ => rfl
  | ⟨1, _⟩ =>
    show (j 1).val = if N = 1 then 0 else (j 1).val
    have := idx2_lt1 j
    split
    · omega
    · rfl

/-- A dense layer as the body spells it — the product of the two operands, each passed through the narrower format,
    into a zero accumulator, plus the bias row broadcast down the rows — is the dense layer. -/
theorem layer_eq {M K N : Nat} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1]) (hlb : d.lhsBatch = []) (hrb : d.rhsBatch = [])
    (x : FVec Ideal ⟨2, ![M, K]⟩ .f32) (w : FVec Ideal ⟨2, ![K, N]⟩ .f32) (b : FVec Ideal ⟨2, ![1, N]⟩ .f32)
    (hb : (⟨2, ![1, N]⟩ : Shape).Broadcasts ⟨2, ![M, N]⟩) (h₁ h₂ : FTy.bf16.bits < FTy.f32.bits) :
    addf (matmul d none (truncf .bf16 x h₁ : FVec Ideal ⟨2, ![M, K]⟩ .bf16) (truncf .bf16 w h₂ : FVec Ideal ⟨2, ![K, N]⟩ .bf16)
        (constant (F := Ideal) ⟨2, ![M, N]⟩ .f32 0x00000000#32)) (broadcastTo ⟨2, ![M, N]⟩ b hb)
      = affineRow x w b := by
  funext j
  show FloatOps.matmul d none (truncf .bf16 x h₁ : FVec Ideal ⟨2, ![M, K]⟩ .bf16) (truncf .bf16 w h₂ : FVec Ideal ⟨2, ![K, N]⟩ .bf16)
        (constant (F := Ideal) ⟨2, ![M, N]⟩ .f32 0x00000000#32) j + broadcastTo ⟨2, ![M, N]⟩ b hb j = dense x w j + b (ix2 (0 : Fin 1) (j 1))
  rw [matmul_truncf_eq_dense d hlc hrc hln hrn hlb hrb none x w h₁ h₂, bias_apply b hb j]

/-- The body's arithmetic: two dense layers with a positive part between them. -/
theorem pay_eq (x0 : Vec Ideal S1000x64 .f32) (x1 : Vec Ideal S64x128 .f32) (x2 : Vec Ideal S1x128 .f32)
    (x3 : Vec Ideal S128x3 .f32) (x4 : Vec Ideal S1x3 .f32) :
    k7_pay1 (F := Ideal) x0 x1 x2 x3 x4 = headRow x0 x1 x2 x3 x4 := by
  unfold k7_pay1
  simp only [shapeCast_self]
  rw [layer_eq dot_S1000x64_S64x128_S1000x128_1_0_0_1_n_n rfl rfl rfl rfl rfl rfl x0 x1 x2]
  have e2 : maximumf (affineRow x0 x1 x2) (broadcast S1000x128 (Scalar.ofBits (F := Ideal) .f32 0x00000000#32))
      = relu (affineRow x0 x1 x2) := by
    funext i
    show max (affineRow x0 x1 x2 i) (Ideal.ofBits .f32 0x00000000#32) = max (affineRow x0 x1 x2 i) 0
    rw [Ideal.ofBits_zero_f32]
  rw [e2]
  exact layer_eq dot_S1000x128_S128x3_S1000x3_1_0_0_1_n_n rfl rfl rfl rfl rfl rfl _ x3 x4 _ _ _

/-- The five input arrays as the region finds them, at their literal types. -/
abbrev X0 (c : Dev nD) : Arr2 1000 64 := V c main_v59
abbrev X1 (c : Dev nD) : Arr2 64 128 := V c main_arg11
abbrev X2 (c : Dev nD) : Arr2 1 128 := V c main_v60
abbrev X3 (c : Dev nD) : Arr2 128 3 := V c main_arg13
abbrev X4 (c : Dev nD) : Arr2 1 3 := V c main_v61

/-- Every window's block index is (0, 0) at the one grid point: each block is its whole array. -/
theorem idx_facts : ∀ t : Fin cfg7.N,
    (win7_0.index t (0 : Fin 2) = 0 ∧ win7_0.index t (1 : Fin 2) = 0)
    ∧ (win7_1.index t (0 : Fin 2) = 0 ∧ win7_1.index t (1 : Fin 2) = 0)
    ∧ (win7_2.index t (0 : Fin 2) = 0 ∧ win7_2.index t (1 : Fin 2) = 0)
    ∧ (win7_3.index t (0 : Fin 2) = 0 ∧ win7_3.index t (1 : Fin 2) = 0)
    ∧ (win7_4.index t (0 : Fin 2) = 0 ∧ win7_4.index t (1 : Fin 2) = 0)
    ∧ (win7_5.index t (0 : Fin 2) = 0 ∧ win7_5.index t (1 : Fin 2) = 0) :=
  (by decide +kernel : ∀ t : Fin grid7.N, _)

/-- What the one point writes back is the head of the five input arrays (the block is the whole output array). -/
theorem flushed_eq (c : Dev nD) (t : Fin cfg7.N) :
    (dat7 (F := Ideal) V c).flushed 5 t
      = ((cfg7.win 5).blk t).view.read (Elt Ideal) (headRow (X0 V c) (X1 V c) (X2 V c) (X3 V c) (X4 V c)) := by
  show (cfg7.win 5).cut (grid7.coords t) ((dat7 (F := Ideal) V c).after 5 t) = _
  rw [after7_5]
  unfold out7_5
  rw [View.canon_unit_zero hz]
  simp only [View.ld_unit_zero (S := S1000x64) hz, View.ld_unit_zero (S := S64x128) hz, View.ld_unit_zero (S := S1x128) hz,
    View.ld_unit_zero (S := S128x3) hz, View.ld_unit_zero (S := S1x3) hz]
  obtain ⟨⟨a0, a1⟩, ⟨b0, b1⟩, ⟨c0, c1⟩, ⟨d0, d1⟩, ⟨e0, e1⟩, ⟨f0, f1⟩⟩ := idx_facts t
  funext j
  show k7_pay1 (F := Ideal) (iblk7 V c 0 t) (iblk7 V c 1 t) (iblk7 V c 2 t) (iblk7 V c 3 t) (iblk7 V c 4 t) j
      = headRow (X0 V c) (X1 V c) (X2 V c) (X3 V c) (X4 V c) (((cfg7.win 5).blk t).view.emb j)
  refine (congrFun (pay_eq (iblk7 V c 0 t) (iblk7 V c 1 t) (iblk7 V c 2 t) (iblk7 V c 3 t) (iblk7 V c 4 t)) j).trans ?_
  have h0 : (iblk7 V c 0 t : Arr2 1000 64) = X0 V c := by
    funext i
    show X0 V c (((cfg7.win 0).blk t).view.emb i) = X0 V c i
    refine congrArg (X0 V c) ?_
    funext a; apply Fin.ext
    match a with
    | ⟨0, _⟩ => show win7_0.index t (0 : Fin 2) * 1000 + 1 * (i 0).val = (i 0).val; omega
    | ⟨1, _⟩ => show win7_0.index t (1 : Fin 2) * 64 + 1 * (i 1).val = (i 1).val; omega
  have h1 : (iblk7 V c 1 t : Arr2 64 128) = X1 V c := by
    funext i
    show X1 V c (((cfg7.win 1).blk t).view.emb i) = X1 V c i
    refine congrArg (X1 V c) ?_
    funext a; apply Fin.ext
    match a with
    | ⟨0, _⟩ => show win7_1.index t (0 : Fin 2) * 64 + 1 * (i 0).val = (i 0).val; omega
    | ⟨1, _⟩ => show win7_1.index t (1 : Fin 2) * 128 + 1 * (i 1).val = (i 1).val; omega
  have h2 : (iblk7 V c 2 t : Arr2 1 128) = X2 V c := by
    funext i
    show X2 V c (((cfg7.win 2).blk t).view.emb i) = X2 V c i
    refine congrArg (X2 V c) ?_
    funext a; apply Fin.ext
    match a with
    | ⟨0, _⟩ => show win7_2.index t (0 : Fin 2) * 1 + 1 * (i 0).val = (i 0).val; omega
    | ⟨1, _⟩ => show win7_2.index t (1 : Fin 2) * 128 + 1 * (i 1).val = (i 1).val; omega
  have h3 : (iblk7 V c 3 t : Arr2 128 3) = X3 V c := by
    funext i
    show X3 V c (((cfg7.win 3).blk t).view.emb i) = X3 V c i
    refine congrArg (X3 V c) ?_
    funext a; apply Fin.ext
    match a with
    | ⟨0, _⟩ => show win7_3.index t (0 : Fin 2) * 128 + 1 * (i 0).val = (i 0).val; omega
    | ⟨1, _⟩ => show win7_3.index t (1 : Fin 2) * 3 + 1 * (i 1).val = (i 1).val; omega
  have h4 : (iblk7 V c 4 t : Arr2 1 3) = X4 V c := by
    funext i
    show X4 V c (((cfg7.win 4).blk t).view.emb i) = X4 V c i
    refine congrArg (X4 V c) ?_
    funext a; apply Fin.ext
    match a with
    | ⟨0, _⟩ => show win7_4.index t (0 : Fin 2) * 1 + 1 * (i 0).val = (i 0).val; omega
    | ⟨1, _⟩ => show win7_4.index t (1 : Fin 2) * 3 + 1 * (i 1).val = (i 1).val; omega
  have h5 : ((cfg7.win 5).blk t).view.emb j = j := by
    funext a; apply Fin.ext
    match a with
    | ⟨0, _⟩ => show win7_5.index t (0 : Fin 2) * 1000 + 1 * (j 0).val = (j 0).val; omega
    | ⟨1, _⟩ => show win7_5.index t (1 : Fin 2) * 3 + 1 * (j 1).val = (j 1).val; omega
  rw [h0, h1, h2, h3, h4, h5]

/-- An index of the output array lies in point t's block iff each coordinate lies in the block's range. -/
theorem mem_blk (t : Fin cfg7.N) (i : S1000x3.Idx) :
    i ∈ ((cfg7.win 5).blk t).view.set ↔ ∀ a : Fin 2, win7_5.index t a * S1000x3.size a ≤ (i a).val ∧ (i a).val < win7_5.index t a * S1000x3.size a + S1000x3.size a := by
  show i ∈ ((View.whole main_v62).slice (win7_5.rect t)).set ↔ _
  rw [View.set_slice_whole, Rect.mem_set_unit]
  exact Iff.rfl

/-- Every index of the output array lies in the one point's block, which is the whole array. -/
theorem cover (i : S1000x3.Idx) : ∃ t : Fin cfg7.N, (cfg7.win 5).flush t = true ∧ i ∈ ((cfg7.win 5).blk t).view.set := by
  have hi0 : (i 0).val < 1000 := (i 0).isLt
  have hi1 : (i 1).val < 3 := (i 1).isLt
  obtain ⟨-, -, -, -, -, ⟨f0, f1⟩⟩ := idx_facts t7_0
  refine ⟨t7_0, flush7_5 t7_0, ?_⟩
  rw [mem_blk]
  intro a
  match a with
  | ⟨0, _⟩ => show win7_5.index t7_0 (0 : Fin 2) * 1000 ≤ (i 0).val ∧ (i 0).val < win7_5.index t7_0 (0 : Fin 2) * 1000 + 1000; rw [f0]; omega
  | ⟨1, _⟩ => show win7_5.index t7_0 (1 : Fin 2) * 3 ≤ (i 1).val ∧ (i 1).val < win7_5.index t7_0 (1 : Fin 2) * 3 + 3; rw [f1]; omega

/-- The output array after the region. -/
theorem val (c : Dev nD) :
    ((dat7 (F := Ideal) V c).arrAt 5 cfg7.N : Arr2 1000 3)
      = headRow (V c main_v59 : Arr2 1000 64) (V c main_arg11 : Arr2 64 128) (V c main_v60 : Arr2 1 128)
          (V c main_arg13 : Arr2 128 3) (V c main_v61 : Arr2 1 3) :=
  (dat7 (F := Ideal) V c).arrAt_eq_of_cover 5 _ (fun t _ => flushed_eq V c t) (cover)

end Cert.KernelIdeal.Reg7

end
-- ==== Proof.FoldH.lean ====
/-
  The pool and the head: what the kernel program holds after its segments 19 and 20, given the node features after
  the second layer at boundary 18.  Segment 19 sums the node features and counts the nodes of each graph, divides, and
  lays the head's two bias vectors out as rows; region 7 leaves the head's result, which is the program's result.
-/
import proofs.«421567_j10007273799859_2_alg».proof.Proof.FoldL1
import proofs.«421567_j10007273799859_2_alg».proof.Proof.Reg7
import Idealize.ShloMosaic.Lib.Pipeline.Value
import Idealize.ShloMosaic.Lib.ValueIdx
import Idealize.ShloMosaic.PureOps.Ideal.Laws

set_option maxRecDepth 16384

noncomputable section

namespace Cert.KernelIdeal.Fold

open Idealize.ShloMosaic Idealize.ShloMosaic.TcCoe Idealize.ShloMosaic.ValueIdx Idealize.ShloMosaic.StableHlo
open Cert.KernelIdeal Cert.KernelIdeal.Gen Cert.KernelIdeal.Host Cert.KernelIdeal.Stage Cert.Spec

variable (m : (ℓ : Loc nD τ sig) → Buf (Elt Ideal) ℓ) (ρ : Dev nD → PrngReg) (c : Dev nD)

/-! ## After segment 19: the pooled graph features and the head's bias rows -/

theorem at19_gx (hidx : EdgesInRange m c) : (W19 m ρ c (Proc.devRef .tc main_v59) : Arr2 1000 64) = gx m c := by
  show StableHlo.after hostOps7 (W18 m ρ c) (Proc.devRef .tc main_v59) = _
  after_results
  rw [show (W18 m ρ c (Proc.devRef .tc main_v47) : Arr2 100000 64) = h2 m c from at18_h m ρ c hidx,
    show W18 m ρ c (Proc.devRef .tc main_arg3) = m ((c : Thread nD τ).loc main_arg3) from argAt18 m ρ c (b := main_arg3) (by decide)]
  rfl

theorem at19_b1 : (W19 m ρ c (Proc.devRef .tc main_v60) : Arr2 1 128) = shapeCast S1x128 (A12 m c) shapeCasts_S128_S1x128 := by
  show StableHlo.after hostOps7 (W18 m ρ c) (Proc.devRef .tc main_v60) = _
  after_results
  rw [show W18 m ρ c (Proc.devRef .tc main_arg12) = m ((c : Thread nD τ).loc main_arg12) from argAt18 m ρ c (b := main_arg12) (by decide)]
  rfl

theorem at19_b2 : (W19 m ρ c (Proc.devRef .tc main_v61) : Arr2 1 3) = shapeCast S1x3 (A14 m c) shapeCasts_S3_S1x3 := by
  show StableHlo.after hostOps7 (W18 m ρ c) (Proc.devRef .tc main_v61) = _
  after_results
  rw [show W18 m ρ c (Proc.devRef .tc main_arg14) = m ((c : Thread nD τ).loc main_arg14) from argAt18 m ρ c (b := main_arg14) (by decide)]
  rfl

/-! ## After segment 20: the head -/

theorem at20_out (hidx : EdgesInRange m c) : (W20 m ρ c (Proc.devRef .tc main_v62) : Arr2 1000 3) = out m c := by
  refine (W20_arr m ρ c 5).trans ((Reg7.val (V19 m ρ) c).trans ?_)
  have e0 : (V19 m ρ c main_v59 : Arr2 1000 64) = gx m c := at19_gx m ρ c hidx
  have e1 : (V19 m ρ c main_arg11 : Arr2 64 128) = A11 m c := argAt19 m ρ c (b := main_arg11) (by decide)
  have e2 : (V19 m ρ c main_v60 : Arr2 1 128) = shapeCast S1x128 (A12 m c) shapeCasts_S128_S1x128 := at19_b1 m ρ c
  have e3 : (V19 m ρ c main_arg13 : Arr2 128 3) = A13 m c := argAt19 m ρ c (b := main_arg13) (by decide)
  have e4 : (V19 m ρ c main_v61 : Arr2 1 3) = shapeCast S1x3 (A14 m c) shapeCasts_S3_S1x3 := at19_b2 m ρ c
  rw [e0, e1, e2, e3, e4]
  exact headRow_eq_head _ _ _ _ _ _ _ (row_read (A12 m c) shapeCasts_S128_S1x128) (row_read (A14 m c) shapeCasts_S3_S1x3)

/-- The kernel program's result buffer ends at the network's value of the launch arrays. -/
theorem kernel_value (hidx : EdgesInRange m c) : (W20 m ρ c (Proc.devRef .tc main_v62) : Arr2 1000 3) = out m c :=
  at20_out m ρ c hidx

end Cert.KernelIdeal.Fold

end
-- ==== Proof.RHost.lean ====
/-
  The host side of the reference program as functions of the argument arrays, at the ideal values: the two rows of the
  edge list, an index wrapped into range and laid out as a column, the gathers and the scatter-add over them, the mean
  pool over the graph assignment, and each layer's weight matrices and bias vectors cut out of the stacked arguments.
  Then the values the program's stages hold, named one by one.
-/
import proofs.«421567_j10007273799859_2_alg».proof.ReferenceIdeal
import proofs.«421567_j10007273799859_2_alg».proof.Proof.Gen.ReferenceIdeal
import proofs.«421567_j10007273799859_2_alg».proof.Proof.Net

noncomputable section

namespace Cert.ReferenceIdeal.Host

open Idealize.ShloMosaic Cert.ReferenceIdeal Cert.ReferenceIdeal.Facts₀ Cert.ReferenceIdeal.Facts Cert.Spec

/-- Row r of the edge list as a vector of node numbers. -/
def src (a1 : IVec S2x1600000 32) : IVec S1600000 32 :=
  shapeCast S1600000 (extractStridedSlice S1x1600000 ![0, 0] a1 slices_S2x1600000_S1x1600000_0_0) shapeCasts_S1x1600000_S1600000
def dst (a1 : IVec S2x1600000 32) : IVec S1600000 32 :=
  shapeCast S1600000 (extractStridedSlice S1x1600000 ![1, 0] a1 slices_S2x1600000_S1x1600000_1_0) shapeCasts_S1x1600000_S1600000

/-- A node number with a negative one moved up by the node count, as a one-column array. -/
def wrapCol (idx : IVec S1600000 32) : IVec S1600000x1 32 :=
  broadcastInDim S1600000x1 ![0] bcast_S1600000_S1600000x1_0
    (select (cmpi .slt idx (broadcastInDim S1600000 ![] bcast_S_S1600000 (constantI S_ 32 0#32)))
      (addi idx (broadcastInDim S1600000 ![] bcast_S_S1600000 (constantI S_ 32 100000#32))) idx)

/-- The rows of a node array at the (wrapped, clamped) node numbers idx. -/
def gatherRows (idx : IVec S1600000 32) (a : Arr2 100000 64) : Arr2 1600000 64 :=
  Host.gather gather_S100000x64_S1600000x1_S1600000x64_1_0_n_n_0_1_164 (a : FVec Ideal S100000x64 .f32) (wrapCol idx)

/-- Edge rows added into the node rows their target numbers name, from zero. -/
def scatterRows (idx : IVec S1600000 32) (u : Arr2 1600000 64) : Arr2 100000 64 :=
  Host.scatterAdd (F := Ideal) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 idx) (u : FVec Ideal S1600000x64 .f32)

/-- The mean of the node rows of each graph, a graph with no node counted as having one. -/
def meanPool (batch : IVec S100000 32) (h : Arr2 100000 64) : Arr2 1000 64 :=
  Host.divf (F := Ideal)
    (Host.scatterAdd (F := Ideal) scatter_S1000x64_S100000x1_S100000x64_1_0_0_1
      (broadcastInDim S1000x64 ![] bcast_S_S1000x64 (constant (F := Ideal) S_ .f32 0x00000000#32))
      (broadcastInDim S100000x1 ![0] bcast_S100000_S100000x1_0 batch) (h : FVec Ideal S100000x64 .f32))
    (broadcastInDim S1000x64 ![0, 1] bcast_S1000x1_S1000x64_0_1
      (broadcastInDim S1000x1 ![0] bcast_S1000_S1000x1_0
        (maximumf
          (Host.scatterAdd (F := Ideal) scatter_S1000_S100000x1_S100000_n_0_0_1
            (broadcastInDim S1000 ![] bcast_S_S1000 (constant (F := Ideal) S_ .f32 0x00000000#32))
            (broadcastInDim S100000x1 ![0] bcast_S100000_S100000x1_0 batch)
            (broadcastInDim S100000 ![] bcast_S_S100000 (constant (F := Ideal) S_ .f32 0x3F800000#32)))
          (broadcastInDim S1000 ![] bcast_S_S1000 (constant (F := Ideal) S_ .f32 0x3F800000#32)))))

/-- Layer l's weight matrix out of a stacked argument. -/
def mat0 (a : FVec Ideal S2x64x64 .f32) : Arr2 64 64 :=
  shapeCast S64x64 (extractStridedSlice S1x64x64 ![0, 0, 0] a slices_S2x64x64_S1x64x64_0_0_0) shapeCasts_S1x64x64_S64x64
def mat1 (a : FVec Ideal S2x64x64 .f32) : Arr2 64 64 :=
  shapeCast S64x64 (extractStridedSlice S1x64x64 ![1, 0, 0] a slices_S2x64x64_S1x64x64_1_0_0) shapeCasts_S1x64x64_S64x64
/-- Layer l's bias vector out of a stacked argument. -/
def vec0 (a : FVec Ideal S2x64 .f32) : Arr1 64 :=
  shapeCast S64 (extractStridedSlice S1x64 ![0, 0] a slices_S2x64_S1x64_0_0) shapeCasts_S1x64_S64
def vec1 (a : FVec Ideal S2x64 .f32) : Arr1 64 :=
  shapeCast S64 (extractStridedSlice S1x64 ![1, 0] a slices_S2x64_S1x64_1_0) shapeCasts_S1x64_S64

/-- The host functions over the edge list a1 and the graph assignment a3. -/
def ops (a1 : IVec S2x1600000 32) (a3 : IVec S100000 32) : HostOps 100000 1600000 64 1000 where
  gS := gatherRows (src a1)
  gD := gatherRows (dst a1)
  sc := scatterRows (dst a1)
  pool := meanPool a3

end Cert.ReferenceIdeal.Host

end
-- ==== Proof.RefVal.lean ====
/-
  The reference program's result, read stage by stage, is the network of Net.lean over the host functions of
  RHost.lean: each dense layer a matrix product plus a bias vector broadcast to every row; the messages a difference
  of gathered rows times the edge weights broadcast along the rows; the node update the positive part of
  (aggregate + x · w3) + b3, which is aggregate + (x · w3 + b3); the head two dense layers around a positive part.
-/
import proofs.«421567_j10007273799859_2_alg».proof.Proof.Gen.ReferenceIdeal.Read
import proofs.«421567_j10007273799859_2_alg».proof.Proof.RHost
import Idealize.ShloMosaic.Lib.Pipeline.Value
import Idealize.ShloMosaic.Lib.ValueIdx
import Idealize.ShloMosaic.PureOps.Ideal.Laws

set_option maxRecDepth 16384

noncomputable section

namespace Cert.ReferenceIdeal.RefValue

open Idealize.ShloMosaic Idealize.ShloMosaic.ValueIdx Cert.ReferenceIdeal Cert.ReferenceIdeal.Read Cert.ReferenceIdeal.Host Cert.Spec

section Stages
open Cert.ReferenceIdeal.Facts₀ Cert.Lib

/-! ### Broadcast bias vectors and weights read at an index -/

/-- A 64-vector broadcast to one row and then down 100000 rows reads the vector at the column. -/
theorem bias64_apply (b : FVec Ideal S64 .f32) (i : S100000x64.Idx) :
    val_main_v6 (F := Ideal) b i = b (ix1 (i 1)) := by
  rw [val_main_v6_apply, val_main_v5_apply]
  exact congrArg b (funext fun a => match a with | ⟨0, _⟩ => rfl)

/-- A 128-vector broadcast to one row and then down 1000 rows reads the vector at the column. -/
theorem bias128_apply (b : FVec Ideal S128 .f32) (i : S1000x128.Idx) :
    val_main_v106 (F := Ideal) b i = b (ix1 (i 1)) := by
  rw [val_main_v106_apply, val_main_v105_apply]
  exact congrArg b (funext fun a => match a with | ⟨0, _⟩ => rfl)

/-- A 3-vector broadcast to one row and then down 1000 rows reads the vector at the column. -/
theorem bias3_apply (b : FVec Ideal S3 .f32) (i : S1000x3.Idx) :
    val_main_v111 (F := Ideal) b i = b (ix1 (i 1)) := by
  rw [val_main_v111_apply, val_main_v110_apply]
  exact congrArg b (funext fun a => match a with | ⟨0, _⟩ => rfl)

/-- The edge weights broadcast to one column and then along 64 columns read the weight at the row. -/
theorem ew_apply (e : FVec Ideal S1600000 .f32) (i : S1600000x64.Idx) :
    val_main_v35 (F := Ideal) e i = e (ix1 (i 0)) := by
  rw [val_main_v35_apply, val_main_v34_apply]
  exact congrArg e (funext fun a => match a with | ⟨0, _⟩ => rfl)

/-! ### The generic stages -/

/-- A product with a 64 × 64 matrix plus a broadcast bias vector is the dense layer. -/
theorem affine64 (h : FVec Ideal S100000x64 .f32) (w : FVec Ideal S64x64 .f32) (b : FVec Ideal S64 .f32) :
    (addf (Host.dotGeneral dot_S100000x64_S64x64_S100000x64_1_0_0_1_n_n none h w) (val_main_v6 (F := Ideal) b) : Arr2 100000 64)
      = affine (h : Arr2 100000 64) (w : Arr2 64 64) (b : Arr1 64) := by
  funext i
  rw [addf_apply, dotGeneral_eq_dense _ (by rfl) (by rfl) (by rfl) (by rfl) (by rfl) (by rfl) none h w, bias64_apply]
  rfl

/-- The messages: the difference of the gathered rows times the broadcast edge weights. -/
theorem msg_stage (a b : FVec Ideal S1600000x64 .f32) (e : FVec Ideal S1600000 .f32) :
    (mulf (subf a b) (val_main_v35 (F := Ideal) e) : Arr2 1600000 64) = msg (a : Arr2 1600000 64) (b : Arr2 1600000 64) (e : Arr1 1600000) := by
  funext i
  rw [mulf_apply, subf_apply, ew_apply]
  rfl

/-- The node update: (aggregate + h · w) + b, then the maximum with zero, is the positive part of
    aggregate + (h · w + b), by associativity of the sum. -/
theorem combine_stage (agg h : FVec Ideal S100000x64 .f32) (w : FVec Ideal S64x64 .f32) (b : FVec Ideal S64 .f32) :
    (maximumf (addf (addf agg (Host.dotGeneral dot_S100000x64_S64x64_S100000x64_1_0_0_1_n_n none h w)) (val_main_v6 (F := Ideal) b))
        (val_main_call0_v0 (F := Ideal)) : Arr2 100000 64)
      = combine (agg : Arr2 100000 64) (affine (h : Arr2 100000 64) (w : Arr2 64 64) (b : Arr1 64)) := by
  funext i
  rw [maximumf_apply, addf_apply, addf_apply, dotGeneral_eq_dense _ (by rfl) (by rfl) (by rfl) (by rfl) (by rfl) (by rfl) none h w,
    bias64_apply, val_main_call0_v0_apply, val_main_call0_cst_apply]
  show max (agg i + dense h w i + b (ix1 (i 1))) (Ideal.ofBits .f32 0x00000000#32) = max (agg i + (dense h w i + b (ix1 (i 1)))) 0
  rw [Ideal.ofBits_zero_f32, add_assoc]

end Stages

section Chain
open Cert.ReferenceIdeal.Facts₀ Cert.Lib

/-! ### The stages of the program, in order -/

/-- The embedding. -/
theorem s7 (x0 : FVec Ideal S100000x4 .f32) (x4 : FVec Ideal S4x64 .f32) (x5 : FVec Ideal S64 .f32) :
    (val_main_v7 (F := Ideal) x0 x4 x5 : Arr2 100000 64) = affine (x0 : Arr2 100000 4) (x4 : Arr2 4 64) (x5 : Arr1 64) := by
  unfold val_main_v7 val_main_v4
  funext i
  rw [addf_apply, dotGeneral_eq_dense _ (by rfl) (by rfl) (by rfl) (by rfl) (by rfl) (by rfl) none x0 x4, bias64_apply]
  rfl

/-- The wrapped source and target columns, in both layers. -/
theorem v24_eq (x1 : IVec S2x1600000 32) : val_main_v24 (F := Ideal) x1 = wrapCol (src x1) := rfl
theorem v31_eq (x1 : IVec S2x1600000 32) : val_main_v31 (F := Ideal) x1 = wrapCol (dst x1) := rfl
theorem v66_eq (x1 : IVec S2x1600000 32) : val_main_v66 (F := Ideal) x1 = wrapCol (src x1) := rfl
theorem v73_eq (x1 : IVec S2x1600000 32) : val_main_v73 (F := Ideal) x1 = wrapCol (dst x1) := rfl

/-- Layer 0: a = h · w1 + b1. -/
theorem s15 (x0 : FVec Ideal S100000x4 .f32) (x4 : FVec Ideal S4x64 .f32) (x5 : FVec Ideal S64 .f32)
    (x6 : FVec Ideal S2x64x64 .f32) (x7 : FVec Ideal S2x64 .f32) :
    (val_main_v15 (F := Ideal) x0 x4 x5 x6 x7 : Arr2 100000 64) = affine (val_main_v7 (F := Ideal) x0 x4 x5 : Arr2 100000 64) (mat0 x6) (vec0 x7) := by
  unfold val_main_v15 val_main_v10
  generalize val_main_v7 (F := Ideal) x0 x4 x5 = h
  exact affine64 h (val_main_v9 (F := Ideal) x6) (val_main_v12 (F := Ideal) x7)

/-- Layer 0: b = h · w2. -/
theorem s18 (x0 : FVec Ideal S100000x4 .f32) (x4 : FVec Ideal S4x64 .f32) (x5 : FVec Ideal S64 .f32) (x8 : FVec Ideal S2x64x64 .f32) :
    (val_main_v18 (F := Ideal) x0 x4 x5 x8 : Arr2 100000 64) = dense (val_main_v7 (F := Ideal) x0 x4 x5 : Arr2 100000 64) (mat0 x8) := by
  unfold val_main_v18
  generalize val_main_v7 (F := Ideal) x0 x4 x5 = h
  exact dotGeneral_eq_dense _ (by rfl) (by rfl) (by rfl) (by rfl) (by rfl) (by rfl) none h (val_main_v17 (F := Ideal) x8)

/-- Layer 0: the gathered source rows. -/
theorem s25 (x0 : FVec Ideal S100000x4 .f32) (x1 : IVec S2x1600000 32) (x4 : FVec Ideal S4x64 .f32) (x5 : FVec Ideal S64 .f32)
    (x6 : FVec Ideal S2x64x64 .f32) (x7 : FVec Ideal S2x64 .f32) :
    (val_main_v25 (F := Ideal) x0 x1 x4 x5 x6 x7 : Arr2 1600000 64) = gatherRows (src x1) (val_main_v15 (F := Ideal) x0 x4 x5 x6 x7) := by
  unfold val_main_v25 gatherRows
  rw [v24_eq]

/-- Layer 0: the gathered target rows. -/
theorem s32 (x0 : FVec Ideal S100000x4 .f32) (x1 : IVec S2x1600000 32) (x4 : FVec Ideal S4x64 .f32) (x5 : FVec Ideal S64 .f32)
    (x8 : FVec Ideal S2x64x64 .f32) :
    (val_main_v32 (F := Ideal) x0 x1 x4 x5 x8 : Arr2 1600000 64) = gatherRows (dst x1) (val_main_v18 (F := Ideal) x0 x4 x5 x8) := by
  unfold val_main_v32 gatherRows
  rw [v31_eq]

/-- Layer 0: the messages. -/
theorem s36 (x0 : FVec Ideal S100000x4 .f32) (x1 : IVec S2x1600000 32) (x2 : FVec Ideal S1600000 .f32) (x4 : FVec Ideal S4x64 .f32)
    (x5 : FVec Ideal S64 .f32) (x6 : FVec Ideal S2x64x64 .f32) (x7 : FVec Ideal S2x64 .f32) (x8 : FVec Ideal S2x64x64 .f32) :
    (val_main_v36 (F := Ideal) x0 x1 x2 x4 x5 x6 x7 x8 : Arr2 1600000 64)
      = msg (val_main_v25 (F := Ideal) x0 x1 x4 x5 x6 x7 : Arr2 1600000 64) (val_main_v32 (F := Ideal) x0 x1 x4 x5 x8 : Arr2 1600000 64) (x2 : Arr1 1600000) := by
  unfold val_main_v36 val_main_v33
  exact msg_stage _ _ x2

/-- Layer 0: the aggregate. -/
theorem s39 (x0 : FVec Ideal S100000x4 .f32) (x1 : IVec S2x1600000 32) (x2 : FVec Ideal S1600000 .f32) (x4 : FVec Ideal S4x64 .f32)
    (x5 : FVec Ideal S64 .f32) (x6 : FVec Ideal S2x64x64 .f32) (x7 : FVec Ideal S2x64 .f32) (x8 : FVec Ideal S2x64x64 .f32) :
    (val_main_v39 (F := Ideal) x0 x1 x2 x4 x5 x6 x7 x8 : Arr2 100000 64)
      = scatterRows (dst x1) (val_main_v36 (F := Ideal) x0 x1 x2 x4 x5 x6 x7 x8) := rfl

/-- Layer 0: the node update. -/
theorem s49 (x0 : FVec Ideal S100000x4 .f32) (x1 : IVec S2x1600000 32) (x2 : FVec Ideal S1600000 .f32)
    (x4 : FVec Ideal S4x64 .f32) (x5 : FVec Ideal S64 .f32) (x6 : FVec Ideal S2x64x64 .f32) (x7 : FVec Ideal S2x64 .f32)
    (x8 x9 : FVec Ideal S2x64x64 .f32) (x10 : FVec Ideal S2x64 .f32) :
    (val_main_v49 (F := Ideal) x0 x1 x2 x4 x5 x6 x7 x8 x9 x10 : Arr2 100000 64)
      = combine (val_main_v39 (F := Ideal) x0 x1 x2 x4 x5 x6 x7 x8 : Arr2 100000 64)
          (affine (val_main_v7 (F := Ideal) x0 x4 x5 : Arr2 100000 64) (mat0 x9) (vec0 x10)) := by
  unfold val_main_v49 val_main_v48 val_main_v43 val_main_v42
  generalize val_main_v7 (F := Ideal) x0 x4 x5 = h
  generalize val_main_v39 (F := Ideal) x0 x1 x2 x4 x5 x6 x7 x8 = agg
  exact combine_stage agg h (val_main_v41 (F := Ideal) x9) (val_main_v45 (F := Ideal) x10)

end Chain

section Chain1
open Cert.ReferenceIdeal.Facts₀ Cert.Lib

/-- Layer 1: a = h · w1 + b1 over layer 0's output. -/
theorem s57 (x0 : FVec Ideal S100000x4 .f32) (x1 : IVec S2x1600000 32) (x2 : FVec Ideal S1600000 .f32)
    (x4 : FVec Ideal S4x64 .f32) (x5 : FVec Ideal S64 .f32) (x6 : FVec Ideal S2x64x64 .f32) (x7 : FVec Ideal S2x64 .f32)
    (x8 x9 : FVec Ideal S2x64x64 .f32) (x10 : FVec Ideal S2x64 .f32) :
    (val_main_v57 (F := Ideal) x0 x1 x2 x4 x5 x6 x7 x8 x9 x10 : Arr2 100000 64)
      = affine (val_main_v49 (F := Ideal) x0 x1 x2 x4 x5 x6 x7 x8 x9 x10 : Arr2 100000 64) (mat1 x6) (vec1 x7) := by
  unfold val_main_v57 val_main_v52
  generalize val_main_v49 (F := Ideal) x0 x1 x2 x4 x5 x6 x7 x8 x9 x10 = h
  exact affine64 h (val_main_v51 (F := Ideal) x6) (val_main_v54 (F := Ideal) x7)

/-- Layer 1: b = h · w2. -/
theorem s60 (x0 : FVec Ideal S100000x4 .f32) (x1 : IVec S2x1600000 32) (x2 : FVec Ideal S1600000 .f32)
    (x4 : FVec Ideal S4x64 .f32) (x5 : FVec Ideal S64 .f32) (x6 : FVec Ideal S2x64x64 .f32) (x7 : FVec Ideal S2x64 .f32)
    (x8 x9 : FVec Ideal S2x64x64 .f32) (x10 : FVec Ideal S2x64 .f32) :
    (val_main_v60 (F := Ideal) x0 x1 x2 x4 x5 x6 x7 x8 x9 x10 : Arr2 100000 64)
      = dense (val_main_v49 (F := Ideal) x0 x1 x2 x4 x5 x6 x7 x8 x9 x10 : Arr2 100000 64) (mat1 x8) := by
  unfold val_main_v60
  generalize val_main_v49 (F := Ideal) x0 x1 x2 x4 x5 x6 x7 x8 x9 x10 = h
  exact dotGeneral_eq_dense _ (by rfl) (by rfl) (by rfl) (by rfl) (by rfl) (by rfl) none h (val_main_v59 (F := Ideal) x8)

/-- Layer 1: the gathered source rows. -/
theorem s67 (x0 : FVec Ideal S100000x4 .f32) (x1 : IVec S2x1600000 32) (x2 : FVec Ideal S1600000 .f32)
    (x4 : FVec Ideal S4x64 .f32) (x5 : FVec Ideal S64 .f32) (x6 : FVec Ideal S2x64x64 .f32) (x7 : FVec Ideal S2x64 .f32)
    (x8 x9 : FVec Ideal S2x64x64 .f32) (x10 : FVec Ideal S2x64 .f32) :
    (val_main_v67 (F := Ideal) x0 x1 x2 x4 x5 x6 x7 x8 x9 x10 : Arr2 1600000 64) = gatherRows (src x1) (val_main_v57 (F := Ideal) x0 x1 x2 x4 x5 x6 x7 x8 x9 x10) := by
  unfold val_main_v67 gatherRows
  rw [v66_eq]

/-- Layer 1: the gathered target rows. -/
theorem s74 (x0 : FVec Ideal S100000x4 .f32) (x1 : IVec S2x1600000 32) (x2 : FVec Ideal S1600000 .f32)
    (x4 : FVec Ideal S4x64 .f32) (x5 : FVec Ideal S64 .f32) (x6 : FVec Ideal S2x64x64 .f32) (x7 : FVec Ideal S2x64 .f32)
    (x8 x9 : FVec Ideal S2x64x64 .f32) (x10 : FVec Ideal S2x64 .f32) :
    (val_main_v74 (F := Ideal) x0 x1 x2 x4 x5 x6 x7 x8 x9 x10 : Arr2 1600000 64) = gatherRows (dst x1) (val_main_v60 (F := Ideal) x0 x1 x2 x4 x5 x6 x7 x8 x9 x10) := by
  unfold val_main_v74 gatherRows
  rw [v73_eq]

/-- Layer 1: the messages. -/
theorem s78 (x0 : FVec Ideal S100000x4 .f32) (x1 : IVec S2x1600000 32) (x2 : FVec Ideal S1600000 .f32)
    (x4 : FVec Ideal S4x64 .f32) (x5 : FVec Ideal S64 .f32) (x6 : FVec Ideal S2x64x64 .f32) (x7 : FVec Ideal S2x64 .f32)
    (x8 x9 : FVec Ideal S2x64x64 .f32) (x10 : FVec Ideal S2x64 .f32) :
    (val_main_v78 (F := Ideal) x0 x1 x2 x4 x5 x6 x7 x8 x9 x10 : Arr2 1600000 64)
      = msg (val_main_v67 (F := Ideal) x0 x1 x2 x4 x5 x6 x7 x8 x9 x10 : Arr2 1600000 64) (val_main_v74 (F := Ideal) x0 x1 x2 x4 x5 x6 x7 x8 x9 x10 : Arr2 1600000 64) (x2 : Arr1 1600000) := by
  unfold val_main_v78 val_main_v75
  exact msg_stage _ _ x2

/-- Layer 1: the aggregate. -/
theorem s81 (x0 : FVec Ideal S100000x4 .f32) (x1 : IVec S2x1600000 32) (x2 : FVec Ideal S1600000 .f32)
    (x4 : FVec Ideal S4x64 .f32) (x5 : FVec Ideal S64 .f32) (x6 : FVec Ideal S2x64x64 .f32) (x7 : FVec Ideal S2x64 .f32)
    (x8 x9 : FVec Ideal S2x64x64 .f32) (x10 : FVec Ideal S2x64 .f32) :
    (val_main_v81 (F := Ideal) x0 x1 x2 x4 x5 x6 x7 x8 x9 x10 : Arr2 100000 64) = scatterRows (dst x1) (val_main_v78 (F := Ideal) x0 x1 x2 x4 x5 x6 x7 x8 x9 x10) := rfl

/-- Layer 1: the node update. -/
theorem s91 (x0 : FVec Ideal S100000x4 .f32) (x1 : IVec S2x1600000 32) (x2 : FVec Ideal S1600000 .f32)
    (x4 : FVec Ideal S4x64 .f32) (x5 : FVec Ideal S64 .f32) (x6 : FVec Ideal S2x64x64 .f32) (x7 : FVec Ideal S2x64 .f32)
    (x8 x9 : FVec Ideal S2x64x64 .f32) (x10 : FVec Ideal S2x64 .f32) :
    (val_main_v91 (F := Ideal) x0 x1 x2 x4 x5 x6 x7 x8 x9 x10 : Arr2 100000 64)
      = combine (val_main_v81 (F := Ideal) x0 x1 x2 x4 x5 x6 x7 x8 x9 x10 : Arr2 100000 64)
          (affine (val_main_v49 (F := Ideal) x0 x1 x2 x4 x5 x6 x7 x8 x9 x10 : Arr2 100000 64) (mat1 x9) (vec1 x10)) := by
  unfold val_main_v91 val_main_v90 val_main_v85 val_main_v84
  generalize val_main_v49 (F := Ideal) x0 x1 x2 x4 x5 x6 x7 x8 x9 x10 = h
  generalize val_main_v81 (F := Ideal) x0 x1 x2 x4 x5 x6 x7 x8 x9 x10 = agg
  exact combine_stage agg h (val_main_v83 (F := Ideal) x9) (val_main_v87 (F := Ideal) x10)

/-- The mean pool. -/
theorem s103 (x0 : FVec Ideal S100000x4 .f32) (x1 : IVec S2x1600000 32) (x2 : FVec Ideal S1600000 .f32)
    (x4 : FVec Ideal S4x64 .f32) (x5 : FVec Ideal S64 .f32) (x6 : FVec Ideal S2x64x64 .f32) (x7 : FVec Ideal S2x64 .f32)
    (x8 x9 : FVec Ideal S2x64x64 .f32) (x10 : FVec Ideal S2x64 .f32) (x3 : IVec S100000 32) :
    (val_main_v103 (F := Ideal) x0 x1 x2 x3 x4 x5 x6 x7 x8 x9 x10 : Arr2 1000 64) = meanPool x3 (val_main_v91 (F := Ideal) x0 x1 x2 x4 x5 x6 x7 x8 x9 x10) := rfl

/-- The head over any pooled array: two dense layers around a positive part. -/
theorem head_stage (g : FVec Ideal S1000x64 .f32) (x11 : FVec Ideal S64x128 .f32) (x12 : FVec Ideal S128 .f32)
    (x13 : FVec Ideal S128x3 .f32) (x14 : FVec Ideal S3 .f32) :
    (addf (Host.dotGeneral dot_S1000x128_S128x3_S1000x3_1_0_0_1_n_n none
        (maximumf (addf (Host.dotGeneral dot_S1000x64_S64x128_S1000x128_1_0_0_1_n_n none g x11) (val_main_v106 (F := Ideal) x12))
          (val_main_call2_v0 (F := Ideal))) x13) (val_main_v111 (F := Ideal) x14) : Arr2 1000 3)
      = head (g : Arr2 1000 64) (x11 : Arr2 64 128) (x12 : Arr1 128) (x13 : Arr2 128 3) (x14 : Arr1 3) := by
  have e1 : (addf (Host.dotGeneral dot_S1000x64_S64x128_S1000x128_1_0_0_1_n_n none g x11) (val_main_v106 (F := Ideal) x12) : Arr2 1000 128)
      = affine (g : Arr2 1000 64) (x11 : Arr2 64 128) (x12 : Arr1 128) := by
    funext i
    rw [addf_apply, dotGeneral_eq_dense _ (by rfl) (by rfl) (by rfl) (by rfl) (by rfl) (by rfl) none g x11, bias128_apply]
    rfl
  unfold head
  rw [e1]
  generalize affine (g : Arr2 1000 64) (x11 : Arr2 64 128) (x12 : Arr1 128) = y
  have e2 : (maximumf (F := Ideal) (s := S1000x128) (φ := .f32) y (val_main_call2_v0 (F := Ideal)) : Arr2 1000 128) = relu y := by
    funext i
    rw [maximumf_apply, val_main_call2_v0_apply, val_main_call2_cst_apply]
    show max (y i) (Ideal.ofBits .f32 0x00000000#32) = max (y i) 0
    rw [Ideal.ofBits_zero_f32]
  rw [e2]
  generalize relu y = r
  funext i
  rw [addf_apply, dotGeneral_eq_dense _ (by rfl) (by rfl) (by rfl) (by rfl) (by rfl) (by rfl) none r x13, bias3_apply]
  rfl

/-- The head over the pooled node features. -/
theorem s112 (x0 : FVec Ideal S100000x4 .f32) (x1 : IVec S2x1600000 32) (x2 : FVec Ideal S1600000 .f32)
    (x4 : FVec Ideal S4x64 .f32) (x5 : FVec Ideal S64 .f32) (x6 : FVec Ideal S2x64x64 .f32) (x7 : FVec Ideal S2x64 .f32)
    (x8 x9 : FVec Ideal S2x64x64 .f32) (x10 : FVec Ideal S2x64 .f32) (x3 : IVec S100000 32) (x11 : FVec Ideal S64x128 .f32) (x12 : FVec Ideal S128 .f32)
    (x13 : FVec Ideal S128x3 .f32) (x14 : FVec Ideal S3 .f32) :
    (val_main_v112 (F := Ideal) x0 x1 x2 x3 x4 x5 x6 x7 x8 x9 x10 x11 x12 x13 x14 : Arr2 1000 3)
      = head (val_main_v103 (F := Ideal) x0 x1 x2 x3 x4 x5 x6 x7 x8 x9 x10 : Arr2 1000 64) (x11 : Arr2 64 128) (x12 : Arr1 128) (x13 : Arr2 128 3) (x14 : Arr1 3) := by
  unfold val_main_v112 val_main_v109 val_main_v108 val_main_v107 val_main_v104
  generalize val_main_v103 (F := Ideal) x0 x1 x2 x3 x4 x5 x6 x7 x8 x9 x10 = g
  exact head_stage g x11 x12 x13 x14

/-- Layer 0 as a whole. -/
theorem layer0 (x0 : FVec Ideal S100000x4 .f32) (x1 : IVec S2x1600000 32) (x2 : FVec Ideal S1600000 .f32)
    (x4 : FVec Ideal S4x64 .f32) (x5 : FVec Ideal S64 .f32) (x6 : FVec Ideal S2x64x64 .f32) (x7 : FVec Ideal S2x64 .f32)
    (x8 x9 : FVec Ideal S2x64x64 .f32) (x10 : FVec Ideal S2x64 .f32) :
    (val_main_v49 (F := Ideal) x0 x1 x2 x4 x5 x6 x7 x8 x9 x10 : Arr2 100000 64)
      = layer (gatherRows (src x1)) (gatherRows (dst x1)) (scatterRows (dst x1)) (x2 : Arr1 1600000)
          (mat0 x6) (vec0 x7) (mat0 x8) (mat0 x9) (vec0 x10) (val_main_v7 (F := Ideal) x0 x4 x5 : Arr2 100000 64) := by
  unfold layer
  rw [s49, s39, s36, s25, s32, s15, s18]

/-- Layer 1 as a whole. -/
theorem layer1 (x0 : FVec Ideal S100000x4 .f32) (x1 : IVec S2x1600000 32) (x2 : FVec Ideal S1600000 .f32)
    (x4 : FVec Ideal S4x64 .f32) (x5 : FVec Ideal S64 .f32) (x6 : FVec Ideal S2x64x64 .f32) (x7 : FVec Ideal S2x64 .f32)
    (x8 x9 : FVec Ideal S2x64x64 .f32) (x10 : FVec Ideal S2x64 .f32) :
    (val_main_v91 (F := Ideal) x0 x1 x2 x4 x5 x6 x7 x8 x9 x10 : Arr2 100000 64)
      = layer (gatherRows (src x1)) (gatherRows (dst x1)) (scatterRows (dst x1)) (x2 : Arr1 1600000)
          (mat1 x6) (vec1 x7) (mat1 x8) (mat1 x9) (vec1 x10) (val_main_v49 (F := Ideal) x0 x1 x2 x4 x5 x6 x7 x8 x9 x10 : Arr2 100000 64) := by
  unfold layer
  rw [s91, s81, s78, s67, s74, s57, s60]

end Chain1

/-- The reference's result is the network over its own host functions. -/
theorem result_eq_net (x0 : FVec Ideal S100000x4 .f32) (x1 : IVec S2x1600000 32) (x2 : FVec Ideal S1600000 .f32) (x3 : IVec S100000 32)
    (x4 : FVec Ideal S4x64 .f32) (x5 : FVec Ideal S64 .f32) (x6 : FVec Ideal S2x64x64 .f32) (x7 : FVec Ideal S2x64 .f32)
    (x8 x9 : FVec Ideal S2x64x64 .f32) (x10 : FVec Ideal S2x64 .f32) (x11 : FVec Ideal S64x128 .f32) (x12 : FVec Ideal S128 .f32)
    (x13 : FVec Ideal S128x3 .f32) (x14 : FVec Ideal S3 .f32) :
    (val_main_v112 (F := Ideal) x0 x1 x2 x3 x4 x5 x6 x7 x8 x9 x10 x11 x12 x13 x14 : Arr2 1000 3)
      = net (ops x1 x3) (x0 : Arr2 100000 4) (x4 : Arr2 4 64) (x5 : Arr1 64) (x2 : Arr1 1600000)
          (mat0 x6) (vec0 x7) (mat0 x8) (mat0 x9) (vec0 x10)
          (mat1 x6) (vec1 x7) (mat1 x8) (mat1 x9) (vec1 x10)
          (x11 : Arr2 64 128) (x12 : Arr1 128) (x13 : Arr2 128 3) (x14 : Arr1 3) := by
  rw [s112, s103, layer1, layer0, s7]
  rfl

end Cert.ReferenceIdeal.RefValue

end
-- ==== Proof.lean ====
/-
  A two-layer message-passing network over a graph of 100000 nodes and 1600000 edges, pooled per graph and sent
  through a two-layer head: the Pallas program against its jnp reference, on the extended reals.

  Both programs compute, from the same arrays, the network of Proof/Net.lean: node features embedded by a dense layer;
  per layer three dense layers a, b, c of the node features, the rows of a gathered at each edge's source node and of b
  at its target node, the message (a[src] − b[dst]) · w on each edge, the messages summed into their target nodes, and
  the positive part of that sum plus c; the mean of the node features over each graph; two dense layers around a
  positive part.  The kernel's matrix products pass their operands through a narrower float format, which is the
  identity on the extended reals, and accumulate block by block over row tiles, which is the same sum; its node update
  adds the bias to x · w3 before adding the aggregate where the reference adds it after (associativity of + on the
  extended reals, no finiteness needed).  The one place the two programs differ is an edge whose source node number is
  out of range: the kernel's gather then fills the row where the reference's clamps.  The precondition says every
  entry of the edge list is a node number; under it the fill never happens.

  The kernel side: Proof/KRun.lean re-runs the generated frame's launch so that the result buffer's final contents are
  named; Proof/Reg0 … Reg7 read each region's output array as one whole-array function of its input arrays;
  Proof/FoldE, FoldL0, FoldL1, FoldH carry those through the program's twenty segments to the result.  The reference
  side: Proof/RefVal.lean over the generated stage-by-stage reading of its run.  Here: the two runs, joined.
-/
import proofs.«421567_j10007273799859_2_alg».proof.Defs
import proofs.«421567_j10007273799859_2_alg».proof.Proof.Gen.Kernel
import proofs.«421567_j10007273799859_2_alg».proof.Proof.Gen.Kernel.Skeleton
import proofs.«421567_j10007273799859_2_alg».proof.Proof.Gen.Kernel.Launch
import proofs.«421567_j10007273799859_2_alg».proof.Proof.Gen.Kernel.Points
import proofs.«421567_j10007273799859_2_alg».proof.Proof.Gen.Kernel.Frame
import proofs.«421567_j10007273799859_2_alg».proof.Proof.Gen.KernelIdeal
import proofs.«421567_j10007273799859_2_alg».proof.Proof.Gen.KernelIdeal.Skeleton
import proofs.«421567_j10007273799859_2_alg».proof.Proof.Gen.KernelIdeal.Launch
import proofs.«421567_j10007273799859_2_alg».proof.Proof.Gen.KernelIdeal.Points
import proofs.«421567_j10007273799859_2_alg».proof.Proof.Gen.KernelIdeal.Frame
import proofs.«421567_j10007273799859_2_alg».proof.Proof.Gen.ReferenceIdeal
import proofs.«421567_j10007273799859_2_alg».proof.Proof.Gen.ReferenceIdeal.Run
import proofs.«421567_j10007273799859_2_alg».proof.Proof.Gen.ReferenceIdeal.Read
import proofs.«421567_j10007273799859_2_alg».proof.Proof.Gen.Pre_finite_inputs
import proofs.«421567_j10007273799859_2_alg».proof.Proof.KRun
import proofs.«421567_j10007273799859_2_alg».proof.Proof.FoldH
import proofs.«421567_j10007273799859_2_alg».proof.Proof.Edges
import proofs.«421567_j10007273799859_2_alg».proof.Proof.RefVal
import Idealize.ShloMosaic.Adequacy
import Idealize.ShloMosaic.Init

noncomputable section

namespace Cert.Proof

open Idealize.ShloMosaic Idealize.ShloMosaic.TcCoe Idealize.SL.Sem

/-- The word-level program terminates without a fault and leaves its arguments as launched. -/
theorem frame_kernel : Cert.frame_Kernel := fun m ρ _ => Cert.Kernel.Gen.frame m ρ

/-- So does the idealized program. -/
theorem frame_kernelIdeal : Cert.frame_KernelIdeal := fun m ρ _ => Cert.KernelIdeal.Gen.frame m ρ

/-- And the reference: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The host functions of the two programs are the same functions of the edge list and the graph assignment, and so
    are the weight matrices and bias vectors they cut out of the stacked arguments. -/
theorem ops_eq (a1 : IVec Cert.KernelIdeal.S2x1600000 32) (a3 : IVec Cert.KernelIdeal.S100000 32) :
    Cert.ReferenceIdeal.Host.ops a1 a3 = Cert.KernelIdeal.Host.ops a1 a3 := rfl
theorem mat0_eq (a : FVec Ideal Cert.KernelIdeal.S2x64x64 .f32) : Cert.ReferenceIdeal.Host.mat0 a = Cert.KernelIdeal.Host.mat0 a := rfl
theorem mat1_eq (a : FVec Ideal Cert.KernelIdeal.S2x64x64 .f32) : Cert.ReferenceIdeal.Host.mat1 a = Cert.KernelIdeal.Host.mat1 a := rfl
theorem vec0_eq (a : FVec Ideal Cert.KernelIdeal.S2x64 .f32) : Cert.ReferenceIdeal.Host.vec0 a = Cert.KernelIdeal.Host.vec0 a := rfl
theorem vec1_eq (a : FVec Ideal Cert.KernelIdeal.S2x64 .f32) : Cert.ReferenceIdeal.Host.vec1 a = Cert.KernelIdeal.Host.vec1 a := rfl

/-- From memories that agree on the arguments both idealized programs run to the network's value of those arrays. -/
theorem algebraic : Cert.algebraic_KernelIdeal_ReferenceIdeal := by
  intro m ρ m' ρ' hpre hagree
  refine ⟨fun c => Cert.KernelIdeal.Stage.out m c, ?_, ?_⟩
  · exact (θ_run Cert.KernelIdeal.defs _ _).mono
      (fun r h c => ⟨(h c).1.trans (Cert.KernelIdeal.Fold.kernel_value m ρ c (Cert.KernelIdeal.Edges.inRange_of_pre m c hpre)), (h c).2⟩)
      (Cert.KernelIdeal.Result.run (F := Ideal) m ρ)
  · refine (θ_run Cert.ReferenceIdeal.defs _ _).mono (fun r h c => ⟨(h c).1.trans ?_, (h c).2⟩)
      (Cert.ReferenceIdeal.Value.run (F := Ideal) m' ρ')
    obtain ⟨g0, g1, g2, g3, g4, g5, g6, g7, g8, g9, g10, g11, g12, g13, g14⟩ := hagree c
    rw [Cert.ReferenceIdeal.Read.val_main_v112_eq, g0, g1, g2, g3, g4, g5, g6, g7, g8, g9, g10, g11, g12, g13, g14]
    refine (Cert.ReferenceIdeal.RefValue.result_eq_net _ _ _ _ _ _ _ _ _ _ _ _ _ _ _).trans ?_
    rw [ops_eq, mat0_eq, mat0_eq, mat0_eq, mat1_eq, mat1_eq, mat1_eq, vec0_eq, vec0_eq, vec1_eq, vec1_eq]
    exact (Cert.KernelIdeal.Stage.out_eq_net m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
